-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26 : Shape := ⟨1, ![26]⟩
abbrev S29x7 : Shape := ⟨2, ![29, 7]⟩
abbrev S26x7 : Shape := ⟨2, ![26, 7]⟩
abbrev S11x7 : Shape := ⟨2, ![11, 7]⟩
abbrev S11 : Shape := ⟨1, ![11]⟩
abbrev S7x11 : Shape := ⟨2, ![7, 11]⟩
abbrev S7 : Shape := ⟨1, ![7]⟩
abbrev S29 : Shape := ⟨1, ![29]⟩
abbrev S_ : Shape := ⟨0, ![]⟩

class Facts : Prop where
  bcast_S_S26 : S_.BroadcastsInDim S26 (![] : Fin 0 → Fin S26.rank)
  reducesTo_S26_S_d0 : S26.ReducesTo [0] S_
  h_S_ : 0 < S_.numel
  bcast_S_S29x7 : S_.BroadcastsInDim S29x7 (![] : Fin 0 → Fin S29x7.rank)
  reducesTo_S29x7_S_d0_1 : S29x7.ReducesTo [0, 1] S_
  bcast_S_S26x7 : S_.BroadcastsInDim S26x7 (![] : Fin 0 → Fin S26x7.rank)
  reducesTo_S26x7_S_d0_1 : S26x7.ReducesTo [0, 1] S_
  bcast_S_S11x7 : S_.BroadcastsInDim S11x7 (![] : Fin 0 → Fin S11x7.rank)
  reducesTo_S11x7_S_d0_1 : S11x7.ReducesTo [0, 1] S_
  bcast_S_S11 : S_.BroadcastsInDim S11 (![] : Fin 0 → Fin S11.rank)
  reducesTo_S11_S_d0 : S11.ReducesTo [0] S_
  bcast_S_S7x11 : S_.BroadcastsInDim S7x11 (![] : Fin 0 → Fin S7x11.rank)
  reducesTo_S7x11_S_d0_1 : S7x11.ReducesTo [0, 1] S_
  bcast_S_S7 : S_.BroadcastsInDim S7 (![] : Fin 0 → Fin S7.rank)
  reducesTo_S7_S_d0 : S7.ReducesTo [0] S_
  bcast_S_S29 : S_.BroadcastsInDim S29 (![] : Fin 0 → Fin S29.rank)
  reducesTo_S29_S_d0 : S29.ReducesTo [0] S_

variable [Facts]

def fn_part6 {F : FTy → Type} [FloatOps F] (main_v100 : IVec S_ 1) (main_v101 : FVec F S29 .f32) (main_cst_39 : FVec F S_ .f32) : IVec S_ 1 :=
  let main_v102 : FVec F S29 .f32 := broadcastInDim S29 ![] bcast_S_S29 main_cst_39
  let main_v103 : IVec S29 1 := cmpf .olt main_v101 main_v102
  let main_c_40 : IVec S_ 1 := constantI S_ 1 1#1
  let main_v104 : IVec S_ 1 := (fun x v => Host.reduce IntOp.andi x v reducesTo_S29_S_d0 h_S_) main_v103 main_c_40
  let main_v105 : IVec S_ 1 := andi main_v100 main_v104
  main_v105

def fn_part5 {F : FTy → Type} [FloatOps F] (main_arg17 : FVec F S7x11 .f32) (main_arg18 : FVec F S7 .f32) (main_arg19 : FVec F S29x7 .f32) (main_arg20 : FVec F S29 .f32) (main_v80 : IVec S_ 1) (main_v84 : IVec S_ 1) : IVec S_ 1 :=
  let main_v85 : IVec S_ 1 := andi main_v80 main_v84
  let main_v86 : FVec F S7x11 .f32 := Host.absf main_arg17
  let main_cst_33 : FVec F S_ .f32 := constant S_ .f32 0x7F800000#32
  let main_v87 : FVec F S7x11 .f32 := broadcastInDim S7x11 ![] bcast_S_S7x11 main_cst_33
  let main_v88 : IVec S7x11 1 := cmpf .olt main_v86 main_v87
  let main_c_34 : IVec S_ 1 := constantI S_ 1 1#1
  let main_v89 : IVec S_ 1 := (fun x v => Host.reduce IntOp.andi x v reducesTo_S7x11_S_d0_1 h_S_) main_v88 main_c_34
  let main_v90 : IVec S_ 1 := andi main_v85 main_v89
  let main_v91 : FVec F S7 .f32 := Host.absf main_arg18
  let main_cst_35 : FVec F S_ .f32 := constant S_ .f32 0x7F800000#32
  let main_v92 : FVec F S7 .f32 := broadcastInDim S7 ![] bcast_S_S7 main_cst_35
  let main_v93 : IVec S7 1 := cmpf .olt main_v91 main_v92
  let main_c_36 : IVec S_ 1 := constantI S_ 1 1#1
  let main_v94 : IVec S_ 1 := (fun x v => Host.reduce IntOp.andi x v reducesTo_S7_S_d0 h_S_) main_v93 main_c_36
  let main_v95 : IVec S_ 1 := andi main_v90 main_v94
  let main_v96 : FVec F S29x7 .f32 := Host.absf main_arg19
  let main_cst_37 : FVec F S_ .f32 := constant S_ .f32 0x7F800000#32
  let main_v97 : FVec F S29x7 .f32 := broadcastInDim S29x7 ![] bcast_S_S29x7 main_cst_37
  let main_v98 : IVec S29x7 1 := cmpf .olt main_v96 main_v97
  let main_c_38 : IVec S_ 1 := constantI S_ 1 1#1
  let main_v99 : IVec S_ 1 := (fun x v => Host.reduce IntOp.andi x v reducesTo_S29x7_S_d0_1 h_S_) main_v98 main_c_38
  let main_v100 : IVec S_ 1 := andi main_v95 main_v99
  let main_v101 : FVec F S29 .f32 := Host.absf main_arg20
  let main_cst_39 : FVec F S_ .f32 := constant S_ .f32 0x7F800000#32
  fn_part6 (F := F) main_v100 main_v101 main_cst_39

def fn_part4 {F : FTy → Type} [FloatOps F] (main_arg14 : FVec F S11 .f32) (main_arg15 : FVec F S11x7 .f32) (main_arg16 : FVec F S11 .f32) (main_arg17 : FVec F S7x11 .f32) (main_arg18 : FVec F S7 .f32) (main_arg19 : FVec F S29x7 .f32) (main_arg20 : FVec F S29 .f32) (main_v65 : IVec S_ 1) (main_v66 : FVec F S11x7 .f32) (main_v67 : FVec F S11x7 .f32) : IVec S_ 1 :=
  let main_v68 : IVec S11x7 1 := cmpf .olt main_v66 main_v67
  let main_c_26 : IVec S_ 1 := constantI S_ 1 1#1
  let main_v69 : IVec S_ 1 := (fun x v => Host.reduce IntOp.andi x v reducesTo_S11x7_S_d0_1 h_S_) main_v68 main_c_26
  let main_v70 : IVec S_ 1 := andi main_v65 main_v69
  let main_v71 : FVec F S11 .f32 := Host.absf main_arg14
  let main_cst_27 : FVec F S_ .f32 := constant S_ .f32 0x7F800000#32
  let main_v72 : FVec F S11 .f32 := broadcastInDim S11 ![] bcast_S_S11 main_cst_27
  let main_v73 : IVec S11 1 := cmpf .olt main_v71 main_v72
  let main_c_28 : IVec S_ 1 := constantI S_ 1 1#1
  let main_v74 : IVec S_ 1 := (fun x v => Host.reduce IntOp.andi x v reducesTo_S11_S_d0 h_S_) main_v73 main_c_28
  let main_v75 : IVec S_ 1 := andi main_v70 main_v74
  let main_v76 : FVec F S11x7 .f32 := Host.absf main_arg15
  let main_cst_29 : FVec F S_ .f32 := constant S_ .f32 0x7F800000#32
  let main_v77 : FVec F S11x7 .f32 := broadcastInDim S11x7 ![] bcast_S_S11x7 main_cst_29
  let main_v78 : IVec S11x7 1 := cmpf .olt main_v76 main_v77
  let main_c_30 : IVec S_ 1 := constantI S_ 1 1#1
  let main_v79 : IVec S_ 1 := (fun x v => Host.reduce IntOp.andi x v reducesTo_S11x7_S_d0_1 h_S_) main_v78 main_c_30
  let main_v80 : IVec S_ 1 := andi main_v75 main_v79
  let main_v81 : FVec F S11 .f32 := Host.absf main_arg16
  let main_cst_31 : FVec F S_ .f32 := constant S_ .f32 0x7F800000#32
  let main_v82 : FVec F S11 .f32 := broadcastInDim S11 ![] bcast_S_S11 main_cst_31
  let main_v83 : IVec S11 1 := cmpf .olt main_v81 main_v82
  let main_c_32 : IVec S_ 1 := constantI S_ 1 1#1
  let main_v84 : IVec S_ 1 := (fun x v => Host.reduce IntOp.andi x v reducesTo_S11_S_d0 h_S_) main_v83 main_c_32
  fn_part5 (F := F) main_arg17 main_arg18 main_arg19 main_arg20 main_v80 main_v84

def fn_part3 {F : FTy → Type} [FloatOps F] (main_arg10 : FVec F S7 .f32) (main_arg11 : FVec F S11x7 .f32) (main_arg12 : FVec F S11 .f32) (main_arg13 : FVec F S11x7 .f32) (main_arg14 : FVec F S11 .f32) (main_arg15 : FVec F S11x7 .f32) (main_arg16 : FVec F S11 .f32) (main_arg17 : FVec F S7x11 .f32) (main_arg18 : FVec F S7 .f32) (main_arg19 : FVec F S29x7 .f32) (main_arg20 : FVec F S29 .f32) (main_v50 : IVec S_ 1) : IVec S_ 1 :=
  let main_v51 : FVec F S7 .f32 := Host.absf main_arg10
  let main_cst_19 : FVec F S_ .f32 := constant S_ .f32 0x7F800000#32
  let main_v52 : FVec F S7 .f32 := broadcastInDim S7 ![] bcast_S_S7 main_cst_19
  let main_v53 : IVec S7 1 := cmpf .olt main_v51 main_v52
  let main_c_20 : IVec S_ 1 := constantI S_ 1 1#1
  let main_v54 : IVec S_ 1 := (fun x v => Host.reduce IntOp.andi x v reducesTo_S7_S_d0 h_S_) main_v53 main_c_20
  let main_v55 : IVec S_ 1 := andi main_v50 main_v54
  let main_v56 : FVec F S11x7 .f32 := Host.absf main_arg11
  let main_cst_21 : FVec F S_ .f32 := constant S_ .f32 0x7F800000#32
  let main_v57 : FVec F S11x7 .f32 := broadcastInDim S11x7 ![] bcast_S_S11x7 main_cst_21
  let main_v58 : IVec S11x7 1 := cmpf .olt main_v56 main_v57
  let main_c_22 : IVec S_ 1 := constantI S_ 1 1#1
  let main_v59 : IVec S_ 1 := (fun x v => Host.reduce IntOp.andi x v reducesTo_S11x7_S_d0_1 h_S_) main_v58 main_c_22
  let main_v60 : IVec S_ 1 := andi main_v55 main_v59
  let main_v61 : FVec F S11 .f32 := Host.absf main_arg12
  let main_cst_23 : FVec F S_ .f32 := constant S_ .f32 0x7F800000#32
  let main_v62 : FVec F S11 .f32 := broadcastInDim S11 ![] bcast_S_S11 main_cst_23
  let main_v63 : IVec S11 1 := cmpf .olt main_v61 main_v62
  let main_c_24 : IVec S_ 1 := constantI S_ 1 1#1
  let main_v64 : IVec S_ 1 := (fun x v => Host.reduce IntOp.andi x v reducesTo_S11_S_d0 h_S_) main_v63 main_c_24
  let main_v65 : IVec S_ 1 := andi main_v60 main_v64
  let main_v66 : FVec F S11x7 .f32 := Host.absf main_arg13
  let main_cst_25 : FVec F S_ .f32 := constant S_ .f32 0x7F800000#32
  let main_v67 : FVec F S11x7 .f32 := broadcastInDim S11x7 ![] bcast_S_S11x7 main_cst_25
  fn_part4 (F := F) main_arg14 main_arg15 main_arg16 main_arg17 main_arg18 main_arg19 main_arg20 main_v65 main_v66 main_v67

def fn_part2 {F : FTy → Type} [FloatOps F] (main_arg7 : FVec F S11x7 .f32) (main_arg8 : FVec F S11 .f32) (main_arg9 : FVec F S7x11 .f32) (main_arg10 : FVec F S7 .f32) (main_arg11 : FVec F S11x7 .f32) (main_arg12 : FVec F S11 .f32) (main_arg13 : FVec F S11x7 .f32) (main_arg14 : FVec F S11 .f32) (main_arg15 : FVec F S11x7 .f32) (main_arg16 : FVec F S11 .f32) (main_arg17 : FVec F S7x11 .f32) (main_arg18 : FVec F S7 .f32) (main_arg19 : FVec F S29x7 .f32) (main_arg20 : FVec F S29 .f32) (main_v30 : IVec S_ 1) (main_v33 : IVec S11 1) : IVec S_ 1 :=
  let main_c_12 : IVec S_ 1 := constantI S_ 1 1#1
  let main_v34 : IVec S_ 1 := (fun x v => Host.reduce IntOp.andi x v reducesTo_S11_S_d0 h_S_) main_v33 main_c_12
  let main_v35 : IVec S_ 1 := andi main_v30 main_v34
  let main_v36 : FVec F S11x7 .f32 := Host.absf main_arg7
  let main_cst_13 : FVec F S_ .f32 := constant S_ .f32 0x7F800000#32
  let main_v37 : FVec F S11x7 .f32 := broadcastInDim S11x7 ![] bcast_S_S11x7 main_cst_13
  let main_v38 : IVec S11x7 1 := cmpf .olt main_v36 main_v37
  let main_c_14 : IVec S_ 1 := constantI S_ 1 1#1
  let main_v39 : IVec S_ 1 := (fun x v => Host.reduce IntOp.andi x v reducesTo_S11x7_S_d0_1 h_S_) main_v38 main_c_14
  let main_v40 : IVec S_ 1 := andi main_v35 main_v39
  let main_v41 : FVec F S11 .f32 := Host.absf main_arg8
  let main_cst_15 : FVec F S_ .f32 := constant S_ .f32 0x7F800000#32
  let main_v42 : FVec F S11 .f32 := broadcastInDim S11 ![] bcast_S_S11 main_cst_15
  let main_v43 : IVec S11 1 := cmpf .olt main_v41 main_v42
  let main_c_16 : IVec S_ 1 := constantI S_ 1 1#1
  let main_v44 : IVec S_ 1 := (fun x v => Host.reduce IntOp.andi x v reducesTo_S11_S_d0 h_S_) main_v43 main_c_16
  let main_v45 : IVec S_ 1 := andi main_v40 main_v44
  let main_v46 : FVec F S7x11 .f32 := Host.absf main_arg9
  let main_cst_17 : FVec F S_ .f32 := constant S_ .f32 0x7F800000#32
  let main_v47 : FVec F S7x11 .f32 := broadcastInDim S7x11 ![] bcast_S_S7x11 main_cst_17
  let main_v48 : IVec S7x11 1 := cmpf .olt main_v46 main_v47
  let main_c_18 : IVec S_ 1 := constantI S_ 1 1#1
  let main_v49 : IVec S_ 1 := (fun x v => Host.reduce IntOp.andi x v reducesTo_S7x11_S_d0_1 h_S_) main_v48 main_c_18
  let main_v50 : IVec S_ 1 := andi main_v45 main_v49
  fn_part3 (F := F) main_arg10 main_arg11 main_arg12 main_arg13 main_arg14 main_arg15 main_arg16 main_arg17 main_arg18 main_arg19 main_arg20 main_v50

def fn_part1 {F : FTy → Type} [FloatOps F] (main_arg4 : FVec F S11 .f32) (main_arg5 : FVec F S11x7 .f32) (main_arg6 : FVec F S11 .f32) (main_arg7 : FVec F S11x7 .f32) (main_arg8 : FVec F S11 .f32) (main_arg9 : FVec F S7x11 .f32) (main_arg10 : FVec F S7 .f32) (main_arg11 : FVec F S11x7 .f32) (main_arg12 : FVec F S11 .f32) (main_arg13 : FVec F S11x7 .f32) (main_arg14 : FVec F S11 .f32) (main_arg15 : FVec F S11x7 .f32) (main_arg16 : FVec F S11 .f32) (main_arg17 : FVec F S7x11 .f32) (main_arg18 : FVec F S7 .f32) (main_arg19 : FVec F S29x7 .f32) (main_arg20 : FVec F S29 .f32) (main_v15 : IVec S_ 1) (main_v16 : FVec F S11x7 .f32) : IVec S_ 1 :=
  let main_cst_5 : FVec F S_ .f32 := constant S_ .f32 0x7F800000#32
  let main_v17 : FVec F S11x7 .f32 := broadcastInDim S11x7 ![] bcast_S_S11x7 main_cst_5
  let main_v18 : IVec S11x7 1 := cmpf .olt main_v16 main_v17
  let main_c_6 : IVec S_ 1 := constantI S_ 1 1#1
  let main_v19 : IVec S_ 1 := (fun x v => Host.reduce IntOp.andi x v reducesTo_S11x7_S_d0_1 h_S_) main_v18 main_c_6
  let main_v20 : IVec S_ 1 := andi main_v15 main_v19
  let main_v21 : FVec F S11 .f32 := Host.absf main_arg4
  let main_cst_7 : FVec F S_ .f32 := constant S_ .f32 0x7F800000#32
  let main_v22 : FVec F S11 .f32 := broadcastInDim S11 ![] bcast_S_S11 main_cst_7
  let main_v23 : IVec S11 1 := cmpf .olt main_v21 main_v22
  let main_c_8 : IVec S_ 1 := constantI S_ 1 1#1
  let main_v24 : IVec S_ 1 := (fun x v => Host.reduce IntOp.andi x v reducesTo_S11_S_d0 h_S_) main_v23 main_c_8
  let main_v25 : IVec S_ 1 := andi main_v20 main_v24
  let main_v26 : FVec F S11x7 .f32 := Host.absf main_arg5
  let main_cst_9 : FVec F S_ .f32 := constant S_ .f32 0x7F800000#32
  let main_v27 : FVec F S11x7 .f32 := broadcastInDim S11x7 ![] bcast_S_S11x7 main_cst_9
  let main_v28 : IVec S11x7 1 := cmpf .olt main_v26 main_v27
  let main_c_10 : IVec S_ 1 := constantI S_ 1 1#1
  let main_v29 : IVec S_ 1 := (fun x v => Host.reduce IntOp.andi x v reducesTo_S11x7_S_d0_1 h_S_) main_v28 main_c_10
  let main_v30 : IVec S_ 1 := andi main_v25 main_v29
  let main_v31 : FVec F S11 .f32 := Host.absf main_arg6
  let main_cst_11 : FVec F S_ .f32 := constant S_ .f32 0x7F800000#32
  let main_v32 : FVec F S11 .f32 := broadcastInDim S11 ![] bcast_S_S11 main_cst_11
  let main_v33 : IVec S11 1 := cmpf .olt main_v31 main_v32
  fn_part2 (F := F) main_arg7 main_arg8 main_arg9 main_arg10 main_arg11 main_arg12 main_arg13 main_arg14 main_arg15 main_arg16 main_arg17 main_arg18 main_arg19 main_arg20 main_v30 main_v33

def fn {F : FTy → Type} [FloatOps F] (main_arg0 : IVec S26 32) (main_arg1 : FVec F S29x7 .f32) (main_arg2 : FVec F S26x7 .f32) (main_arg3 : FVec F S11x7 .f32) (main_arg4 : FVec F S11 .f32) (main_arg5 : FVec F S11x7 .f32) (main_arg6 : FVec F S11 .f32) (main_arg7 : FVec F S11x7 .f32) (main_arg8 : FVec F S11 .f32) (main_arg9 : FVec F S7x11 .f32) (main_arg10 : FVec F S7 .f32) (main_arg11 : FVec F S11x7 .f32) (main_arg12 : FVec F S11 .f32) (main_arg13 : FVec F S11x7 .f32) (main_arg14 : FVec F S11 .f32) (main_arg15 : FVec F S11x7 .f32) (main_arg16 : FVec F S11 .f32) (main_arg17 : FVec F S7x11 .f32) (main_arg18 : FVec F S7 .f32) (main_arg19 : FVec F S29x7 .f32) (main_arg20 : FVec F S29 .f32) : IVec S_ 1 :=
  let main_c : IVec S_ 32 := constantI S_ 32 0#32
  let main_v0 : IVec S26 32 := broadcastInDim S26 ![] bcast_S_S26 main_c
  let main_v1 : IVec S26 1 := cmpi .sge main_arg0 main_v0
  let main_c_0 : IVec S_ 32 := constantI S_ 32 29#32
  let main_v2 : IVec S26 32 := broadcastInDim S26 ![] bcast_S_S26 main_c_0
  let main_v3 : IVec S26 1 := cmpi .slt main_arg0 main_v2
  let main_v4 : IVec S26 1 := andi main_v1 main_v3
  let main_c_1 : IVec S_ 1 := constantI S_ 1 1#1
  let main_v5 : IVec S_ 1 := (fun x v => Host.reduce IntOp.andi x v reducesTo_S26_S_d0 h_S_) main_v4 main_c_1
  let main_v6 : FVec F S29x7 .f32 := Host.absf main_arg1
  let main_cst : FVec F S_ .f32 := constant S_ .f32 0x7F800000#32
  let main_v7 : FVec F S29x7 .f32 := broadcastInDim S29x7 ![] bcast_S_S29x7 main_cst
  let main_v8 : IVec S29x7 1 := cmpf .olt main_v6 main_v7
  let main_c_2 : IVec S_ 1 := constantI S_ 1 1#1
  let main_v9 : IVec S_ 1 := (fun x v => Host.reduce IntOp.andi x v reducesTo_S29x7_S_d0_1 h_S_) main_v8 main_c_2
  let main_v10 : IVec S_ 1 := andi main_v5 main_v9
  let main_v11 : FVec F S26x7 .f32 := Host.absf main_arg2
  let main_cst_3 : FVec F S_ .f32 := constant S_ .f32 0x7F800000#32
  let main_v12 : FVec F S26x7 .f32 := broadcastInDim S26x7 ![] bcast_S_S26x7 main_cst_3
  let main_v13 : IVec S26x7 1 := cmpf .olt main_v11 main_v12
  let main_c_4 : IVec S_ 1 := constantI S_ 1 1#1
  let main_v14 : IVec S_ 1 := (fun x v => Host.reduce IntOp.andi x v reducesTo_S26x7_S_d0_1 h_S_) main_v13 main_c_4
  let main_v15 : IVec S_ 1 := andi main_v10 main_v14
  let main_v16 : FVec F S11x7 .f32 := Host.absf main_arg3
  fn_part1 (F := F) main_arg4 main_arg5 main_arg6 main_arg7 main_arg8 main_arg9 main_arg10 main_arg11 main_arg12 main_arg13 main_arg14 main_arg15 main_arg16 main_arg17 main_arg18 main_arg19 main_arg20 main_v15 main_v16
-- ==== Kernel.lean ====
abbrev S26 : Shape := ⟨1, ![26]⟩
abbrev S29x7 : Shape := ⟨2, ![29, 7]⟩
abbrev S26x7 : Shape := ⟨2, ![26, 7]⟩
abbrev S11x7 : Shape := ⟨2, ![11, 7]⟩
abbrev S11 : Shape := ⟨1, ![11]⟩
abbrev S7x11 : Shape := ⟨2, ![7, 11]⟩
abbrev S7 : Shape := ⟨1, ![7]⟩
abbrev S29 : Shape := ⟨1, ![29]⟩
abbrev S26x1 : Shape := ⟨2, ![26, 1]⟩
abbrev S33x7 : Shape := ⟨2, ![33, 7]⟩
abbrev S33 : Shape := ⟨1, ![33]⟩
abbrev S_ : Shape := ⟨0, ![]⟩
abbrev S33x128 : Shape := ⟨2, ![33, 128]⟩
abbrev S128 : Shape := ⟨1, ![128]⟩
abbrev S1x128 : Shape := ⟨2, ![1, 128]⟩
abbrev S7x128 : Shape := ⟨2, ![7, 128]⟩
abbrev S29x128 : Shape := ⟨2, ![29, 128]⟩
abbrev S114x128 : Shape := ⟨2, ![114, 128]⟩
abbrev S26x29 : Shape := ⟨2, ![26, 29]⟩
abbrev S26x26 : Shape := ⟨2, ![26, 26]⟩
abbrev S1x33 : Shape := ⟨2, ![1, 33]⟩
abbrev S7x33 : Shape := ⟨2, ![7, 33]⟩
abbrev S26x33 : Shape := ⟨2, ![26, 33]⟩
abbrev S26x11 : Shape := ⟨2, ![26, 11]⟩
abbrev S11x26 : Shape := ⟨2, ![11, 26]⟩
abbrev S1x7 : Shape := ⟨2, ![1, 7]⟩
abbrev S1x29 : Shape := ⟨2, ![1, 29]⟩
abbrev S7x29 : Shape := ⟨2, ![7, 29]⟩

abbrev nBuf : Space → Nat
  | .hbm => 64
  | .vmem => 6
  | .smem => 0
  | _ => 0

abbrev bufTy : (tb : Table) → Fin (tcTables nBuf tb) → BufTy
  | .hbm, ⟨0, _⟩ => ⟨S26, .i32⟩
  | .hbm, ⟨1, _⟩ => ⟨S29x7, .f32⟩
  | .hbm, ⟨2, _⟩ => ⟨S26x7, .f32⟩
  | .hbm, ⟨3, _⟩ => ⟨S11x7, .f32⟩
  | .hbm, ⟨4, _⟩ => ⟨S11, .f32⟩
  | .hbm, ⟨5, _⟩ => ⟨S11x7, .f32⟩
  | .hbm, ⟨6, _⟩ => ⟨S11, .f32⟩
  | .hbm, ⟨7, _⟩ => ⟨S11x7, .f32⟩
  | .hbm, ⟨8, _⟩ => ⟨S11, .f32⟩
  | .hbm, ⟨9, _⟩ => ⟨S7x11, .f32⟩
  | .hbm, ⟨10, _⟩ => ⟨S7, .f32⟩
  | .hbm, ⟨11, _⟩ => ⟨S11x7, .f32⟩
  | .hbm, ⟨12, _⟩ => ⟨S11, .f32⟩
  | .hbm, ⟨13, _⟩ => ⟨S11x7, .f32⟩
  | .hbm, ⟨14, _⟩ => ⟨S11, .f32⟩
  | .hbm, ⟨15, _⟩ => ⟨S11x7, .f32⟩
  | .hbm, ⟨16, _⟩ => ⟨S11, .f32⟩
  | .hbm, ⟨17, _⟩ => ⟨S7x11, .f32⟩
  | .hbm, ⟨18, _⟩ => ⟨S7, .f32⟩
  | .hbm, ⟨19, _⟩ => ⟨S29x7, .f32⟩
  | .hbm, ⟨20, _⟩ => ⟨S29, .f32⟩
  | .hbm, ⟨21, _⟩ => ⟨S26x1, .i32⟩
  | .hbm, ⟨22, _⟩ => ⟨S33x7, .f32⟩
  | .hbm, ⟨23, _⟩ => ⟨S33, .f32⟩
  | .hbm, ⟨24, _⟩ => ⟨S33x7, .f32⟩
  | .hbm, ⟨25, _⟩ => ⟨S33, .f32⟩
  | .hbm, ⟨26, _⟩ => ⟨S_, .i32⟩
  | .hbm, ⟨27, _⟩ => ⟨S_, .f32⟩
  | .hbm, ⟨28, _⟩ => ⟨S33x128, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S7x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S_, .i32⟩
  | .hbm, ⟨41, _⟩ => ⟨S_, .f32⟩
  | .hbm, ⟨42, _⟩ => ⟨S33x128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .i32⟩
  | .hbm, ⟨48, _⟩ => ⟨S_, .f32⟩
  | .hbm, ⟨49, _⟩ => ⟨S7x128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S29x128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S114x128, .f32⟩
  | .hbm, ⟨62, _⟩ => ⟨S26x29, .f32⟩
  | .hbm, ⟨63, _⟩ => ⟨S26x26, .f32⟩
  | .local _ .vmem, ⟨0, _⟩ => ⟨S26x1, .i32⟩
  | .local _ .vmem, ⟨1, _⟩ => ⟨S29x7, .f32⟩
  | .local _ .vmem, ⟨2, _⟩ => ⟨S26x7, .f32⟩
  | .local _ .vmem, ⟨3, _⟩ => ⟨S114x128, .f32⟩
  | .local _ .vmem, ⟨4, _⟩ => ⟨S26x29, .f32⟩
  | .local _ .vmem, ⟨5, _⟩ => ⟨S26x26, .f32⟩
  | _, _ => ⟨S26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_v0 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call2_v0 : Ref sig .tc := ⟨.hbm, 34, rfl⟩
abbrev main_v8 : Ref sig .tc := ⟨.hbm, 35, rfl⟩
abbrev main_c_2 : Ref sig .tc := ⟨.hbm, 36, rfl⟩
abbrev main_call3_v0 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_call4_v0 : Ref sig .tc := ⟨.hbm, 41, rfl⟩
abbrev main_v11 : Ref sig .tc := ⟨.hbm, 42, rfl⟩
abbrev main_c_4 : Ref sig .tc := ⟨.hbm, 43, rfl⟩
abbrev main_call5_v0 : Ref sig .tc := ⟨.hbm, 44, rfl⟩
abbrev main_v12 : Ref sig .tc := ⟨.hbm, 45, rfl⟩
abbrev main_v13 : Ref sig .tc := ⟨.hbm, 46, rfl⟩
abbrev main_c_5 : Ref sig .tc := ⟨.hbm, 47, rfl⟩
abbrev main_call6_v0 : Ref sig .tc := ⟨.hbm, 48, rfl⟩
abbrev main_v14 : Ref sig .tc := ⟨.hbm, 49, rfl⟩
abbrev main_c_6 : Ref sig .tc := ⟨.hbm, 50, rfl⟩
abbrev main_call7_v0 : Ref sig .tc := ⟨.hbm, 51, rfl⟩
abbrev main_v15 : Ref sig .tc := ⟨.hbm, 52, rfl⟩
abbrev main_v16 : Ref sig .tc := ⟨.hbm, 53, rfl⟩
abbrev main_c_7 : Ref sig .tc := ⟨.hbm, 54, rfl⟩
abbrev main_call8_v0 : Ref sig .tc := ⟨.hbm, 55, rfl⟩
abbrev main_v17 : Ref sig .tc := ⟨.hbm, 56, rfl⟩
abbrev main_c_8 : Ref sig .tc := ⟨.hbm, 57, rfl⟩
abbrev main_call9_v0 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21_0 : Ref sig .tc := ⟨.hbm, 62, rfl⟩
abbrev main_v21_1 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S26x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S29x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S26x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S114x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S26x29 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S26x26 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  shapeCasts_S26_S26x1 : S26.ShapeCasts S26x1
  concatenates_S11x7_S11x7_S11x7_S33x7_d0 : Shape.Concatenates [S11x7, S11x7, S11x7] S33x7 0
  concatenates_S11_S11_S11_S33_d0 : Shape.Concatenates [S11, S11, S11] S33 0
  pads_S33x7_S33x128_000_01210 : S33x7.Pads (![0, 0] : Fin 2 → Nat) ![0, 121] ![0, 0] S33x128
  h_S_ : 0 < S_.numel
  pads_S33_S128_0950 : S33.Pads (![0] : Fin 1 → Nat) ![95] ![0] S128
  shapeCasts_S128_S1x128 : S128.ShapeCasts S1x128
  pads_S7x11_S7x128_000_01170 : S7x11.Pads (![0, 0] : Fin 2 → Nat) ![0, 117] ![0, 0] S7x128
  pads_S7_S128_01210 : S7.Pads (![0] : Fin 1 → Nat) ![121] ![0] S128
  pads_S29x7_S29x128_000_01210 : S29x7.Pads (![0, 0] : Fin 2 → Nat) ![0, 121] ![0, 0] S29x128
  pads_S29_S128_0990 : S29.Pads (![0] : Fin 1 → Nat) ![99] ![0] S128
  concatenates_S33x128_S1x128_S7x128_S1x128_S33x128_S1x128_S7x128_S1x128_S29x128_S1x128_S114x128_d0 : Shape.Concatenates [S33x128, S1x128, S7x128, S1x128, S33x128, S1x128, S7x128, S1x128, S29x128, S1x128] S114x128 0
  inb_S26x1_S26x1_0_0 : ∀ a, (![0, 0] : Fin 2 → Nat) a + S26x1.size a ≤ S26x1.size a
  h_S26x1 : 0 < S26x1.numel
  shapeCasts_S26x1_S26x1 : S26x1.ShapeCasts S26x1
  iota_S26x29_d1_w32 : S26x29.Iotas .tc 32 [1]
  broadcasts_S26x1_S26x29 : S26x1.Broadcasts S26x29
  natLt_1_32 : 1 < 32
  inb_S29x7_S29x7_0_0 : ∀ a, (![0, 0] : Fin 2 → Nat) a + S29x7.size a ≤ S29x7.size a
  h_S29x7 : 0 < S29x7.numel
  inb_S26x7_S26x7_0_0 : ∀ a, (![0, 0] : Fin 2 → Nat) a + S26x7.size a ≤ S26x7.size a
  h_S26x7 : 0 < S26x7.numel
  bitsLt_bf16_f32 : FTy.bits .bf16 < FTy.bits .f32
  inb_S114x128_S33x7_0_0 : ∀ a, (![0, 0] : Fin 2 → Nat) a + S33x7.size a ≤ S114x128.size a
  h_S33x7 : 0 < S33x7.numel
  shapeCasts_S33x7_S33x7 : S33x7.ShapeCasts S33x7
  inb_S114x128_S1x33_33_0 : ∀ a, (![33, 0] : Fin 2 → Nat) a + S1x33.size a ≤ S114x128.size a
  h_S1x33 : 0 < S1x33.numel
  shapeCasts_S1x33_S33 : S1x33.ShapeCasts S33
  transposes_S33x7_p1_0_S7x33 : S33x7.Transposes [1, 0] S7x33
  shapeCasts_S33_S1x33 : S33.ShapeCasts S1x33
  broadcasts_S1x33_S26x33 : S1x33.Broadcasts S26x33
  slices_S26x33_o0_0_S26x11 : S26x33.Slices ![0, 0] S26x11
  slices_S26x33_o0_11_S26x11 : S26x33.Slices ![0, 11] S26x11
  slices_S26x33_o0_22_S26x11 : S26x33.Slices ![0, 22] S26x11
  transposes_S26x11_p1_0_S11x26 : S26x11.Transposes [1, 0] S11x26
  iota_S26x26_d0_w32 : S26x26.Iotas .tc 32 [0]
  iota_S26x26_d1_w32 : S26x26.Iotas .tc 32 [1]
  reduces_S26x26_S26 : S26x26.Reduces [1] S26
  broadcasts_S26x1_S26x26 : S26x1.Broadcasts S26x26
  inb_S114x128_S7x11_34_0 : ∀ a, (![34, 0] : Fin 2 → Nat) a + S7x11.size a ≤ S114x128.size a
  h_S7x11 : 0 < S7x11.numel
  shapeCasts_S7x11_S7x11 : S7x11.ShapeCasts S7x11
  inb_S114x128_S1x7_41_0 : ∀ a, (![41, 0] : Fin 2 → Nat) a + S1x7.size a ≤ S114x128.size a
  h_S1x7 : 0 < S1x7.numel
  shapeCasts_S1x7_S7 : S1x7.ShapeCasts S7
  transposes_S7x11_p1_0_S11x7 : S7x11.Transposes [1, 0] S11x7
  shapeCasts_S7_S1x7 : S7.ShapeCasts S1x7
  broadcasts_S1x7_S26x7 : S1x7.Broadcasts S26x7
  inb_S114x128_S33x7_42_0 : ∀ a, (![42, 0] : Fin 2 → Nat) a + S33x7.size a ≤ S114x128.size a
  inb_S114x128_S1x33_75_0 : ∀ a, (![75, 0] : Fin 2 → Nat) a + S1x33.size a ≤ S114x128.size a
  inb_S114x128_S7x11_76_0 : ∀ a, (![76, 0] : Fin 2 → Nat) a + S7x11.size a ≤ S114x128.size a
  inb_S114x128_S1x7_83_0 : ∀ a, (![83, 0] : Fin 2 → Nat) a + S1x7.size a ≤ S114x128.size a
  inb_S114x128_S29x7_84_0 : ∀ a, (![84, 0] : Fin 2 → Nat) a + S29x7.size a ≤ S114x128.size a
  shapeCasts_S29x7_S29x7 : S29x7.ShapeCasts S29x7
  inb_S114x128_S1x29_113_0 : ∀ a, (![113, 0] : Fin 2 → Nat) a + S1x29.size a ≤ S114x128.size a
  h_S1x29 : 0 < S1x29.numel
  shapeCasts_S1x29_S29 : S1x29.ShapeCasts S29
  transposes_S29x7_p1_0_S7x29 : S29x7.Transposes [1, 0] S7x29
  shapeCasts_S29_S1x29 : S29.ShapeCasts S1x29
  broadcasts_S1x29_S26x29 : S1x29.Broadcasts S26x29
  inb_S26x29_S26x29_0_0 : ∀ a, (![0, 0] : Fin 2 → Nat) a + S26x29.size a ≤ S26x29.size a
  h_S26x29 : 0 < S26x29.numel
  inb_S26x26_S26x26_0_0 : ∀ a, (![0, 0] : Fin 2 → Nat) a + S26x26.size a ≤ S26x26.size a
  h_S26x26 : 0 < S26x26.numel
  dot_S26x29_S29x7_S26x7_1_0_0_1_n_n_wf : DotDims.WF S26x29 S29x7 S26x7 [1] [0] [0] [1] [] []
  dot_S26x7_S7x33_S26x33_1_0_0_1_n_n_wf : DotDims.WF S26x7 S7x33 S26x33 [1] [0] [0] [1] [] []
  dot_S26x11_S11x26_S26x26_1_0_0_1_n_n_wf : DotDims.WF S26x11 S11x26 S26x26 [1] [0] [0] [1] [] []
  dot_S26x26_S26x11_S26x11_1_0_0_1_n_n_wf : DotDims.WF S26x26 S26x11 S26x11 [1] [0] [0] [1] [] []
  dot_S26x11_S11x7_S26x7_1_0_0_1_n_n_wf : DotDims.WF S26x11 S11x7 S26x7 [1] [0] [0] [1] [] []
  dot_S26x7_S7x29_S26x29_1_0_0_1_n_n_wf : DotDims.WF S26x7 S7x29 S26x29 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

def dot_S26x29_S29x7_S26x7_1_0_0_1_n_n : DotDims S26x29 S29x7 S26x7 where
  lhsContracting := [1]
  rhsContracting := [0]
  lhsNonContracting := [0]
  rhsNonContracting := [1]
  lhsBatch := []
  rhsBatch := []
  wf := dot_S26x29_S29x7_S26x7_1_0_0_1_n_n_wf
def dot_S26x7_S7x33_S26x33_1_0_0_1_n_n : DotDims S26x7 S7x33 S26x33 where
  lhsContracting := [1]
  rhsContracting := [0]
  lhsNonContracting := [0]
  rhsNonContracting := [1]
  lhsBatch := []
  rhsBatch := []
  wf := dot_S26x7_S7x33_S26x33_1_0_0_1_n_n_wf
def dot_S26x11_S11x26_S26x26_1_0_0_1_n_n : DotDims S26x11 S11x26 S26x26 where
  lhsContracting := [1]
  rhsContracting := [0]
  lhsNonContracting := [0]
  rhsNonContracting := [1]
  lhsBatch := []
  rhsBatch := []
  wf := dot_S26x11_S11x26_S26x26_1_0_0_1_n_n_wf
def dot_S26x26_S26x11_S26x11_1_0_0_1_n_n : DotDims S26x26 S26x11 S26x11 where
  lhsContracting := [1]
  rhsContracting := [0]
  lhsNonContracting := [0]
  rhsNonContracting := [1]
  lhsBatch := []
  rhsBatch := []
  wf := dot_S26x26_S26x11_S26x11_1_0_0_1_n_n_wf
def dot_S26x11_S11x7_S26x7_1_0_0_1_n_n : DotDims S26x11 S11x7 S26x7 where
  lhsContracting := [1]
  rhsContracting := [0]
  lhsNonContracting := [0]
  rhsNonContracting := [1]
  lhsBatch := []
  rhsBatch := []
  wf := dot_S26x11_S11x7_S26x7_1_0_0_1_n_n_wf
def dot_S26x7_S7x29_S26x29_1_0_0_1_n_n : DotDims S26x7 S7x29 S26x29 where
  lhsContracting := [1]
  rhsContracting := [0]
  lhsNonContracting := [0]
  rhsNonContracting := [1]
  lhsBatch := []
  rhsBatch := []
  wf := dot_S26x7_S7x29_S26x29_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v20) false false (stage0_3 0) (sem0_3 0) (Memref.isWhole_whole _) (hstage0_3 0)

abbrev win0_4 : Pipeline.Window sig grid0 :=
  Pipeline.Window.whole (Memref.whole main_v21_0) true false (stage0_4 0) (sem0_4 0) (Memref.isWhole_whole _) (hstage0_4 0)

abbrev win0_5 : Pipeline.Window sig grid0 :=
  Pipeline.Window.whole (Memref.whole main_v21_1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S26 : Shape := ⟨1, ![26]⟩
abbrev S29x7 : Shape := ⟨2, ![29, 7]⟩
abbrev S26x7 : Shape := ⟨2, ![26, 7]⟩
abbrev S11x7 : Shape := ⟨2, ![11, 7]⟩
abbrev S11 : Shape := ⟨1, ![11]⟩
abbrev S7x11 : Shape := ⟨2, ![7, 11]⟩
abbrev S7 : Shape := ⟨1, ![7]⟩
abbrev S29 : Shape := ⟨1, ![29]⟩
abbrev S_ : Shape := ⟨0, ![]⟩
abbrev S26x1 : Shape := ⟨2, ![26, 1]⟩
abbrev S26x11 : Shape := ⟨2, ![26, 11]⟩
abbrev S1x11 : Shape := ⟨2, ![1, 11]⟩
abbrev S11x26 : Shape := ⟨2, ![11, 26]⟩
abbrev S26x26 : Shape := ⟨2, ![26, 26]⟩
abbrev S1x7 : Shape := ⟨2, ![1, 7]⟩
abbrev S7x29 : Shape := ⟨2, ![7, 29]⟩
abbrev S26x29 : Shape := ⟨2, ![26, 29]⟩
abbrev S1x29 : Shape := ⟨2, ![1, 29]⟩

abbrev nBuf : Space → Nat
  | .hbm => 140
  | .vmem => 0
  | .smem => 0
  | _ => 0

abbrev hbmTy0_0 (i : Nat) : BufTy := match i % 128 with
  | 0 => ⟨S26, .i32⟩
  | 1 => ⟨S29x7, .f32⟩
  | 2 => ⟨S26x7, .f32⟩
  | 3 => ⟨S11x7, .f32⟩
  | 4 => ⟨S11, .f32⟩
  | 5 => ⟨S11x7, .f32⟩
  | 6 => ⟨S11, .f32⟩
  | 7 => ⟨S11x7, .f32⟩
  | 8 => ⟨S11, .f32⟩
  | 9 => ⟨S7x11, .f32⟩
  | 10 => ⟨S7, .f32⟩
  | 11 => ⟨S11x7, .f32⟩
  | 12 => ⟨S11, .f32⟩
  | 13 => ⟨S11x7, .f32⟩
  | 14 => ⟨S11, .f32⟩
  | 15 => ⟨S11x7, .f32⟩
  | 16 => ⟨S11, .f32⟩
  | 17 => ⟨S7x11, .f32⟩
  | 18 => ⟨S7, .f32⟩
  | 19 => ⟨S29x7, .f32⟩
  | 20 => ⟨S29, .f32⟩
  | 21 => ⟨S_, .i32⟩
  | 22 => ⟨S26, .i32⟩
  | 23 => ⟨S26, .i1⟩
  | 24 => ⟨S_, .i32⟩
  | 25 => ⟨S26, .i32⟩
  | 26 => ⟨S26, .i32⟩
  | 27 => ⟨S26, .i32⟩
  | 28 => ⟨S26x1, .i32⟩
  | 29 => ⟨S26x7, .f32⟩
  | 30 => ⟨S26x7, .f32⟩
  | 31 => ⟨S7x11, .f32⟩
  | 32 => ⟨S26x11, .f32⟩
  | 33 => ⟨S1x11, .f32⟩
  | 34 => ⟨S26x11, .f32⟩
  | 35 => ⟨S26x11, .f32⟩
  | 36 => ⟨S7x11, .f32⟩
  | 37 => ⟨S26x11, .f32⟩
  | 38 => ⟨S1x11, .f32⟩
  | 39 => ⟨S26x11, .f32⟩
  | 40 => ⟨S26x11, .f32⟩
  | 41 => ⟨S7x11, .f32⟩
  | 42 => ⟨S26x11, .f32⟩
  | 43 => ⟨S1x11, .f32⟩
  | 44 => ⟨S26x11, .f32⟩
  | 45 => ⟨S26x11, .f32⟩
  | 46 => ⟨S11x26, .f32⟩
  | 47 => ⟨S26x26, .f32⟩
  | 48 => ⟨S_, .i1⟩
  | 49 => ⟨S26x26, .i1⟩
  | 50 => ⟨S26x26, .i32⟩
  | 51 => ⟨S_, .i32⟩
  | 52 => ⟨S26x26, .i32⟩
  | 53 => ⟨S26x26, .i32⟩
  | 54 => ⟨S26x26, .i32⟩
  | 55 => ⟨S26x26, .i1⟩
  | 56 => ⟨S_, .i1⟩
  | 57 => ⟨S26x26, .i1⟩
  | 58 => ⟨S26x26, .i1⟩
  | 59 => ⟨S_, .f32⟩
  | 60 => ⟨S_, .f32⟩
  | 61 => ⟨S26x26, .f32⟩
  | 62 => ⟨S26x26, .f32⟩
  | 63 => ⟨S_, .f32⟩
  | 64 => ⟨S26, .f32⟩
  | 65 => ⟨S_, .f32⟩
  | 66 => ⟨S26, .f32⟩
  | 67 => ⟨S26, .f32⟩
  | 68 => ⟨S26x1, .f32⟩
  | 69 => ⟨S26x26, .f32⟩
  | 70 => ⟨S26x26, .f32⟩
  | 71 => ⟨S26x26, .f32⟩
  | 72 => ⟨S_, .f32⟩
  | 73 => ⟨S26, .f32⟩
  | 74 => ⟨S26x1, .f32⟩
  | 75 => ⟨S26x26, .f32⟩
  | 76 => ⟨S26x26, .f32⟩
  | 77 => ⟨S26x11, .f32⟩
  | 78 => ⟨S11x7, .f32⟩
  | 79 => ⟨S26x7, .f32⟩
  | 80 => ⟨S1x7, .f32⟩
  | 81 => ⟨S26x7, .f32⟩
  | 82 => ⟨S26x7, .f32⟩
  | 83 => ⟨S7x11, .f32⟩
  | 84 => ⟨S26x11, .f32⟩
  | 85 => ⟨S1x11, .f32⟩
  | 86 => ⟨S26x11, .f32⟩
  | 87 => ⟨S26x11, .f32⟩
  | 88 => ⟨S7x11, .f32⟩
  | 89 => ⟨S26x11, .f32⟩
  | 90 => ⟨S1x11, .f32⟩
  | 91 => ⟨S26x11, .f32⟩
  | 92 => ⟨S26x11, .f32⟩
  | 93 => ⟨S7x11, .f32⟩
  | 94 => ⟨S26x11, .f32⟩
  | 95 => ⟨S1x11, .f32⟩
  | 96 => ⟨S26x11, .f32⟩
  | 97 => ⟨S26x11, .f32⟩
  | 98 => ⟨S11x26, .f32⟩
  | 99 => ⟨S26x26, .f32⟩
  | 100 => ⟨S_, .i1⟩
  | 101 => ⟨S26x26, .i1⟩
  | 102 => ⟨S26x26, .i32⟩
  | 103 => ⟨S_, .i32⟩
  | 104 => ⟨S26x26, .i32⟩
  | 105 => ⟨S26x26, .i32⟩
  | 106 => ⟨S26x26, .i32⟩
  | 107 => ⟨S26x26, .i1⟩
  | 108 => ⟨S_, .i1⟩
  | 109 => ⟨S26x26, .i1⟩
  | 110 => ⟨S26x26, .i1⟩
  | 111 => ⟨S_, .f32⟩
  | 112 => ⟨S_, .f32⟩
  | 113 => ⟨S26x26, .f32⟩
  | 114 => ⟨S26x26, .f32⟩
  | 115 => ⟨S_, .f32⟩
  | 116 => ⟨S26, .f32⟩
  | 117 => ⟨S_, .f32⟩
  | 118 => ⟨S26, .f32⟩
  | 119 => ⟨S26, .f32⟩
  | 120 => ⟨S26x1, .f32⟩
  | 121 => ⟨S26x26, .f32⟩
  | 122 => ⟨S26x26, .f32⟩
  | 123 => ⟨S26x26, .f32⟩
  | 124 => ⟨S_, .f32⟩
  | 125 => ⟨S26, .f32⟩
  | 126 => ⟨S26x1, .f32⟩
  | 127 => ⟨S26x26, .f32⟩
  | _ => ⟨S26, .i32⟩

abbrev hbmTy0_1 (i : Nat) : BufTy := match i % 128 with
  | 0 => ⟨S26x26, .f32⟩
  | 1 => ⟨S26x11, .f32⟩
  | 2 => ⟨S11x7, .f32⟩
  | 3 => ⟨S26x7, .f32⟩
  | 4 => ⟨S1x7, .f32⟩
  | 5 => ⟨S26x7, .f32⟩
  | 6 => ⟨S26x7, .f32⟩
  | 7 => ⟨S7x29, .f32⟩
  | 8 => ⟨S26x29, .f32⟩
  | 9 => ⟨S1x29, .f32⟩
  | 10 => ⟨S26x29, .f32⟩
  | 11 => ⟨S26x29, .f32⟩
  | _ => ⟨S26, .i32⟩

abbrev hbmTy (i : Nat) : BufTy := match i / 128 with
  | 0 => hbmTy0_0 i
  | 1 => hbmTy0_1 i
  | _ => ⟨S26, .i32⟩

abbrev bufTy : (tb : Table) → Fin (tcTables nBuf tb) → BufTy
  | .hbm, ⟨i, _⟩ => hbmTy i
  | _, _ => ⟨S26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_0 : Ref sig .tc := ⟨.hbm, 56, rfl⟩
abbrev main_call0_v5 : Ref sig .tc := ⟨.hbm, 57, rfl⟩
abbrev main_v26 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_5 : Ref sig .tc := ⟨.hbm, 100, rfl⟩
abbrev main_v62 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_0 : Ref sig .tc := ⟨.hbm, 108, rfl⟩
abbrev main_call2_v5 : Ref sig .tc := ⟨.hbm, 109, rfl⟩
abbrev main_v63 : Ref sig .tc := ⟨.hbm, 110, rfl⟩
abbrev main_cst_6 : Ref sig .tc := ⟨.hbm, 111, rfl⟩
abbrev main_call3_v0 : Ref sig .tc := ⟨.hbm, 112, rfl⟩
abbrev main_call3_v1 : Ref sig .tc := ⟨.hbm, 113, rfl⟩
abbrev main_v64 : Ref sig .tc := ⟨.hbm, 114, rfl⟩
abbrev main_cst_7 : Ref sig .tc := ⟨.hbm, 115, rfl⟩
abbrev main_v65 : Ref sig .tc := ⟨.hbm, 116, rfl⟩
abbrev main_cst_8 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_9 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩

abbrev nD : Nat := 1
abbrev τ : Topo := Topo.v7x

variable {F : FTy → Type} [FloatOps F]

class Facts₀ : Prop where
  bcast_S_S26 : S_.BroadcastsInDim S26 (![] : Fin 0 → Fin S26.rank)
  bcast_S26_S26x1_0 : S26.BroadcastsInDim S26x1 (![0] : Fin 1 → Fin S26x1.rank)
  transposes_S11x7_S7x11_1_0 : S11x7.Transposes [1, 0] S7x11
  bcast_S11_S1x11_1 : S11.BroadcastsInDim S1x11 (![1] : Fin 1 → Fin S1x11.rank)
  bcast_S1x11_S26x11_0_1 : S1x11.BroadcastsInDim S26x11 (![0, 1] : Fin 2 → Fin S26x11.rank)
  transposes_S26x11_S11x26_1_0 : S26x11.Transposes [1, 0] S11x26
  bcast_S_S26x26 : S_.BroadcastsInDim S26x26 (![] : Fin 0 → Fin S26x26.rank)
  reducesTo_S26x26_S26_d1 : S26x26.ReducesTo [1] S26
  h_S_ : 0 < S_.numel
  bcast_S26x1_S26x26_0_1 : S26x1.BroadcastsInDim S26x26 (![0, 1] : Fin 2 → Fin S26x26.rank)
  transposes_S7x11_S11x7_1_0 : S7x11.Transposes [1, 0] S11x7
  bcast_S7_S1x7_1 : S7.BroadcastsInDim S1x7 (![1] : Fin 1 → Fin S1x7.rank)
  bcast_S1x7_S26x7_0_1 : S1x7.BroadcastsInDim S26x7 (![0, 1] : Fin 2 → Fin S26x7.rank)
  transposes_S29x7_S7x29_1_0 : S29x7.Transposes [1, 0] S7x29
  bcast_S29_S1x29_1 : S29.BroadcastsInDim S1x29 (![1] : Fin 1 → Fin S1x29.rank)
  bcast_S1x29_S26x29_0_1 : S1x29.BroadcastsInDim S26x29 (![0, 1] : Fin 2 → Fin S26x29.rank)
  gather_S29x7_S26x1_S26x7_1_0_n_n_0_1_17_wf : GatherDims.WF S29x7 S26x1 S26x7 [1] [0] [] [0] [] 1 ![1, 7]
  dot_S26x7_S7x11_S26x11_1_0_0_1_n_n_wf : DotDims.WF S26x7 S7x11 S26x11 [1] [0] [0] [1] [] []
  dot_S26x11_S11x26_S26x26_1_0_0_1_n_n_wf : DotDims.WF S26x11 S11x26 S26x26 [1] [0] [0] [1] [] []
  dot_S26x26_S26x11_S26x11_1_0_0_1_n_n_wf : DotDims.WF S26x26 S26x11 S26x11 [1] [0] [0] [1] [] []
  dot_S26x11_S11x7_S26x7_1_0_0_1_n_n_wf : DotDims.WF S26x11 S11x7 S26x7 [1] [0] [0] [1] [] []
  dot_S26x7_S7x29_S26x29_1_0_0_1_n_n_wf : DotDims.WF S26x7 S7x29 S26x29 [1] [0] [0] [1] [] []

variable [Facts₀]

def gather_S29x7_S26x1_S26x7_1_0_n_n_0_1_17 : GatherDims S29x7 S26x1 S26x7 where
  offsetDims := [1]
  collapsedSliceDims := [0]
  operandBatchingDims := []
  startIndicesBatchingDims := []
  startIndexMap := [0]
  indexVectorDim := 1
  sliceSizes := ![1, 7]
  wf := gather_S29x7_S26x1_S26x7_1_0_n_n_0_1_17_wf
def dot_S26x7_S7x11_S26x11_1_0_0_1_n_n : DotDims S26x7 S7x11 S26x11 where
  lhsContracting := [1]
  rhsContracting := [0]
  lhsNonContracting := [0]
  rhsNonContracting := [1]
  lhsBatch := []
  rhsBatch := []
  wf := dot_S26x7_S7x11_S26x11_1_0_0_1_n_n_wf
def dot_S26x11_S11x26_S26x26_1_0_0_1_n_n : DotDims S26x11 S11x26 S26x26 where
  lhsContracting := [1]
  rhsContracting := [0]
  lhsNonContracting := [0]
  rhsNonContracting := [1]
  lhsBatch := []
  rhsBatch := []
  wf := dot_S26x11_S11x26_S26x26_1_0_0_1_n_n_wf
def dot_S26x26_S26x11_S26x11_1_0_0_1_n_n : DotDims S26x26 S26x11 S26x11 where
  lhsContracting := [1]
  rhsContracting := [0]
  lhsNonContracting := [0]
  rhsNonContracting := [1]
  lhsBatch := []
  rhsBatch := []
  wf := dot_S26x26_S26x11_S26x11_1_0_0_1_n_n_wf
def dot_S26x11_S11x7_S26x7_1_0_0_1_n_n : DotDims S26x11 S11x7 S26x7 where
  lhsContracting := [1]
  rhsContracting := [0]
  lhsNonContracting := [0]
  rhsNonContracting := [1]
  lhsBatch := []
  rhsBatch := []
  wf := dot_S26x11_S11x7_S26x7_1_0_0_1_n_n_wf
def dot_S26x7_S7x29_S26x29_1_0_0_1_n_n : DotDims S26x7 S7x29 S26x29 where
  lhsContracting := [1]
  rhsContracting := [0]
  lhsNonContracting := [0]
  rhsNonContracting := [1]
  lhsBatch := []
  rhsBatch := []
  wf := dot_S26x7_S7x29_S26x29_1_0_0_1_n_n_wf

class Facts : Prop extends Facts₀ where

variable [Facts]
-- ==== Proof.KFrame.lean ====
/- The frame of the program: @main's host operations, then the one region, run to the end from any memory; nothing
   faults, and every argument array ends as it began.

   @main first lays the weights out in one 114 × 128 array (three-piece concatenates of the key, query and value
   weights and biases, each piece padded with zeros to 128 columns, all ten pieces stacked), reshapes the tokens
   to a column, and then calls the kernel once, with no grid: every operand is staged whole, the body runs once,
   and the two results are written back whole. None of the host operations writes an argument array, the region
   stages two of them as inputs and leaves the others alone, so each is found unchanged at the end.

   The body is a straight line of loads of whole buffers and of row bands of the weight array, pure arithmetic,
   and one store covering each result buffer: what each result buffer holds afterwards is the stored value, a
   function of the four input buffers' contents (`logits`, `att1` below). -/
import proofs.«404685_j56470230008152_2_alg».proof.Proof.Gen.Kernel.Launch
import proofs.«404685_j56470230008152_2_alg».proof.Proof.Gen.Kernel.Skeleton
import proofs.«404685_j56470230008152_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after all the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is its lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at the point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's staging buffer holds its block when the body starts, for any proof data whose arrays are
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1400000 in
/-- From a run whose post has every array of the pipeline at the library's value and every other buffer as the
    region found it: the argument arrays end as launched — the two staged ones by the library's lemma for an
    input window, the others because no window stages them and no host operation wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's accesses -/

abbrev rX0 : Rect S26x1 := Rect.unit (s := S26x1) ![0, 0] S26x1.size inb_S26x1_S26x1_0_0
abbrev rX1 : Rect S29x7 := Rect.unit (s := S29x7) ![0, 0] S29x7.size inb_S29x7_S29x7_0_0
abbrev rX2 : Rect S26x7 := Rect.unit (s := S26x7) ![0, 0] S26x7.size inb_S26x7_S26x7_0_0
abbrev rW0 : Rect S114x128 := Rect.unit (s := S114x128) ![0, 0] S33x7.size inb_S114x128_S33x7_0_0
abbrev rB0 : Rect S114x128 := Rect.unit (s := S114x128) ![33, 0] S1x33.size inb_S114x128_S1x33_33_0
abbrev rF0 : Rect S114x128 := Rect.unit (s := S114x128) ![34, 0] S7x11.size inb_S114x128_S7x11_34_0
abbrev rG0 : Rect S114x128 := Rect.unit (s := S114x128) ![41, 0] S1x7.size inb_S114x128_S1x7_41_0
abbrev rW1 : Rect S114x128 := Rect.unit (s := S114x128) ![42, 0] S33x7.size inb_S114x128_S33x7_42_0
abbrev rB1 : Rect S114x128 := Rect.unit (s := S114x128) ![75, 0] S1x33.size inb_S114x128_S1x33_75_0
abbrev rF1 : Rect S114x128 := Rect.unit (s := S114x128) ![76, 0] S7x11.size inb_S114x128_S7x11_76_0
abbrev rG1 : Rect S114x128 := Rect.unit (s := S114x128) ![83, 0] S1x7.size inb_S114x128_S1x7_83_0
abbrev rWo : Rect S114x128 := Rect.unit (s := S114x128) ![84, 0] S29x7.size inb_S114x128_S29x7_84_0
abbrev rBo : Rect S114x128 := Rect.unit (s := S114x128) ![113, 0] S1x29.size inb_S114x128_S1x29_113_0
abbrev rO4 : Rect S26x29 := Rect.unit (s := S26x29) ![0, 0] S26x29.size inb_S26x29_S26x29_0_0
abbrev rO5 : Rect S26x26 := Rect.unit (s := S26x26) ![0, 0] S26x26.size inb_S26x26_S26x26_0_0

/-! ## What the body stores -/

/-- The second block's attention weights, from the four input buffers' contents: the value stored into the
    second result buffer. -/
def att1 (x0 : Vec F S26x1 .i32) (x1 : Vec F S29x7 .f32) (x2 : Vec F S26x7 .f32) (x3 : Vec F S114x128 .f32) : FVec F S26x26 .f32 :=
  k0_pay7 (k0_pay3 (View.ld x0 rX0) (View.ld x1 rX1) (View.ld x2 rX2) (View.ld x3 rW0) (View.ld x3 rB0)) (k0_pay4 (View.ld x0 rX0) (View.ld x1 rX1) (View.ld x2 rX2) (View.ld x3 rW0) (View.ld x3 rB0)) (View.ld x3 rF0) (View.ld x3 rG0) (View.ld x3 rW1) (View.ld x3 rB1)

/-- The logits, from the four input buffers' contents: the value stored into the first result buffer. -/
def logits (x0 : Vec F S26x1 .i32) (x1 : Vec F S29x7 .f32) (x2 : Vec F S26x7 .f32) (x3 : Vec F S114x128 .f32) : FVec F S26x29 .f32 :=
  k0_pay1 (k0_pay6 (k0_pay3 (View.ld x0 rX0) (View.ld x1 rX1) (View.ld x2 rX2) (View.ld x3 rW0) (View.ld x3 rB0)) (k0_pay4 (View.ld x0 rX0) (View.ld x1 rX1) (View.ld x2 rX2) (View.ld x3 rW0) (View.ld x3 rB0)) (View.ld x3 rF0) (View.ld x3 rG0) (View.ld x3 rW1) (View.ld x3 rB1)) (att1 x0 x1 x2 x3)
    (View.ld x3 rF1) (View.ld x3 rG1) (View.ld x3 rWo) (View.ld x3 rBo)

/-- Each result buffer after the body: its one store, covering it. -/
def out0_4 (x0 : Vec F S26x1 .i32) (x1 : Vec F S29x7 .f32) (x2 : Vec F S26x7 .f32) (x3 : Vec F S114x128 .f32) : Vec F S26x29 .f32 := View.canon [⟨rO4, logits x0 x1 x2 x3⟩]
def out0_5 (x0 : Vec F S26x1 .i32) (x1 : Vec F S29x7 .f32) (x2 : Vec F S26x7 .f32) (x3 : Vec F S114x128 .f32) : Vec F S26x26 .f32 := View.canon [⟨rO5, att1 x0 x1 x2 x3⟩]

theorem cover0_4 (p0 : Vec F S26x29 .f32) (y : S26x29.Idx) :
    ∃ pc ∈ ([⟨rO4, p0⟩] : List (View.Piece (Elt F) S26x29 .f32)), y ∈ pc.1.set :=
  View.cover_of_tiled [⟨rO4, p0⟩] S26x29.size (by rfl) y
theorem cover0_5 (p0 : Vec F S26x26 .f32) (y : S26x26.Idx) :
    ∃ pc ∈ ([⟨rO5, p0⟩] : List (View.Piece (Elt F) S26x26 .f32)), y ∈ pc.1.set :=
  View.cover_of_tiled [⟨rO5, p0⟩] S26x26.size (by rfl) y

/-! ## The body's triple -/

set_option maxHeartbeats 4000000 in
/-- The body on whole staging buffers, the inputs' at contents `x0 … x3` and the results' at anything, runs to
    the continuation with the inputs' as they were and each result's at its stored value. -/
theorem sound_kernel (c : Dev nD) (E : Set ℕ) (arg0 : Memref sig .tc .vmem S26x1 .i32) (harg0 : arg0.IsWhole) (arg1 : Memref sig .tc .vmem S29x7 .f32) (harg1 : arg1.IsWhole) (arg2 : Memref sig .tc .vmem S26x7 .f32) (harg2 : arg2.IsWhole) (arg3 : Memref sig .tc .vmem S114x128 .f32) (harg3 : arg3.IsWhole) (arg4 : Memref sig .tc .vmem S26x29 .f32) (harg4 : arg4.IsWhole) (arg5 : Memref sig .tc .vmem S26x26 .f32) (harg5 : arg5.IsWhole)
    (x0 : Vec F S26x1 .i32) (x1 : Vec F S29x7 .f32) (x2 : Vec F S26x7 .f32) (x3 : Vec F S114x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x2 x3)) -∗ K ⟨⟩))
      ⊢ wp frame (wpE (defs₀ (F := F)) Variants.none c none) E (cc0__kernel arg0 harg0 arg1 harg1 arg2 harg2 arg3 harg3 arg4 harg4 arg5 harg5) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of the one pipeline on core `c`: the arrays as the region finds them; after the body each
    input's buffer at its block and each result's at its stored value of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at the point: the inputs' buffers hold their blocks, so the triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.Hand

end
-- ==== Proof.KIFrame.lean ====
/- The frame of the program: @main's host operations, then the one region, run to the end from any memory; nothing
   faults, and every argument array ends as it began.

   @main first lays the weights out in one 114 × 128 array (three-piece concatenates of the key, query and value
   weights and biases, each piece padded with zeros to 128 columns, all ten pieces stacked), reshapes the tokens
   to a column, and then calls the kernel once, with no grid: every operand is staged whole, the body runs once,
   and the two results are written back whole. None of the host operations writes an argument array, the region
   stages two of them as inputs and leaves the others alone, so each is found unchanged at the end.

   The body is a straight line of loads of whole buffers and of row bands of the weight array, pure arithmetic,
   and one store covering each result buffer: what each result buffer holds afterwards is the stored value, a
   function of the four input buffers' contents (`logits`, `att1` below). -/
import proofs.«404685_j56470230008152_2_alg».proof.Proof.Gen.KernelIdeal.Launch
import proofs.«404685_j56470230008152_2_alg».proof.Proof.Gen.KernelIdeal.Skeleton
import proofs.«404685_j56470230008152_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after all the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is its lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at the point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's staging buffer holds its block when the body starts, for any proof data whose arrays are
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1400000 in
/-- From a run whose post has every array of the pipeline at the library's value and every other buffer as the
    region found it: the argument arrays end as launched — the two staged ones by the library's lemma for an
    input window, the others because no window stages them and no host operation wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's accesses -/

abbrev rX0 : Rect S26x1 := Rect.unit (s := S26x1) ![0, 0] S26x1.size inb_S26x1_S26x1_0_0
abbrev rX1 : Rect S29x7 := Rect.unit (s := S29x7) ![0, 0] S29x7.size inb_S29x7_S29x7_0_0
abbrev rX2 : Rect S26x7 := Rect.unit (s := S26x7) ![0, 0] S26x7.size inb_S26x7_S26x7_0_0
abbrev rW0 : Rect S114x128 := Rect.unit (s := S114x128) ![0, 0] S33x7.size inb_S114x128_S33x7_0_0
abbrev rB0 : Rect S114x128 := Rect.unit (s := S114x128) ![33, 0] S1x33.size inb_S114x128_S1x33_33_0
abbrev rF0 : Rect S114x128 := Rect.unit (s := S114x128) ![34, 0] S7x11.size inb_S114x128_S7x11_34_0
abbrev rG0 : Rect S114x128 := Rect.unit (s := S114x128) ![41, 0] S1x7.size inb_S114x128_S1x7_41_0
abbrev rW1 : Rect S114x128 := Rect.unit (s := S114x128) ![42, 0] S33x7.size inb_S114x128_S33x7_42_0
abbrev rB1 : Rect S114x128 := Rect.unit (s := S114x128) ![75, 0] S1x33.size inb_S114x128_S1x33_75_0
abbrev rF1 : Rect S114x128 := Rect.unit (s := S114x128) ![76, 0] S7x11.size inb_S114x128_S7x11_76_0
abbrev rG1 : Rect S114x128 := Rect.unit (s := S114x128) ![83, 0] S1x7.size inb_S114x128_S1x7_83_0
abbrev rWo : Rect S114x128 := Rect.unit (s := S114x128) ![84, 0] S29x7.size inb_S114x128_S29x7_84_0
abbrev rBo : Rect S114x128 := Rect.unit (s := S114x128) ![113, 0] S1x29.size inb_S114x128_S1x29_113_0
abbrev rO4 : Rect S26x29 := Rect.unit (s := S26x29) ![0, 0] S26x29.size inb_S26x29_S26x29_0_0
abbrev rO5 : Rect S26x26 := Rect.unit (s := S26x26) ![0, 0] S26x26.size inb_S26x26_S26x26_0_0

/-! ## What the body stores -/

/-- The second block's attention weights, from the four input buffers' contents: the value stored into the
    second result buffer. -/
def att1 (x0 : Vec F S26x1 .i32) (x1 : Vec F S29x7 .f32) (x2 : Vec F S26x7 .f32) (x3 : Vec F S114x128 .f32) : FVec F S26x26 .f32 :=
  k0_pay7 (k0_pay3 (View.ld x0 rX0) (View.ld x1 rX1) (View.ld x2 rX2) (View.ld x3 rW0) (View.ld x3 rB0)) (k0_pay4 (View.ld x0 rX0) (View.ld x1 rX1) (View.ld x2 rX2) (View.ld x3 rW0) (View.ld x3 rB0)) (View.ld x3 rF0) (View.ld x3 rG0) (View.ld x3 rW1) (View.ld x3 rB1)

/-- The logits, from the four input buffers' contents: the value stored into the first result buffer. -/
def logits (x0 : Vec F S26x1 .i32) (x1 : Vec F S29x7 .f32) (x2 : Vec F S26x7 .f32) (x3 : Vec F S114x128 .f32) : FVec F S26x29 .f32 :=
  k0_pay1 (k0_pay6 (k0_pay3 (View.ld x0 rX0) (View.ld x1 rX1) (View.ld x2 rX2) (View.ld x3 rW0) (View.ld x3 rB0)) (k0_pay4 (View.ld x0 rX0) (View.ld x1 rX1) (View.ld x2 rX2) (View.ld x3 rW0) (View.ld x3 rB0)) (View.ld x3 rF0) (View.ld x3 rG0) (View.ld x3 rW1) (View.ld x3 rB1)) (att1 x0 x1 x2 x3)
    (View.ld x3 rF1) (View.ld x3 rG1) (View.ld x3 rWo) (View.ld x3 rBo)

/-- Each result buffer after the body: its one store, covering it. -/
def out0_4 (x0 : Vec F S26x1 .i32) (x1 : Vec F S29x7 .f32) (x2 : Vec F S26x7 .f32) (x3 : Vec F S114x128 .f32) : Vec F S26x29 .f32 := View.canon [⟨rO4, logits x0 x1 x2 x3⟩]
def out0_5 (x0 : Vec F S26x1 .i32) (x1 : Vec F S29x7 .f32) (x2 : Vec F S26x7 .f32) (x3 : Vec F S114x128 .f32) : Vec F S26x26 .f32 := View.canon [⟨rO5, att1 x0 x1 x2 x3⟩]

theorem cover0_4 (p0 : Vec F S26x29 .f32) (y : S26x29.Idx) :
    ∃ pc ∈ ([⟨rO4, p0⟩] : List (View.Piece (Elt F) S26x29 .f32)), y ∈ pc.1.set :=
  View.cover_of_tiled [⟨rO4, p0⟩] S26x29.size (by rfl) y
theorem cover0_5 (p0 : Vec F S26x26 .f32) (y : S26x26.Idx) :
    ∃ pc ∈ ([⟨rO5, p0⟩] : List (View.Piece (Elt F) S26x26 .f32)), y ∈ pc.1.set :=
  View.cover_of_tiled [⟨rO5, p0⟩] S26x26.size (by rfl) y

/-! ## The body's triple -/

set_option maxHeartbeats 4000000 in
/-- The body on whole staging buffers, the inputs' at contents `x0 … x3` and the results' at anything, runs to
    the continuation with the inputs' as they were and each result's at its stored value. -/
theorem sound_kernel (c : Dev nD) (E : Set ℕ) (arg0 : Memref sig .tc .vmem S26x1 .i32) (harg0 : arg0.IsWhole) (arg1 : Memref sig .tc .vmem S29x7 .f32) (harg1 : arg1.IsWhole) (arg2 : Memref sig .tc .vmem S26x7 .f32) (harg2 : arg2.IsWhole) (arg3 : Memref sig .tc .vmem S114x128 .f32) (harg3 : arg3.IsWhole) (arg4 : Memref sig .tc .vmem S26x29 .f32) (harg4 : arg4.IsWhole) (arg5 : Memref sig .tc .vmem S26x26 .f32) (harg5 : arg5.IsWhole)
    (x0 : Vec F S26x1 .i32) (x1 : Vec F S29x7 .f32) (x2 : Vec F S26x7 .f32) (x3 : Vec F S114x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x2 x3)) -∗ K ⟨⟩))
      ⊢ wp frame (wpE (defs₀ (F := F)) Variants.none c none) E (cc0__kernel arg0 harg0 arg1 harg1 arg2 harg2 arg3 harg3 arg4 harg4 arg5 harg5) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of the one pipeline on core `c`: the arrays as the region finds them; after the body each
    input's buffer at its block and each result's at its stored value of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at the point: the inputs' buffers hold their blocks, so the triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.Hand

end
-- ==== Proof.KIValue.lean ====
/- The run of the idealized kernel's program, with its two result arrays named: after the run the first result array
   holds the logits and the second the second block's attention weights, each the body's stored value as a function
   of what the region found in the four operands it stages — the token column, the embedding table, the positions
   and the weight array —, and every argument array is as launched.

   There is no grid: the one point's blocks are the whole arrays, so what the point writes back is the stored value
   itself and it covers the result array. -/
import proofs.«404685_j56470230008152_2_alg».proof.Proof.KIFrame
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg)

theorem hz : (![0, 0] : Fin 2 → Nat) = fun _ => 0 := funext fun a => by fin_cases a <;> rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The block of each staged operand at the one point is the whole array. -/
theorem iblk0 (c : Dev nD) (t : Fin cfg0.N) : iblk m c 0 t = V m c main_v0 := by
  funext y
  show V m c main_v0 (((cfg0.win 0).blk t).view.emb y) = V m c main_v0 y
  congr 1
  funext a; apply Fin.ext
  obtain ⟨e0, e1⟩ := idx0 t
  match a with
  | ⟨0, _⟩ => show win0_0.index t (0 : Fin 2) * 26 + 1 * (y 0).val = (y 0).val; omega
  | ⟨1, _⟩ => show win0_0.index t (1 : Fin 2) * 1 + 1 * (y 1).val = (y 1).val; omega
theorem iblk1 (c : Dev nD) (t : Fin cfg0.N) : iblk m c 1 t = V m c main_arg1 := by
  funext y
  show V m c main_arg1 (((cfg0.win 1).blk t).view.emb y) = V m c main_arg1 y
  congr 1
  funext a; apply Fin.ext
  obtain ⟨e0, e1⟩ := idx1 t
  match a with
  | ⟨0, _⟩ => show win0_1.index t (0 : Fin 2) * 29 + 1 * (y 0).val = (y 0).val; omega
  | ⟨1, _⟩ => show win0_1.index t (1 : Fin 2) * 7 + 1 * (y 1).val = (y 1).val; omega
theorem iblk2 (c : Dev nD) (t : Fin cfg0.N) : iblk m c 2 t = V m c main_arg2 := by
  funext y
  show V m c main_arg2 (((cfg0.win 2).blk t).view.emb y) = V m c main_arg2 y
  congr 1
  funext a; apply Fin.ext
  obtain ⟨e0, e1⟩ := idx2 t
  match a with
  | ⟨0, _⟩ => show win0_2.index t (0 : Fin 2) * 26 + 1 * (y 0).val = (y 0).val; omega
  | ⟨1, _⟩ => show win0_2.index t (1 : Fin 2) * 7 + 1 * (y 1).val = (y 1).val; omega
theorem iblk3 (c : Dev nD) (t : Fin cfg0.N) : iblk m c 3 t = V m c main_v20 := by
  funext y
  show V m c main_v20 (((cfg0.win 3).blk t).view.emb y) = V m c main_v20 y
  congr 1
  funext a; apply Fin.ext
  obtain ⟨e0, e1⟩ := idx3 t
  match a with
  | ⟨0, _⟩ => show win0_3.index t (0 : Fin 2) * 114 + 1 * (y 0).val = (y 0).val; omega
  | ⟨1, _⟩ => show win0_3.index t (1 : Fin 2) * 128 + 1 * (y 1).val = (y 1).val; omega

/-- What the point writes back to result window 4: the stored value, read through the whole-array block. -/
theorem flushed4_eq (c : Dev nD) (t : Fin cfg0.N) :
    (dats m 0 c).flushed 4 t = ((cfg0.win 4).blk t).view.read (Elt F) (logits (V m c main_v0) (V m c main_arg1) (V m c main_arg2) (V m c main_v20)) := by
  show (cfg0.win 4).cut (grid0.coords t) ((dats m 0 c).after 4 t) = _
  rw [after0_4]
  unfold out0_4
  rw [View.canon_unit_zero hz, iblk0, iblk1, iblk2, iblk3]
  funext j
  obtain ⟨e0, e1⟩ := idx4 t
  show logits (V m c main_v0) (V m c main_arg1) (V m c main_arg2) (V m c main_v20) j = logits (V m c main_v0) (V m c main_arg1) (V m c main_arg2) (V m c main_v20) (((cfg0.win 4).blk t).view.emb j)
  congr 1
  funext a; apply Fin.ext
  match a with
  | ⟨0, _⟩ => show (j 0).val = win0_4.index t (0 : Fin 2) * 26 + 1 * (j 0).val; omega
  | ⟨1, _⟩ => show (j 1).val = win0_4.index t (1 : Fin 2) * 29 + 1 * (j 1).val; omega

/-- The one point's block is the whole result array. -/
theorem cover4 (i : S26x29.Idx) : ∃ t : Fin cfg0.N, (cfg0.win 4).flush t = true ∧ i ∈ ((cfg0.win 4).blk t).view.set := by
  refine ⟨t0_0, flush0_4 t0_0, ?_⟩
  show i ∈ ((View.whole main_v21_0).slice (win0_4.rect t0_0)).set
  rw [View.set_slice_whole, Rect.mem_set_unit]
  obtain ⟨e0, e1⟩ := idx4 t0_0
  intro a
  match a with
  | ⟨0, _⟩ => show win0_4.index t0_0 (0 : Fin 2) * 26 ≤ (i 0).val ∧ (i 0).val < win0_4.index t0_0 (0 : Fin 2) * 26 + 26; have hi : (i 0).val < 26 := (i 0).isLt; omega
  | ⟨1, _⟩ => show win0_4.index t0_0 (1 : Fin 2) * 29 ≤ (i 1).val ∧ (i 1).val < win0_4.index t0_0 (1 : Fin 2) * 29 + 29; have hi : (i 1).val < 29 := (i 1).isLt; omega

theorem final4 (c : Dev nD) : (dats m 0 c).arrAt 4 cfg0.N = logits (V m c main_v0) (V m c main_arg1) (V m c main_arg2) (V m c main_v20) :=
  (dats m 0 c).arrAt_eq_of_cover 4 (logits (V m c main_v0) (V m c main_arg1) (V m c main_arg2) (V m c main_v20)) (fun t _ => flushed4_eq m c t) (cover4)

/-- What the point writes back to result window 5: the stored value, read through the whole-array block. -/
theorem flushed5_eq (c : Dev nD) (t : Fin cfg0.N) :
    (dats m 0 c).flushed 5 t = ((cfg0.win 5).blk t).view.read (Elt F) (att1 (V m c main_v0) (V m c main_arg1) (V m c main_arg2) (V m c main_v20)) := by
  show (cfg0.win 5).cut (grid0.coords t) ((dats m 0 c).after 5 t) = _
  rw [after0_5]
  unfold out0_5
  rw [View.canon_unit_zero hz, iblk0, iblk1, iblk2, iblk3]
  funext j
  obtain ⟨e0, e1⟩ := idx5 t
  show att1 (V m c main_v0) (V m c main_arg1) (V m c main_arg2) (V m c main_v20) j = att1 (V m c main_v0) (V m c main_arg1) (V m c main_arg2) (V m c main_v20) (((cfg0.win 5).blk t).view.emb j)
  congr 1
  funext a; apply Fin.ext
  match a with
  | ⟨0, _⟩ => show (j 0).val = win0_5.index t (0 : Fin 2) * 26 + 1 * (j 0).val; omega
  | ⟨1, _⟩ => show (j 1).val = win0_5.index t (1 : Fin 2) * 26 + 1 * (j 1).val; omega

/-- The one point's block is the whole result array. -/
theorem cover5 (i : S26x26.Idx) : ∃ t : Fin cfg0.N, (cfg0.win 5).flush t = true ∧ i ∈ ((cfg0.win 5).blk t).view.set := by
  refine ⟨t0_0, flush0_5 t0_0, ?_⟩
  show i ∈ ((View.whole main_v21_1).slice (win0_5.rect t0_0)).set
  rw [View.set_slice_whole, Rect.mem_set_unit]
  obtain ⟨e0, e1⟩ := idx5 t0_0
  intro a
  match a with
  | ⟨0, _⟩ => show win0_5.index t0_0 (0 : Fin 2) * 26 ≤ (i 0).val ∧ (i 0).val < win0_5.index t0_0 (0 : Fin 2) * 26 + 26; have hi : (i 0).val < 26 := (i 0).isLt; omega
  | ⟨1, _⟩ => show win0_5.index t0_0 (1 : Fin 2) * 26 ≤ (i 1).val ∧ (i 1).val < win0_5.index t0_0 (1 : Fin 2) * 26 + 26; have hi : (i 1).val < 26 := (i 1).isLt; omega

theorem final5 (c : Dev nD) : (dats m 0 c).arrAt 5 cfg0.N = att1 (V m c main_v0) (V m c main_arg1) (V m c main_arg2) (V m c main_v20) :=
  (dats m 0 c).arrAt_eq_of_cover 5 (att1 (V m c main_v0) (V m c main_arg1) (V m c main_arg2) (V m c main_v20)) (fun t _ => flushed5_eq m c t) (cover5)

set_option maxHeartbeats 1400000 in
/-- After the frame run every argument array is as launched. -/
theorem kept_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).2 main_arg20 (Pipeline.mem_restRefs_of main_arg20 (by decide) (by decide))).trans (V_main_arg20 m c)⟩

/-- The run, read: the two results named, the arguments as launched. -/
theorem run_value : θ_run defs (onTc (τ := τ) (main (F := F))) ⟨m, fun _ => 0, ρ⟩ (fun r => ∀ c : Dev nD,
      r.2.mem ((c.tc : Thread nD τ).loc main_v21_0) = logits (V m c main_v0) (m ((c.tc : Thread nD τ).loc main_arg1)) (m ((c.tc : Thread nD τ).loc main_arg2)) (V m c main_v20)
      ∧ r.2.mem ((c.tc : Thread nD τ).loc main_v21_1) = att1 (V m c main_v0) (m ((c.tc : Thread nD τ).loc main_arg1)) (m ((c.tc : Thread nD τ).loc main_arg2)) (V m c main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨((h c).1 4).trans ((final4 m c).trans (by rw [V_main_arg1, V_main_arg2])),
      ((h c).1 5).trans ((final5 m c).trans (by rw [V_main_arg1, V_main_arg2])),
      kept_of_post m r h c⟩)
    (run_main m ρ)

end Cert.KernelIdeal.Hand

end
-- ==== Proof.Cat3.lean ====
/- Three weight blocks stacked along the rows, and three bias vectors laid end to end: what @main's three-piece
   concatenates build from the key, query and value parameters. -/
import proofs.«404685_j56470230008152_2_alg».proof.Proof.Gen.KernelIdeal

noncomputable section

namespace Cert.Bridge

open Idealize.ShloMosaic Idealize.SL.Sem

def cat3W (a b c : FVec Ideal Cert.KernelIdeal.S11x7 .f32) : FVec Ideal Cert.KernelIdeal.S33x7 .f32 :=
  concatenate Cert.KernelIdeal.S33x7 0 [⟨Cert.KernelIdeal.S11x7, a⟩, ⟨Cert.KernelIdeal.S11x7, b⟩, ⟨Cert.KernelIdeal.S11x7, c⟩] Cert.KernelIdeal.Gen.concatenates_S11x7_S11x7_S11x7_S33x7_d0
def cat3B (a b c : FVec Ideal Cert.KernelIdeal.S11 .f32) : FVec Ideal Cert.KernelIdeal.S33 .f32 :=
  concatenate Cert.KernelIdeal.S33 0 [⟨Cert.KernelIdeal.S11, a⟩, ⟨Cert.KernelIdeal.S11, b⟩, ⟨Cert.KernelIdeal.S11, c⟩] Cert.KernelIdeal.Gen.concatenates_S11_S11_S11_S33_d0

end Cert.Bridge

end
-- ==== Proof.SlabDef.lean ====
/- The 114 × 128 weight array @main builds for the kernel, as one term of the eighteen parameter arrays: ten row
   bands stacked — the fused key/query/value weights (33 rows), their biases (1 row), the output map's 7 × 11
   weights (7 rows) and its bias (1 row), the same four for the second block, the logits' 29 × 7 weights and their
   bias row —, each band padded on the right with zeros to 128 columns. -/
import proofs.«404685_j56470230008152_2_alg».proof.Proof.Cat3

noncomputable section

namespace Cert.Bridge

open Idealize.ShloMosaic Idealize.SL.Sem Cert.KernelIdeal Cert.KernelIdeal.Gen

/-- The padding value: the integer zero converted to a float. -/
def zpad : FVec Ideal S_ .f32 := sitofp (F := Ideal) .f32 (constantI S_ 32 0#32)

/-- A bias vector as a 128-column row: padded with zeros, then read as one row. -/
def rowB33 (b : FVec Ideal S33 .f32) : FVec Ideal S1x128 .f32 :=
  shapeCast S1x128 (pad S128 ![0] ![95] ![0] b zpad pads_S33_S128_0950 h_S_) shapeCasts_S128_S1x128
def rowB7 (b : FVec Ideal S7 .f32) : FVec Ideal S1x128 .f32 :=
  shapeCast S1x128 (pad S128 ![0] ![121] ![0] b zpad pads_S7_S128_01210 h_S_) shapeCasts_S128_S1x128
def rowB29 (b : FVec Ideal S29 .f32) : FVec Ideal S1x128 .f32 :=
  shapeCast S1x128 (pad S128 ![0] ![99] ![0] b zpad pads_S29_S128_0990 h_S_) shapeCasts_S128_S1x128
/-- A weight block padded with zeros to 128 columns. -/
def padW33 (w : FVec Ideal S33x7 .f32) : FVec Ideal S33x128 .f32 :=
  pad S33x128 ![0, 0] ![0, 121] ![0, 0] w zpad pads_S33x7_S33x128_000_01210 h_S_
def padW7 (w : FVec Ideal S7x11 .f32) : FVec Ideal S7x128 .f32 :=
  pad S7x128 ![0, 0] ![0, 117] ![0, 0] w zpad pads_S7x11_S7x128_000_01170 h_S_
def padW29 (w : FVec Ideal S29x7 .f32) : FVec Ideal S29x128 .f32 :=
  pad S29x128 ![0, 0] ![0, 121] ![0, 0] w zpad pads_S29x7_S29x128_000_01210 h_S_

/-- The weight array: rows 0–32, 33, 34–40, 41 the first block's; 42–74, 75, 76–82, 83 the second's; 84–112, 113
    the logits'. -/
def slabOf (a3 : FVec Ideal S11x7 .f32) (a4 : FVec Ideal S11 .f32) (a5 : FVec Ideal S11x7 .f32) (a6 : FVec Ideal S11 .f32)
    (a7 : FVec Ideal S11x7 .f32) (a8 : FVec Ideal S11 .f32) (a9 : FVec Ideal S7x11 .f32) (a10 : FVec Ideal S7 .f32)
    (a11 : FVec Ideal S11x7 .f32) (a12 : FVec Ideal S11 .f32) (a13 : FVec Ideal S11x7 .f32) (a14 : FVec Ideal S11 .f32)
    (a15 : FVec Ideal S11x7 .f32) (a16 : FVec Ideal S11 .f32) (a17 : FVec Ideal S7x11 .f32) (a18 : FVec Ideal S7 .f32)
    (a19 : FVec Ideal S29x7 .f32) (a20 : FVec Ideal S29 .f32) : FVec Ideal S114x128 .f32 :=
  concatenate S114x128 0
    [⟨S33x128, padW33 (cat3W a3 a5 a7)⟩, ⟨S1x128, rowB33 (cat3B a4 a6 a8)⟩, ⟨S7x128, padW7 a9⟩, ⟨S1x128, rowB7 a10⟩,
     ⟨S33x128, padW33 (cat3W a11 a13 a15)⟩, ⟨S1x128, rowB33 (cat3B a12 a14 a16)⟩, ⟨S7x128, padW7 a17⟩, ⟨S1x128, rowB7 a18⟩,
     ⟨S29x128, padW29 a19⟩, ⟨S1x128, rowB29 a20⟩]
    concatenates_S33x128_S1x128_S7x128_S1x128_S33x128_S1x128_S7x128_S1x128_S29x128_S1x128_S114x128_d0

end Cert.Bridge

end
-- ==== Proof.LibNary3.lean ====
/- A straight line's result lemma for a host operation over a LITERAL family of three references (a three-piece
   concatenate): what the operation leaves at its own result buffer, with each operand's contents read AT ITS OWN
   REFERENCE, in the shape of the library's lemma for four references; and the one-pass computation of a line's
   results that uses it. General: nothing here names a program. -/
import Idealize.ShloMosaic.Lib.StableHlo.Run

noncomputable section

namespace Idealize.ShloMosaic.StableHlo

variable {τ : Topo} {sig : RefSig} {Val : EltTy → Type}

section Nary3

variable {x a b y : Ref sig .tc}

/-- `nary` over a literal family of three references: the result with each operand's contents at its own reference —
    `Fin.cons (F ↑x) (Fin.cons (F ↑a) (Fin.cons (F ↑b) _))` in place of `fun k => F ↑(![x, a, b] k)` —, so that the
    operands' contents can go on being rewritten (under the binder the reference `![x, a, b] k` is no literal). The
    function applied to it reads operand `k` by `Fin.cons` at the literal `k`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` for `simp`: the result reference un-indexed, as the library's primed lemmas are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-- The buffers after a literal line of operations, at one literal reference, as ONE `simp only` pass: the library's
    one-pass computation with a three-reference family read by `nary3_result'` (and no lemma for a family under a binder). -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The buffers after two lines run one after the other: the second line's, from the first line's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end Idealize.ShloMosaic.StableHlo

end
-- ==== Proof.SlabVal.lean ====
/- What @main's host operations leave, at the kernel's launch, in the two operands they compute: the tokens read as
   a 26 × 1 column, and the weight array (`slabOf` of the eighteen parameter arrays as launched). Each is the
   composition of the operations that write it — three-piece concatenates, pads by a zero, reshapes of a vector to
   a row, the ten-piece stack — read off the line of operations one result at a time. -/
import proofs.«404685_j56470230008152_2_alg».proof.Proof.SlabDef
import proofs.«404685_j56470230008152_2_alg».proof.Proof.KIFrame
import proofs.«404685_j56470230008152_2_alg».proof.Proof.LibNary3

noncomputable section

namespace Idealize.ShloMosaic.StableHlo

/-- A function of three values, applied to them. -/
def named3 {α0 α1 α2 δ : Type} (A0 : α0) (A1 : α1) (A2 : α2) (k : α0 → α1 → α2 → δ) : δ := k A0 A1 A2

/-- A function of ten values, applied to them. -/
def named10 {α0 α1 α2 α3 α4 α5 α6 α7 α8 α9 δ : Type} (A0 : α0) (A1 : α1) (A2 : α2) (A3 : α3) (A4 : α4) (A5 : α5) (A6 : α6) (A7 : α7) (A8 : α8) (A9 : α9)
    (k : α0 → α1 → α2 → α3 → α4 → α5 → α6 → α7 → α8 → α9 → δ) : δ := k A0 A1 A2 A3 A4 A5 A6 A7 A8 A9

variable {τ : Topo} {sig : RefSig} {Val : EltTy → Type}

section Named

variable {x0 x1 x2 x3 x4 x5 x6 x7 x8 x9 y : Ref sig .tc}

/-- An operation over a literal family of three references leaves, at its own result buffer, its function of the three
    operands' contents, each read at its own reference: operand `k` of the function is the `k`-th of the three. -/
theorem nary3_named
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = named3 (F (Proc.devRef .tc x0)) (F (Proc.devRef .tc x1)) (F (Proc.devRef .tc x2))
          (fun A0 A1 A2 => f (Fin.cons A0 (Fin.cons A1 (Fin.cons A2 (fun i => i.elim0))))) :=
  nary3_result f hxs hy F

/-- The same for a literal family of ten references: operand `k` of the function is the `k`-th of the ten contents. -/
theorem nary10_named
    (f : ((k : Fin 10) → ((![x0, x1, x2, x3, x4, x5, x6, x7, x8, x9] : Fin 10 → Ref sig .tc) k).ty.Contents Val) → y.ty.Contents Val) (hxs hy)
    (F : Valuation τ sig Val) :
    (nary (τ := τ) ![x0, x1, x2, x3, x4, x5, x6, x7, x8, x9] y f hxs hy).result F (no_index (Proc.devRef .tc y))
      = named10 (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) (F (Proc.devRef .tc x9))
          (fun A0 A1 A2 A3 A4 A5 A6 A7 A8 A9 => f (Fin.cons A0 (Fin.cons A1 (Fin.cons A2 (Fin.cons A3 (Fin.cons A4 (Fin.cons A5 (Fin.cons A6 (Fin.cons A7 (Fin.cons A8 (Fin.cons A9 (fun i => i.elim0)))))))))))) := by
  rw [nary_result]; unfold named10; congr 1; funext k; fin_cases k <;> rfl

end Named

/-- The buffers after a literal line of operations, at one literal reference: each operation leaves at its own result
    buffer its function of its operands' contents, and at every other buffer what was there. -/
macro "after_results_named" : tactic =>
  `(tactic| (simp (disch := decide) only [after_cons, after_nil,
      nullary_result', unary_result', binary_result', ternary_result', quaternary_result', reshape_result', nary3_named, nary10_named,
      nullary_result_ne', unary_result_ne', binary_result_ne', ternary_result_ne', quaternary_result_ne', reshape_result_ne',
      nary_result_ne']))

end Idealize.ShloMosaic.StableHlo

namespace Cert.Bridge

open Idealize.ShloMosaic Idealize.ShloMosaic.TcCoe Idealize.SL.Sem Idealize.ShloMosaic.StableHlo Cert.KernelIdeal Cert.KernelIdeal.Gen Cert.KernelIdeal.Hand

variable (m : (ℓ : Loc nD τ sig) → Buf (Elt Ideal) ℓ) (c : Dev nD)

/-- Only the first operation writes `main_v0`: the tokens' vector read as a 26 × 1 column. -/
theorem V_tokens : (V (F := Ideal) m c main_v0 : S26x1.Idx → BitVec 32) = shapeCast S26x1 (m ((c : Thread nD τ).loc main_arg0)) shapeCasts_S26_S26x1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_named
  rfl

/-- `main_v20` is the ten-piece stack of `main_v5, v7, v8, v10, v11, v13, v14, v16, v17, v19`. Each even-placed piece is
    a weight block padded on the right by the zero (the integer constant 0 converted to a float): the three-piece
    stack `main_v1` (resp. `main_v3`) of the key, query and value weights, or a parameter array itself. Each
    odd-placed piece is a bias vector — the three-piece `main_v2` (resp. `main_v4`), or a parameter —, padded by the
    same zero to 128 entries and read as one row. No operation of the line writes a parameter array, so each is read as
    launched. -/
theorem V_slab : (V (F := Ideal) m c main_v20 : S114x128.Idx → EReal)
    = slabOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_named
  dsimp only [named3, named10]
  unfold slabOf padW33 padW7 padW29 rowB33 rowB7 rowB29 cat3W cat3B zpad
  rfl

end Cert.Bridge

end
-- ==== Proof.PreDecode.lean ====
/- The precondition's first conjunct, read: every token lies in `[0, 29)`. The printed predicate is an `and` over
   all entries of `(x ≥ 0) ∧ (x < 29)`, conjoined with the finiteness conjuncts of the float inputs; all ones means
   each entry's two signed comparisons hold. -/
import proofs.«404685_j56470230008152_2_alg».proof.Defs
import proofs.«404685_j56470230008152_2_alg».proof.Proof.Gen.Pre_finite_inputs
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.TcCoe Idealize.SL.Sem

/-- An `and` of two `i1` arrays that reads 1 at an index has a 1 there in its left operand. -/
private theorem andi_left {t : Shape} (x y : IVec t 1) (i : t.Idx) (e : andi x y i = 1#1) : x i = 1#1 :=
  (IntOp.andi_eq_one.1 e).1

/-- The rank-0 shape has one index. -/
private instance : Subsingleton Cert.Pre_finite_inputs.S_.Idx := ⟨fun a b => funext fun d => d.elim0⟩

/-- Under the precondition every token of every device's `x` is in range. -/
theorem tokens_in_range (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) (s : Cert.KernelIdeal.S26.Idx) :
    0 ≤ ((m ((c.tc : Thread Cert.KernelIdeal.nD Cert.KernelIdeal.τ).loc Cert.KernelIdeal.main_arg0) : Cert.KernelIdeal.S26.Idx → BitVec 32) s).toInt
      ∧ ((m ((c.tc : Thread Cert.KernelIdeal.nD Cert.KernelIdeal.τ).loc Cert.KernelIdeal.main_arg0) : Cert.KernelIdeal.S26.Idx → BitVec 32) s).toInt < 29 := by
  -- the predicate's one word is 1
  have h0 := congrFun (h c) ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at h0
  dsimp only at h0
  -- it is a left-nested `and` of twenty-one conjuncts; the innermost left one is the tokens' `all`
  iterate 20 replace h0 := andi_left _ _ _ h0
  -- an `and`-reduce over all 26 entries that is 1 had a 1 at entry `s`: `(x s ≥ 0) and (x s < 29)`
  have hs := Host.reduce_andi_all _ _ _ _ _ h0 s
  obtain ⟨hge, hlt⟩ := IntOp.andi_eq_one.1 hs
  -- each signed compare is an inequality of integers; the broadcast scalar reads its constant at every entry
  replace hge := IntOp.cmpi_sge.1 hge
  replace hlt := IntOp.cmpi_slt.1 hlt
  rw [StableHlo.Predicate.bcast_scalar _ Cert.Pre_finite_inputs.Gen.h_S_] at hge hlt
  have z0 : (0#32 : BitVec 32).toInt = 0 := by decide
  have z29 : (29#32 : BitVec 32).toInt = 29 := by decide
  exact ⟨z0 ▸ hge, z29 ▸ hlt⟩

end Cert.Bridge

end
-- ==== Proof.KStages.lean ====
/- The kernel body's arithmetic, regrouped into the stages of the network it computes.

   The body is one straight line: a token embedding (a one-hot matrix times the table, plus the positions), then
   twice an attention block — one fused product giving keys, queries and values side by side in 33 columns, the
   causal softmax of queries against keys, the attention-weighted values, a linear map back to width 7 — and a final
   linear map to the 29 logits. Each stage below is the body's own sequence of operations over the values it
   takes in; the payload names of the skeleton are compositions of these stages, definitionally. -/
import proofs.«404685_j56470230008152_2_alg».proof.Proof.Gen.KernelIdeal.Skeleton

noncomputable section

namespace Cert.KernelIdeal.Stages

open Idealize.ShloMosaic Idealize.SL.Sem Cert.KernelIdeal Cert.KernelIdeal.Gen

variable {F : FTy → Type} [FloatOps F] [Named F]

/-- The embedding: row `s` of the one-hot matrix `[x s = v]` times the table, plus the position row. -/
def kEmb (v0 : Vec F S26x1 .i32) (v7 : Vec F S29x7 .f32) (v9 : Vec F S26x7 .f32) : FVec F S26x7 .f32 :=
  have v1 : IVec S26x1 32 := shapeCast S26x1 v0 shapeCasts_S26x1_S26x1
  have v2 : IVec S26x29 32 := iota .tc S26x29 32 [1] iota_S26x29_d1_w32
  have v3 : IVec S26x29 32 := broadcastTo S26x29 v1 broadcasts_S26x1_S26x29
  have v4 : IVec S26x29 1 := cmpi .eq v3 v2
  have v5 : IVec S26x29 32 := extui 32 v4 natLt_1_32
  have v6 : FVec F S26x29 .f32 := sitofp .f32 v5
  have cst : FVec F S26x7 .f32 := constant S26x7 .f32 0x00000000#32
  have v8 : FVec F S26x7 .f32 := matmul dot_S26x29_S29x7_S26x7_1_0_0_1_n_n (some .fp32) v6 v7 cst
  have v10 : FVec F S26x7 .f32 := addf v8 v9
  v10

/-- The fused projection: `h` (width 7) times the transpose of a 33-row weight block, plus a 33-entry bias row
    broadcast down the 26 rows: keys in columns 0–10, queries in 11–21, values in 22–32. -/
def kLin (v10 : FVec F S26x7 .f32) (v12 : Vec F S33x7 .f32) (v15 : Vec F S1x33 .f32) : FVec F S26x33 .f32 :=
  have v11 : FVec F S26x7 .bf16 := truncf .bf16 v10 bitsLt_bf16_f32
  have v13 : FVec F S33x7 .f32 := shapeCast S33x7 v12 shapeCasts_S33x7_S33x7
  have v14 : FVec F S33x7 .bf16 := truncf .bf16 v13 bitsLt_bf16_f32
  have v16 : FVec F S33 .f32 := shapeCast S33 v15 shapeCasts_S1x33_S33
  have v17 : FVec F S7x33 .bf16 := transpose S7x33 [1, 0] v14 transposes_S33x7_p1_0_S7x33
  have cst_8 : FVec F S26x33 .f32 := constant S26x33 .f32 0x00000000#32
  have v18 : FVec F S26x33 .f32 := matmul dot_S26x7_S7x33_S26x33_1_0_0_1_n_n none v11 v17 cst_8
  have v19 : FVec F S1x33 .f32 := shapeCast S1x33 v16 shapeCasts_S33_S1x33
  have v20 : FVec F S26x33 .f32 := broadcastTo S26x33 v19 broadcasts_S1x33_S26x33
  have v21 : FVec F S26x33 .f32 := addf v18 v20
  v21

/-- The keys, the queries and the values: three column bands of the fused projection. -/
def kK (v21 : FVec F S26x33 .f32) : FVec F S26x11 .f32 := extractStridedSlice S26x11 ![0, 0] v21 slices_S26x33_o0_0_S26x11
def kQ (v21 : FVec F S26x33 .f32) : FVec F S26x11 .f32 := extractStridedSlice S26x11 ![0, 11] v21 slices_S26x33_o0_11_S26x11
def kV (v21 : FVec F S26x33 .f32) : FVec F S26x11 .f32 := extractStridedSlice S26x11 ![0, 22] v21 slices_S26x33_o0_22_S26x11

/-- The causal softmax: scores `q · k`, entries above the diagonal replaced by the fill, each row shifted by its
    maximum, exponentiated and divided by its sum. -/
def kAtt (v21 : FVec F S26x33 .f32) : FVec F S26x26 .f32 :=
  have v22 : FVec F S26x11 .f32 := extractStridedSlice S26x11 ![0, 0] v21 slices_S26x33_o0_0_S26x11
  have v23 : FVec F S26x11 .f32 := extractStridedSlice S26x11 ![0, 11] v21 slices_S26x33_o0_11_S26x11
  have v25 : FVec F S26x11 .bf16 := truncf .bf16 v23 bitsLt_bf16_f32
  have v26 : FVec F S26x11 .bf16 := truncf .bf16 v22 bitsLt_bf16_f32
  have v27 : FVec F S11x26 .bf16 := transpose S11x26 [1, 0] v26 transposes_S26x11_p1_0_S11x26
  have cst_9 : FVec F S26x26 .f32 := constant S26x26 .f32 0x00000000#32
  have v28 : FVec F S26x26 .f32 := matmul dot_S26x11_S11x26_S26x26_1_0_0_1_n_n none v25 v27 cst_9
  have v29 : IVec S26x26 32 := iota .tc S26x26 32 [0] iota_S26x26_d0_w32
  have v30 : IVec S26x26 32 := iota .tc S26x26 32 [1] iota_S26x26_d1_w32
  have v31 : IVec S26x26 1 := cmpi .sge v29 v30
  have cst_10 : F .f32 := Named.named κ "neg_big" 0xFF333332#32
  have v32 : FVec F S26x26 .f32 := broadcast S26x26 cst_10
  have v33 : FVec F S26x26 .f32 := select v31 v28 v32
  have v34 : FVec F S26 .f32 := multiReduction .maximumf [1] S26 v33 0xFF800000#32 reduces_S26x26_S26 (.inl rfl) rfl
  have v35 : FVec F S26x1 .f32 := shapeCast S26x1 v34 shapeCasts_S26_S26x1
  have v36 : FVec F S26x26 .f32 := broadcastTo S26x26 v35 broadcasts_S26x1_S26x26
  have v37 : FVec F S26x26 .f32 := subf v33 v36
  have v38 : FVec F S26x26 .f32 := exp v37
  have v39 : FVec F S26 .f32 := multiReduction .add [1] S26 v38 0x00000000#32 reduces_S26x26_S26 (.inl rfl) rfl
  have v40 : FVec F S26x1 .f32 := shapeCast S26x1 v39 shapeCasts_S26_S26x1
  have v41 : FVec F S26x26 .f32 := broadcastTo S26x26 v40 broadcasts_S26x1_S26x26
  have v42 : FVec F S26x26 .f32 := divf v38 v41
  v42

/-- The block's output: the attention weights times the values, then a linear map (an 11-column weight block,
    transposed, and a 7-entry bias row) back to width 7. -/
def kFfn (v24 : FVec F S26x11 .f32) (v43 : FVec F S26x26 .bf16) (v46 : Vec F S7x11 .f32) (v49 : Vec F S1x7 .f32) : FVec F S26x7 .f32 :=
  have v44 : FVec F S26x11 .bf16 := truncf .bf16 v24 bitsLt_bf16_f32
  have cst_13 : FVec F S26x11 .f32 := constant S26x11 .f32 0x00000000#32
  have v45 : FVec F S26x11 .f32 := matmul dot_S26x26_S26x11_S26x11_1_0_0_1_n_n none v43 v44 cst_13
  have v47 : FVec F S7x11 .f32 := shapeCast S7x11 v46 shapeCasts_S7x11_S7x11
  have v48 : FVec F S7x11 .bf16 := truncf .bf16 v47 bitsLt_bf16_f32
  have v50 : FVec F S7 .f32 := shapeCast S7 v49 shapeCasts_S1x7_S7
  have v51 : FVec F S26x11 .bf16 := truncf .bf16 v45 bitsLt_bf16_f32
  have v52 : FVec F S11x7 .bf16 := transpose S11x7 [1, 0] v48 transposes_S7x11_p1_0_S11x7
  have cst_16 : FVec F S26x7 .f32 := constant S26x7 .f32 0x00000000#32
  have v53 : FVec F S26x7 .f32 := matmul dot_S26x11_S11x7_S26x7_1_0_0_1_n_n none v51 v52 cst_16
  have v54 : FVec F S1x7 .f32 := shapeCast S1x7 v50 shapeCasts_S7_S1x7
  have v55 : FVec F S26x7 .f32 := broadcastTo S26x7 v54 broadcasts_S1x7_S26x7
  have v56 : FVec F S26x7 .f32 := addf v53 v55
  v56

/-- The logits: `h` (width 7) times the transpose of the 29-row output weights, plus the 29-entry bias row. -/
def kOut (v102 : FVec F S26x7 .f32) (v104 : Vec F S29x7 .f32) (v107 : Vec F S1x29 .f32) : FVec F S26x29 .f32 :=
  have v103 : FVec F S26x7 .bf16 := truncf .bf16 v102 bitsLt_bf16_f32
  have v105 : FVec F S29x7 .f32 := shapeCast S29x7 v104 shapeCasts_S29x7_S29x7
  have v106 : FVec F S29x7 .bf16 := truncf .bf16 v105 bitsLt_bf16_f32
  have v108 : FVec F S29 .f32 := shapeCast S29 v107 shapeCasts_S1x29_S29
  have v109 : FVec F S7x29 .bf16 := transpose S7x29 [1, 0] v106 transposes_S29x7_p1_0_S7x29
  have cst_30 : FVec F S26x29 .f32 := constant S26x29 .f32 0x00000000#32
  have v110 : FVec F S26x29 .f32 := matmul dot_S26x7_S7x29_S26x29_1_0_0_1_n_n none v103 v109 cst_30
  have v111 : FVec F S1x29 .f32 := shapeCast S1x29 v108 shapeCasts_S29_S1x29
  have v112 : FVec F S26x29 .f32 := broadcastTo S26x29 v111 broadcasts_S1x29_S26x29
  have v113 : FVec F S26x29 .f32 := addf v110 v112
  v113

/-! The skeleton's payloads are these stages composed. -/

theorem pay2_eq (v0 : Vec F S26x1 .i32) (v7 : Vec F S29x7 .f32) (v9 : Vec F S26x7 .f32) (v12 : Vec F S33x7 .f32) (v15 : Vec F S1x33 .f32) :
    k0_pay2 v0 v7 v9 v12 v15 = kLin (kEmb v0 v7 v9) v12 v15 := rfl

theorem pay3_eq (v0 : Vec F S26x1 .i32) (v7 : Vec F S29x7 .f32) (v9 : Vec F S26x7 .f32) (v12 : Vec F S33x7 .f32) (v15 : Vec F S1x33 .f32) :
    k0_pay3 v0 v7 v9 v12 v15 = kV (k0_pay2 v0 v7 v9 v12 v15) := rfl

theorem pay4_eq (v0 : Vec F S26x1 .i32) (v7 : Vec F S29x7 .f32) (v9 : Vec F S26x7 .f32) (v12 : Vec F S33x7 .f32) (v15 : Vec F S1x33 .f32) :
    k0_pay4 v0 v7 v9 v12 v15 = truncf .bf16 (kAtt (k0_pay2 v0 v7 v9 v12 v15)) bitsLt_bf16_f32 := rfl

theorem pay5_eq (v24 : FVec F S26x11 .f32) (v43 : FVec F S26x26 .bf16) (v46 : Vec F S7x11 .f32) (v49 : Vec F S1x7 .f32) (v58 : Vec F S33x7 .f32) (v61 : Vec F S1x33 .f32) :
    k0_pay5 v24 v43 v46 v49 v58 v61 = kLin (kFfn v24 v43 v46 v49) v58 v61 := rfl

theorem pay6_eq (v24 : FVec F S26x11 .f32) (v43 : FVec F S26x26 .bf16) (v46 : Vec F S7x11 .f32) (v49 : Vec F S1x7 .f32) (v58 : Vec F S33x7 .f32) (v61 : Vec F S1x33 .f32) :
    k0_pay6 v24 v43 v46 v49 v58 v61 = kV (k0_pay5 v24 v43 v46 v49 v58 v61) := rfl

theorem pay7_eq (v24 : FVec F S26x11 .f32) (v43 : FVec F S26x26 .bf16) (v46 : Vec F S7x11 .f32) (v49 : Vec F S1x7 .f32) (v58 : Vec F S33x7 .f32) (v61 : Vec F S1x33 .f32) :
    k0_pay7 v24 v43 v46 v49 v58 v61 = kAtt (k0_pay5 v24 v43 v46 v49 v58 v61) := rfl

theorem pay1_eq (v70 : FVec F S26x11 .f32) (v88 : FVec F S26x26 .f32) (v92 : Vec F S7x11 .f32) (v95 : Vec F S1x7 .f32) (v104 : Vec F S29x7 .f32) (v107 : Vec F S1x29 .f32) :
    k0_pay1 v70 v88 v92 v95 v104 v107 = kOut (kFfn v70 (truncf .bf16 v88 bitsLt_bf16_f32) v92 v95) v104 v107 := rfl

end Cert.KernelIdeal.Stages

end
-- ==== Proof.RStages.lean ====
/- The reference's operations, regrouped into the same stages as the kernel's body: the embedding (a row gather
   plus the positions), a linear map with a bias, the causal softmax of queries against keys, the
   attention-weighted values followed by a linear map, and the final linear map to the logits. Each stage is the
   reference's own sequence of host operations over the values it takes in; the reference's
   values, one operation at a time, are compositions of these stages. -/
import proofs.«404685_j56470230008152_2_alg».proof.Proof.Gen.ReferenceIdeal

noncomputable section

namespace Cert.ReferenceIdeal.Stages

open Idealize.ShloMosaic Idealize.ShloMosaic.TcCoe Idealize.SL.Sem Cert.ReferenceIdeal Cert.ReferenceIdeal.Gen

variable {F : FTy → Type} [FloatOps F]

/-- The row index the gather starts from: `x s`, or `x s + 29` where `x s` is negative. -/
def rIdx (x0 : (⟨S26, .i32⟩ : BufTy).Contents (Elt F)) : (⟨S26x1, .i32⟩ : BufTy).Contents (Elt F) :=
  broadcastInDim S26x1 ![0] bcast_S26_S26x1_0 (select (cmpi .slt x0 (broadcastInDim S26 ![] bcast_S_S26 (constantI S_ 32 0#32)))
    (addi x0 (broadcastInDim S26 ![] bcast_S_S26 (constantI S_ 32 29#32))) x0)

/-- The embedding: the table's row at each token, plus the position row. -/
def rEmb (x0 : (⟨S26, .i32⟩ : BufTy).Contents (Elt F)) (x1 : (⟨S29x7, .f32⟩ : BufTy).Contents (Elt F)) (x2 : (⟨S26x7, .f32⟩ : BufTy).Contents (Elt F)) :
    (⟨S26x7, .f32⟩ : BufTy).Contents (Elt F) :=
  addf (Host.gather gather_S29x7_S26x1_S26x7_1_0_n_n_0_1_17 x1 (rIdx (F := F) x0)) x2

/-- A linear map to width 11: `h · wᵀ + b`, the bias broadcast down the rows. -/
def rLin (h : (⟨S26x7, .f32⟩ : BufTy).Contents (Elt F)) (w : (⟨S11x7, .f32⟩ : BufTy).Contents (Elt F)) (b : (⟨S11, .f32⟩ : BufTy).Contents (Elt F)) :
    (⟨S26x11, .f32⟩ : BufTy).Contents (Elt F) :=
  addf (Host.dotGeneral dot_S26x7_S7x11_S26x11_1_0_0_1_n_n none h (transpose S7x11 [1, 0] w transposes_S11x7_S7x11_1_0))
    (broadcastInDim S26x11 ![0, 1] bcast_S1x11_S26x11_0_1 (broadcastInDim S1x11 ![1] bcast_S11_S1x11_1 b))

/-- The lower-triangular mask (row ≥ column) and the fill −∞ broadcast over the square. -/
def rMask : (⟨S26x26, .i1⟩ : BufTy).Contents (Elt F) :=
  select (cmpi .sge (addi (iotaInDim S26x26 32 0) (broadcastInDim S26x26 ![] bcast_S_S26x26 (constantI S_ 32 0#32))) (iotaInDim S26x26 32 1))
    (broadcastInDim S26x26 ![] bcast_S_S26x26 (constantI S_ 1 1#1)) (broadcastInDim S26x26 ![] bcast_S_S26x26 (constantI S_ 1 0#1))
def rFill : (⟨S26x26, .f32⟩ : BufTy).Contents (Elt F) :=
  broadcastInDim S26x26 ![] bcast_S_S26x26 (id (constant S_ .f32 0xFF800000#32))

/-- The masked scores: `q · kᵀ` on and below the diagonal, −∞ above it. -/
def rScores (q k : (⟨S26x11, .f32⟩ : BufTy).Contents (Elt F)) : (⟨S26x26, .f32⟩ : BufTy).Contents (Elt F) :=
  select (rMask (F := F)) (Host.dotGeneral dot_S26x11_S11x26_S26x26_1_0_0_1_n_n none q (transpose S11x26 [1, 0] k transposes_S26x11_S11x26_1_0)) (rFill (F := F))

/-- The softmax along each row of a square of scores: shift by the row maximum, exponentiate, divide by the row sum. -/
def rSoftmax (a : (⟨S26x26, .f32⟩ : BufTy).Contents (Elt F)) : (⟨S26x26, .f32⟩ : BufTy).Contents (Elt F) :=
  have mx : (⟨S26, .f32⟩ : BufTy).Contents (Elt F) :=
    maximumf (broadcastInDim S26 ![] bcast_S_S26 (constant S_ .f32 0xFF800000#32))
      (Host.reduce FloatOps.maximumf a (constant S_ .f32 0xFF800000#32) reducesTo_S26x26_S26_d1 h_S_)
  have e : (⟨S26x26, .f32⟩ : BufTy).Contents (Elt F) :=
    Host.exp (subf a (broadcastInDim S26x26 ![0, 1] bcast_S26x1_S26x26_0_1 (broadcastInDim S26x1 ![0] bcast_S26_S26x1_0 mx)))
  Host.divf e (broadcastInDim S26x26 ![0, 1] bcast_S26x1_S26x26_0_1 (broadcastInDim S26x1 ![0] bcast_S26_S26x1_0
    (Host.reduceAdd e (constant S_ .f32 0x00000000#32) reducesTo_S26x26_S26_d1 h_S_)))

/-- The attention weights of queries `q` against keys `k`. -/
def rAtt (q k : (⟨S26x11, .f32⟩ : BufTy).Contents (Elt F)) : (⟨S26x26, .f32⟩ : BufTy).Contents (Elt F) :=
  rSoftmax (F := F) (rScores (F := F) q k)

/-- The block's output: the weights times the values, then `· wfᵀ + bf` back to width 7. -/
def rFfn (att : (⟨S26x26, .f32⟩ : BufTy).Contents (Elt F)) (v : (⟨S26x11, .f32⟩ : BufTy).Contents (Elt F))
    (wf : (⟨S7x11, .f32⟩ : BufTy).Contents (Elt F)) (bf : (⟨S7, .f32⟩ : BufTy).Contents (Elt F)) : (⟨S26x7, .f32⟩ : BufTy).Contents (Elt F) :=
  addf (Host.dotGeneral dot_S26x11_S11x7_S26x7_1_0_0_1_n_n none (Host.dotGeneral dot_S26x26_S26x11_S26x11_1_0_0_1_n_n none att v)
      (transpose S11x7 [1, 0] wf transposes_S7x11_S11x7_1_0))
    (broadcastInDim S26x7 ![0, 1] bcast_S1x7_S26x7_0_1 (broadcastInDim S1x7 ![1] bcast_S7_S1x7_1 bf))

/-- The logits: `h · woutᵀ + bout`. -/
def rOut (h : (⟨S26x7, .f32⟩ : BufTy).Contents (Elt F)) (w : (⟨S29x7, .f32⟩ : BufTy).Contents (Elt F)) (b : (⟨S29, .f32⟩ : BufTy).Contents (Elt F)) :
    (⟨S26x29, .f32⟩ : BufTy).Contents (Elt F) :=
  addf (Host.dotGeneral dot_S26x7_S7x29_S26x29_1_0_0_1_n_n none h (transpose S7x29 [1, 0] w transposes_S29x7_S7x29_1_0))
    (broadcastInDim S26x29 ![0, 1] bcast_S1x29_S26x29_0_1 (broadcastInDim S1x29 ![1] bcast_S29_S1x29_1 b))

end Cert.ReferenceIdeal.Stages

end
-- ==== Proof.RRead.lean ====
/- The reference's values, one operation at a time (the generated read-back of its run), are the stages composed:
   each equation holds by unfolding the two definitions. -/
import proofs.«404685_j56470230008152_2_alg».proof.Proof.RStages
import proofs.«404685_j56470230008152_2_alg».proof.Proof.Gen.ReferenceIdeal.Read

noncomputable section

namespace Cert.ReferenceIdeal.Stages

open Idealize.ShloMosaic Idealize.ShloMosaic.TcCoe Idealize.SL.Sem Cert.ReferenceIdeal Cert.ReferenceIdeal.Gen Cert.ReferenceIdeal.Read

variable {F : FTy → Type} [FloatOps F]

section
variable (x0 : (⟨S26, .i32⟩ : BufTy).Contents (Elt F)) (x1 : (⟨S29x7, .f32⟩ : BufTy).Contents (Elt F)) (x2 : (⟨S26x7, .f32⟩ : BufTy).Contents (Elt F)) (x3 : (⟨S11x7, .f32⟩ : BufTy).Contents (Elt F)) (x4 : (⟨S11, .f32⟩ : BufTy).Contents (Elt F)) (x5 : (⟨S11x7, .f32⟩ : BufTy).Contents (Elt F)) (x6 : (⟨S11, .f32⟩ : BufTy).Contents (Elt F)) (x7 : (⟨S11x7, .f32⟩ : BufTy).Contents (Elt F)) (x8 : (⟨S11, .f32⟩ : BufTy).Contents (Elt F)) (x9 : (⟨S7x11, .f32⟩ : BufTy).Contents (Elt F)) (x10 : (⟨S7, .f32⟩ : BufTy).Contents (Elt F)) (x11 : (⟨S11x7, .f32⟩ : BufTy).Contents (Elt F)) (x12 : (⟨S11, .f32⟩ : BufTy).Contents (Elt F)) (x13 : (⟨S11x7, .f32⟩ : BufTy).Contents (Elt F)) (x14 : (⟨S11, .f32⟩ : BufTy).Contents (Elt F)) (x15 : (⟨S11x7, .f32⟩ : BufTy).Contents (Elt F)) (x16 : (⟨S11, .f32⟩ : BufTy).Contents (Elt F)) (x17 : (⟨S7x11, .f32⟩ : BufTy).Contents (Elt F)) (x18 : (⟨S7, .f32⟩ : BufTy).Contents (Elt F)) (x19 : (⟨S29x7, .f32⟩ : BufTy).Contents (Elt F)) (x20 : (⟨S29, .f32⟩ : BufTy).Contents (Elt F))

theorem v7_eq : val_main_v7 (F := F) x0 x1 x2 = rEmb (F := F) x0 x1 x2 := rfl
theorem v12_eq : val_main_v12 (F := F) x0 x1 x2 x3 x4 = rLin (F := F) (val_main_v7 (F := F) x0 x1 x2) x3 x4 := rfl
theorem v17_eq : val_main_v17 (F := F) x0 x1 x2 x5 x6 = rLin (F := F) (val_main_v7 (F := F) x0 x1 x2) x5 x6 := rfl
theorem v22_eq : val_main_v22 (F := F) x0 x1 x2 x7 x8 = rLin (F := F) (val_main_v7 (F := F) x0 x1 x2) x7 x8 := rfl
theorem v38_eq : val_main_v38 (F := F) x0 x1 x2 x3 x4 x5 x6
    = rAtt (F := F) (val_main_v17 (F := F) x0 x1 x2 x5 x6) (val_main_v12 (F := F) x0 x1 x2 x3 x4) := rfl
theorem v44_eq : val_main_v44 (F := F) x0 x1 x2 x3 x4 x5 x6 x7 x8 x9 x10
    = rFfn (F := F) (val_main_v38 (F := F) x0 x1 x2 x3 x4 x5 x6) (val_main_v22 (F := F) x0 x1 x2 x7 x8) x9 x10 := rfl
theorem v49_eq : val_main_v49 (F := F) x0 x1 x2 x3 x4 x5 x6 x7 x8 x9 x10 x11 x12 = rLin (F := F) (val_main_v44 (F := F) x0 x1 x2 x3 x4 x5 x6 x7 x8 x9 x10) x11 x12 := rfl
theorem v54_eq : val_main_v54 (F := F) x0 x1 x2 x3 x4 x5 x6 x7 x8 x9 x10 x13 x14 = rLin (F := F) (val_main_v44 (F := F) x0 x1 x2 x3 x4 x5 x6 x7 x8 x9 x10) x13 x14 := rfl
theorem v59_eq : val_main_v59 (F := F) x0 x1 x2 x3 x4 x5 x6 x7 x8 x9 x10 x15 x16 = rLin (F := F) (val_main_v44 (F := F) x0 x1 x2 x3 x4 x5 x6 x7 x8 x9 x10) x15 x16 := rfl
theorem v75_eq : val_main_v75 (F := F) x0 x1 x2 x3 x4 x5 x6 x7 x8 x9 x10 x11 x12 x13 x14
    = rAtt (F := F) (val_main_v54 (F := F) x0 x1 x2 x3 x4 x5 x6 x7 x8 x9 x10 x13 x14) (val_main_v49 (F := F) x0 x1 x2 x3 x4 x5 x6 x7 x8 x9 x10 x11 x12) := rfl
theorem v81_eq : val_main_v81 (F := F) x0 x1 x2 x3 x4 x5 x6 x7 x8 x9 x10 x11 x12 x13 x14 x15 x16 x17 x18
    = rFfn (F := F) (val_main_v75 (F := F) x0 x1 x2 x3 x4 x5 x6 x7 x8 x9 x10 x11 x12 x13 x14) (val_main_v59 (F := F) x0 x1 x2 x3 x4 x5 x6 x7 x8 x9 x10 x15 x16) x17 x18 := rfl
theorem v86_eq : val_main_v86 (F := F) x0 x1 x2 x3 x4 x5 x6 x7 x8 x9 x10 x11 x12 x13 x14 x15 x16 x17 x18 x19 x20 = rOut (F := F) (val_main_v81 (F := F) x0 x1 x2 x3 x4 x5 x6 x7 x8 x9 x10 x11 x12 x13 x14 x15 x16 x17 x18) x19 x20 := rfl

end

end Cert.ReferenceIdeal.Stages

end
-- ==== Proof.SlabRead.lean ====
/- The body's loads of row bands of the weight array read the parameters back: rows 0–32, columns 0–6 are the
   stacked key/query/value weights; row 33, columns 0–32 their biases; and so on down the array. An entry of a band
   lies in one piece of the stack, inside the piece's unpadded columns, so it is the parameter's own entry.

   Each proof reads the stack at (row + y 0, y 1): the row lies in the band whose span holds it (the rows before the
   band add up to the band's first row), so the stack there is that band at (y 0, y 1); the band is a parameter padded
   with zeros on the right only, and y 1 is inside the parameter's width, so the band there is the parameter at y. For a
   bias band the padded 128-vector read as a 1 × 128 row has, at (0, c), the vector's entry c (equal row-major
   positions), and the right-hand side's 1 × n row has the same entry at (0, c). -/
import proofs.«404685_j56470230008152_2_alg».proof.Proof.SlabDef
import proofs.«404685_j56470230008152_2_alg».proof.Proof.KIFrame
import Idealize.ShloMosaic.Lib.ValueIdx
import Idealize.ShloMosaic.Lib.ValueLayout
import Idealize.ShloMosaic.Lib.Pipeline.Value
import Idealize.ShloMosaic.Lib.KernelVsHost

noncomputable section

namespace Cert.Bridge

open Idealize.ShloMosaic Idealize.ShloMosaic.TcCoe Idealize.SL.Sem Idealize.ShloMosaic.ValueIdx Cert.KernelIdeal Cert.KernelIdeal.Gen Cert.KernelIdeal.Hand

variable (a3 : FVec Ideal S11x7 .f32) (a4 : FVec Ideal S11 .f32) (a5 : FVec Ideal S11x7 .f32) (a6 : FVec Ideal S11 .f32) (a7 : FVec Ideal S11x7 .f32) (a8 : FVec Ideal S11 .f32) (a9 : FVec Ideal S7x11 .f32) (a10 : FVec Ideal S7 .f32) (a11 : FVec Ideal S11x7 .f32) (a12 : FVec Ideal S11 .f32) (a13 : FVec Ideal S11x7 .f32) (a14 : FVec Ideal S11 .f32) (a15 : FVec Ideal S11x7 .f32) (a16 : FVec Ideal S11 .f32) (a17 : FVec Ideal S7x11 .f32) (a18 : FVec Ideal S7 .f32) (a19 : FVec Ideal S29x7 .f32) (a20 : FVec Ideal S29 .f32)

section Reads
variable {α : Type}

/-- A rank-two array padded on the right only (no low padding, no interior padding) reads, at an index whose
    coordinates are those of an index of the operand, the operand there. -/
private theorem padW_apply {m n N : Nat} (hi : Fin 2 → Nat) (w : (⟨2, ![m, n]⟩ : Shape).Idx → α) {u : Shape} (v : u.Idx → α)
    (h : (⟨2, ![m, n]⟩ : Shape).Pads ![0, 0] hi ![0, 0] ⟨2, ![m, N]⟩) (hu : 0 < u.numel)
    (j : (⟨2, ![m, N]⟩ : Shape).Idx) (k : (⟨2, ![m, n]⟩ : Shape).Idx)
    (h0 : (j 0).val = (k 0).val) (h1 : (j 1).val = (k 1).val) :
    pad ⟨2, ![m, N]⟩ ![0, 0] hi ![0, 0] w v h hu j = w k := by
  refine pad_apply_of_inside _ _ _ w v h hu j k (Fin.forall_fin_two.mpr ⟨?_, ?_⟩)
  · show (j 0).val = 0 + (k 0).val * (0 + 1)
    omega
  · show (j 1).val = 0 + (k 1).val * (0 + 1)
    omega

/-- A vector padded on the right and then read as a one-row array: entry (0, c) is the vector's entry c, for c
    inside the vector. -/
private theorem rowB_apply {n N : Nat} (hi : Fin 1 → Nat) (b : (⟨1, ![n]⟩ : Shape).Idx → α) {u : Shape} (v : u.Idx → α)
    (hp : (⟨1, ![n]⟩ : Shape).Pads ![0] hi ![0] ⟨1, ![N]⟩) (hu : 0 < u.numel)
    (hc : (⟨1, ![N]⟩ : Shape).ShapeCasts ⟨2, ![1, N]⟩)
    (j : (⟨2, ![1, N]⟩ : Shape).Idx) (k : (⟨1, ![n]⟩ : Shape).Idx) (h : (j 1).val = (k 0).val) :
    shapeCast ⟨2, ![1, N]⟩ (pad ⟨1, ![N]⟩ ![0] hi ![0] b v hp hu) hc j = b k := by
  have hj0 : (j 0).val = 0 := by have hlt : (j 0).val < 1 := (j 0).isLt; omega
  rw [shapeCast_apply _ hc j (ix1 (j 1)) (by
    rw [Shape.rowMajor_val_two, Shape.rowMajor_val_one, hj0]
    show (j 1).val = 0 * N + (j 1).val
    omega)]
  refine pad_apply_of_inside _ _ _ b v hp hu _ k (Fin.forall_fin_one.mpr ?_)
  show (j 1).val = 0 + (k 0).val * (0 + 1)
  omega

/-- A vector read as a one-row array: entry (0, c) is the vector's entry c. -/
private theorem row_apply {n : Nat} (b : (⟨1, ![n]⟩ : Shape).Idx → α) (hc : (⟨1, ![n]⟩ : Shape).ShapeCasts ⟨2, ![1, n]⟩)
    (y : (⟨2, ![1, n]⟩ : Shape).Idx) (k : (⟨1, ![n]⟩ : Shape).Idx) (h : (k 0).val = (y 1).val) :
    shapeCast ⟨2, ![1, n]⟩ b hc y = b k := by
  have hy0 : (y 0).val = 0 := by have hlt : (y 0).val < 1 := (y 0).isLt; omega
  refine shapeCast_apply _ hc y k ?_
  rw [Shape.rowMajor_val_two, Shape.rowMajor_val_one, hy0, h]
  show (y 1).val = 0 * n + (y 1).val
  omega

end Reads

theorem ld_W0 : (View.ld (Val := Elt Ideal) (e' := .f32) (slabOf a3 a4 a5 a6 a7 a8 a9 a10 a11 a12 a13 a14 a15 a16 a17 a18 a19 a20) rW0 : FVec Ideal S33x7 .f32) = cat3W a3 a5 a7 := by
  refine funext fun (y : S33x7.Idx) => ?_
  show slabOf a3 a4 a5 a6 a7 a8 a9 a10 a11 a12 a13 a14 a15 a16 a17 a18 a19 a20 (rW0.idx y) = cat3W a3 a5 a7 y
  have h1 : (y 1).val < 7 := (y 1).isLt
  unfold slabOf
  -- rows 0–32 are the first band, at the same row
  rw [concatenate_apply_piece (0 : Fin 2) _ _ (rW0.idx y) 0 (by show 0 < 10; omega) S33x128 (padW33 (cat3W a3 a5 a7)) rfl rfl 0 rfl
    (ix2 (y 0) (⟨(y 1).val, by omega⟩ : Fin 128))
    (Fin.forall_fin_two.mpr ⟨fun h => absurd rfl h, fun _ => by show (y 1).val = 0 + 1 * (y 1).val; omega⟩)
    (by show 0 + (y 0).val = 0 + 1 * (y 0).val; omega)]
  -- inside the block's own columns the padded block is the block
  exact padW_apply _ _ _ _ _ _ y rfl rfl

theorem ld_B0 : (View.ld (Val := Elt Ideal) (e' := .f32) (slabOf a3 a4 a5 a6 a7 a8 a9 a10 a11 a12 a13 a14 a15 a16 a17 a18 a19 a20) rB0 : FVec Ideal S1x33 .f32) = shapeCast S1x33 (cat3B a4 a6 a8) shapeCasts_S33_S1x33 := by
  refine funext fun (y : S1x33.Idx) => ?_
  show slabOf a3 a4 a5 a6 a7 a8 a9 a10 a11 a12 a13 a14 a15 a16 a17 a18 a19 a20 (rB0.idx y) = shapeCast S1x33 (cat3B a4 a6 a8) shapeCasts_S33_S1x33 y
  have h1 : (y 1).val < 33 := (y 1).isLt
  -- the bias as a row: entry (0, c) is the vector's entry c
  rw [row_apply _ _ y (ix1 (⟨(y 1).val, h1⟩ : Fin 33)) rfl]
  unfold slabOf
  -- row 33 is the second band's only row (33 rows come before it)
  rw [concatenate_apply_piece (0 : Fin 2) _ _ (rB0.idx y) 1 (by show 1 < 10; omega) S1x128 (rowB33 (cat3B a4 a6 a8)) rfl rfl 33 rfl
    (ix2 (y 0) (⟨(y 1).val, by omega⟩ : Fin 128))
    (Fin.forall_fin_two.mpr ⟨fun h => absurd rfl h, fun _ => by show (y 1).val = 0 + 1 * (y 1).val; omega⟩)
    (by show 33 + (y 0).val = 33 + 1 * (y 0).val; omega)]
  -- inside the vector's own length the padded row is the vector
  exact rowB_apply _ _ _ _ _ _ _ _ rfl

theorem ld_F0 : (View.ld (Val := Elt Ideal) (e' := .f32) (slabOf a3 a4 a5 a6 a7 a8 a9 a10 a11 a12 a13 a14 a15 a16 a17 a18 a19 a20) rF0 : FVec Ideal S7x11 .f32) = a9 := by
  refine funext fun (y : S7x11.Idx) => ?_
  show slabOf a3 a4 a5 a6 a7 a8 a9 a10 a11 a12 a13 a14 a15 a16 a17 a18 a19 a20 (rF0.idx y) = a9 y
  have h1 : (y 1).val < 11 := (y 1).isLt
  unfold slabOf
  -- rows 34–40 are the third band, at row r − 34
  rw [concatenate_apply_piece (0 : Fin 2) _ _ (rF0.idx y) 2 (by show 2 < 10; omega) S7x128 (padW7 a9) rfl rfl 34 rfl
    (ix2 (y 0) (⟨(y 1).val, by omega⟩ : Fin 128))
    (Fin.forall_fin_two.mpr ⟨fun h => absurd rfl h, fun _ => by show (y 1).val = 0 + 1 * (y 1).val; omega⟩)
    (by show 34 + (y 0).val = 34 + 1 * (y 0).val; omega)]
  -- inside the block's own columns the padded block is the block
  exact padW_apply _ _ _ _ _ _ y rfl rfl

theorem ld_G0 : (View.ld (Val := Elt Ideal) (e' := .f32) (slabOf a3 a4 a5 a6 a7 a8 a9 a10 a11 a12 a13 a14 a15 a16 a17 a18 a19 a20) rG0 : FVec Ideal S1x7 .f32) = shapeCast S1x7 a10 shapeCasts_S7_S1x7 := by
  refine funext fun (y : S1x7.Idx) => ?_
  show slabOf a3 a4 a5 a6 a7 a8 a9 a10 a11 a12 a13 a14 a15 a16 a17 a18 a19 a20 (rG0.idx y) = shapeCast S1x7 a10 shapeCasts_S7_S1x7 y
  have h1 : (y 1).val < 7 := (y 1).isLt
  -- the bias as a row: entry (0, c) is the vector's entry c
  rw [row_apply _ _ y (ix1 (⟨(y 1).val, h1⟩ : Fin 7)) rfl]
  unfold slabOf
  -- row 41 is the fourth band's only row
  rw [concatenate_apply_piece (0 : Fin 2) _ _ (rG0.idx y) 3 (by show 3 < 10; omega) S1x128 (rowB7 a10) rfl rfl 41 rfl
    (ix2 (y 0) (⟨(y 1).val, by omega⟩ : Fin 128))
    (Fin.forall_fin_two.mpr ⟨fun h => absurd rfl h, fun _ => by show (y 1).val = 0 + 1 * (y 1).val; omega⟩)
    (by show 41 + (y 0).val = 41 + 1 * (y 0).val; omega)]
  -- inside the vector's own length the padded row is the vector
  exact rowB_apply _ _ _ _ _ _ _ _ rfl

theorem ld_W1 : (View.ld (Val := Elt Ideal) (e' := .f32) (slabOf a3 a4 a5 a6 a7 a8 a9 a10 a11 a12 a13 a14 a15 a16 a17 a18 a19 a20) rW1 : FVec Ideal S33x7 .f32) = cat3W a11 a13 a15 := by
  refine funext fun (y : S33x7.Idx) => ?_
  show slabOf a3 a4 a5 a6 a7 a8 a9 a10 a11 a12 a13 a14 a15 a16 a17 a18 a19 a20 (rW1.idx y) = cat3W a11 a13 a15 y
  have h1 : (y 1).val < 7 := (y 1).isLt
  unfold slabOf
  -- rows 42–74 are the fifth band, at row r − 42
  rw [concatenate_apply_piece (0 : Fin 2) _ _ (rW1.idx y) 4 (by show 4 < 10; omega) S33x128 (padW33 (cat3W a11 a13 a15)) rfl rfl 42 rfl
    (ix2 (y 0) (⟨(y 1).val, by omega⟩ : Fin 128))
    (Fin.forall_fin_two.mpr ⟨fun h => absurd rfl h, fun _ => by show (y 1).val = 0 + 1 * (y 1).val; omega⟩)
    (by show 42 + (y 0).val = 42 + 1 * (y 0).val; omega)]
  -- inside the block's own columns the padded block is the block
  exact padW_apply _ _ _ _ _ _ y rfl rfl

theorem ld_B1 : (View.ld (Val := Elt Ideal) (e' := .f32) (slabOf a3 a4 a5 a6 a7 a8 a9 a10 a11 a12 a13 a14 a15 a16 a17 a18 a19 a20) rB1 : FVec Ideal S1x33 .f32) = shapeCast S1x33 (cat3B a12 a14 a16) shapeCasts_S33_S1x33 := by
  refine funext fun (y : S1x33.Idx) => ?_
  show slabOf a3 a4 a5 a6 a7 a8 a9 a10 a11 a12 a13 a14 a15 a16 a17 a18 a19 a20 (rB1.idx y) = shapeCast S1x33 (cat3B a12 a14 a16) shapeCasts_S33_S1x33 y
  have h1 : (y 1).val < 33 := (y 1).isLt
  -- the bias as a row: entry (0, c) is the vector's entry c
  rw [row_apply _ _ y (ix1 (⟨(y 1).val, h1⟩ : Fin 33)) rfl]
  unfold slabOf
  -- row 75 is the sixth band's only row
  rw [concatenate_apply_piece (0 : Fin 2) _ _ (rB1.idx y) 5 (by show 5 < 10; omega) S1x128 (rowB33 (cat3B a12 a14 a16)) rfl rfl 75 rfl
    (ix2 (y 0) (⟨(y 1).val, by omega⟩ : Fin 128))
    (Fin.forall_fin_two.mpr ⟨fun h => absurd rfl h, fun _ => by show (y 1).val = 0 + 1 * (y 1).val; omega⟩)
    (by show 75 + (y 0).val = 75 + 1 * (y 0).val; omega)]
  -- inside the vector's own length the padded row is the vector
  exact rowB_apply _ _ _ _ _ _ _ _ rfl

theorem ld_F1 : (View.ld (Val := Elt Ideal) (e' := .f32) (slabOf a3 a4 a5 a6 a7 a8 a9 a10 a11 a12 a13 a14 a15 a16 a17 a18 a19 a20) rF1 : FVec Ideal S7x11 .f32) = a17 := by
  refine funext fun (y : S7x11.Idx) => ?_
  show slabOf a3 a4 a5 a6 a7 a8 a9 a10 a11 a12 a13 a14 a15 a16 a17 a18 a19 a20 (rF1.idx y) = a17 y
  have h1 : (y 1).val < 11 := (y 1).isLt
  unfold slabOf
  -- rows 76–82 are the seventh band, at row r − 76
  rw [concatenate_apply_piece (0 : Fin 2) _ _ (rF1.idx y) 6 (by show 6 < 10; omega) S7x128 (padW7 a17) rfl rfl 76 rfl
    (ix2 (y 0) (⟨(y 1).val, by omega⟩ : Fin 128))
    (Fin.forall_fin_two.mpr ⟨fun h => absurd rfl h, fun _ => by show (y 1).val = 0 + 1 * (y 1).val; omega⟩)
    (by show 76 + (y 0).val = 76 + 1 * (y 0).val; omega)]
  -- inside the block's own columns the padded block is the block
  exact padW_apply _ _ _ _ _ _ y rfl rfl

theorem ld_G1 : (View.ld (Val := Elt Ideal) (e' := .f32) (slabOf a3 a4 a5 a6 a7 a8 a9 a10 a11 a12 a13 a14 a15 a16 a17 a18 a19 a20) rG1 : FVec Ideal S1x7 .f32) = shapeCast S1x7 a18 shapeCasts_S7_S1x7 := by
  refine funext fun (y : S1x7.Idx) => ?_
  show slabOf a3 a4 a5 a6 a7 a8 a9 a10 a11 a12 a13 a14 a15 a16 a17 a18 a19 a20 (rG1.idx y) = shapeCast S1x7 a18 shapeCasts_S7_S1x7 y
  have h1 : (y 1).val < 7 := (y 1).isLt
  -- the bias as a row: entry (0, c) is the vector's entry c
  rw [row_apply _ _ y (ix1 (⟨(y 1).val, h1⟩ : Fin 7)) rfl]
  unfold slabOf
  -- row 83 is the eighth band's only row
  rw [concatenate_apply_piece (0 : Fin 2) _ _ (rG1.idx y) 7 (by show 7 < 10; omega) S1x128 (rowB7 a18) rfl rfl 83 rfl
    (ix2 (y 0) (⟨(y 1).val, by omega⟩ : Fin 128))
    (Fin.forall_fin_two.mpr ⟨fun h => absurd rfl h, fun _ => by show (y 1).val = 0 + 1 * (y 1).val; omega⟩)
    (by show 83 + (y 0).val = 83 + 1 * (y 0).val; omega)]
  -- inside the vector's own length the padded row is the vector
  exact rowB_apply _ _ _ _ _ _ _ _ rfl

theorem ld_Wo : (View.ld (Val := Elt Ideal) (e' := .f32) (slabOf a3 a4 a5 a6 a7 a8 a9 a10 a11 a12 a13 a14 a15 a16 a17 a18 a19 a20) rWo : FVec Ideal S29x7 .f32) = a19 := by
  refine funext fun (y : S29x7.Idx) => ?_
  show slabOf a3 a4 a5 a6 a7 a8 a9 a10 a11 a12 a13 a14 a15 a16 a17 a18 a19 a20 (rWo.idx y) = a19 y
  have h1 : (y 1).val < 7 := (y 1).isLt
  unfold slabOf
  -- rows 84–112 are the ninth band, at row r − 84
  rw [concatenate_apply_piece (0 : Fin 2) _ _ (rWo.idx y) 8 (by show 8 < 10; omega) S29x128 (padW29 a19) rfl rfl 84 rfl
    (ix2 (y 0) (⟨(y 1).val, by omega⟩ : Fin 128))
    (Fin.forall_fin_two.mpr ⟨fun h => absurd rfl h, fun _ => by show (y 1).val = 0 + 1 * (y 1).val; omega⟩)
    (by show 84 + (y 0).val = 84 + 1 * (y 0).val; omega)]
  -- inside the block's own columns the padded block is the block
  exact padW_apply _ _ _ _ _ _ y rfl rfl

theorem ld_Bo : (View.ld (Val := Elt Ideal) (e' := .f32) (slabOf a3 a4 a5 a6 a7 a8 a9 a10 a11 a12 a13 a14 a15 a16 a17 a18 a19 a20) rBo : FVec Ideal S1x29 .f32) = shapeCast S1x29 a20 shapeCasts_S29_S1x29 := by
  refine funext fun (y : S1x29.Idx) => ?_
  show slabOf a3 a4 a5 a6 a7 a8 a9 a10 a11 a12 a13 a14 a15 a16 a17 a18 a19 a20 (rBo.idx y) = shapeCast S1x29 a20 shapeCasts_S29_S1x29 y
  have h1 : (y 1).val < 29 := (y 1).isLt
  -- the bias as a row: entry (0, c) is the vector's entry c
  rw [row_apply _ _ y (ix1 (⟨(y 1).val, h1⟩ : Fin 29)) rfl]
  unfold slabOf
  -- row 113 is the tenth band's only row
  rw [concatenate_apply_piece (0 : Fin 2) _ _ (rBo.idx y) 9 (by show 9 < 10; omega) S1x128 (rowB29 a20) rfl rfl 113 rfl
    (ix2 (y 0) (⟨(y 1).val, by omega⟩ : Fin 128))
    (Fin.forall_fin_two.mpr ⟨fun h => absurd rfl h, fun _ => by show (y 1).val = 0 + 1 * (y 1).val; omega⟩)
    (by show 113 + (y 0).val = 113 + 1 * (y 0).val; omega)]
  -- inside the vector's own length the padded row is the vector
  exact rowB_apply _ _ _ _ _ _ _ _ rfl

end Cert.Bridge

end
-- ==== Proof.BrEmb.lean ====
/- The one-hot product against the reference's row gather, for tokens in range. -/
import proofs.«404685_j56470230008152_2_alg».proof.Proof.KStages
import proofs.«404685_j56470230008152_2_alg».proof.Proof.RStages

import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.SL.Sem Idealize.ShloMosaic.ValueIdx

/-- A 32-bit word is the word of a column number below 29 exactly when its signed reading is that number. -/
private theorem word_eq_iff (w : BitVec 32) (v : Fin 29) : w = BitVec.ofNat 32 v.val ↔ w.toInt = (v.val : ℤ) := by
  have e := BitVec.toInt_eq_toNat_cond w
  have hw := w.isLt
  have hv := v.isLt
  constructor
  · intro h
    have : w.toNat = v.val := by rw [h, BitVec.toNat_ofNat]; omega
    omega
  · intro h
    apply BitVec.eq_of_toNat_eq
    rw [BitVec.toNat_ofNat]
    omega

open Cert.KernelIdeal Cert.KernelIdeal.Gen in
/-- The token column read at `(p, v)` of the 26 × 29 rectangle is token `p`. -/
private theorem tok_apply (x : IVec Cert.KernelIdeal.S26 32) (p : Fin 26) (v : Fin 29) :
    broadcastTo S26x29 (shapeCast S26x1 (shapeCast S26x1 x shapeCasts_S26_S26x1) shapeCasts_S26x1_S26x1) broadcasts_S26x1_S26x29 (ix2 p v)
      = x (ix1 p) := by
  rw [broadcastTo_apply _ broadcasts_S26x1_S26x29 (ix2 p v) (ix2 p (0 : Fin 1)) (fun a => match a with
    | ⟨0, _⟩ => by show p.val = if (26 : Nat) = 1 then 0 else p.val; rw [if_neg (by decide)]
    | ⟨1, _⟩ => rfl)]
  rw [shapeCast_apply _ shapeCasts_S26x1_S26x1 (ix2 p (0 : Fin 1)) (ix2 p (0 : Fin 1)) rfl]
  rw [shapeCast_apply x shapeCasts_S26_S26x1 (ix2 p (0 : Fin 1)) (ix1 p) (by
    rw [Shape.rowMajor_val_two, Shape.rowMajor_val_one]; show p.val = p.val * 1 + 0; omega)]

open Cert.KernelIdeal Cert.KernelIdeal.Gen in
/-- The column-number vector read at `(p, v)` is the 32-bit word of `v`. -/
private theorem iota_apply' (p : Fin 26) (v : Fin 29) :
    iota .tc S26x29 32 [1] iota_S26x29_d1_w32 (ix2 p v) = BitVec.ofNat 32 v.val := by
  rw [iota_single_apply]

open Cert.KernelIdeal Cert.KernelIdeal.Gen in
/-- Entry `(p, v)` of the one-hot matrix: `1` where token `p`, read signed, is the column number `v`, else `0`. -/
private theorem onehot_apply (x : IVec Cert.KernelIdeal.S26 32) (p : Fin 26) (v : Fin 29) :
    (sitofp .f32 (extui 32 (cmpi .eq
        (broadcastTo S26x29 (shapeCast S26x1 (shapeCast S26x1 x shapeCasts_S26_S26x1) shapeCasts_S26x1_S26x1) broadcasts_S26x1_S26x29)
        (iota .tc S26x29 32 [1] iota_S26x29_d1_w32)) natLt_1_32) : FVec Ideal S26x29 .f32) (ix2 p v)
      = if (x (ix1 p)).toInt = (v.val : ℤ) then 1 else 0 := by
  rw [sitofp_apply, extui_apply]
  show FloatOps.sitofp .f32 ((IntOp.cmpi .eq (broadcastTo S26x29 (shapeCast S26x1 (shapeCast S26x1 x shapeCasts_S26_S26x1) shapeCasts_S26x1_S26x1) broadcasts_S26x1_S26x29 (ix2 p v))
        (iota .tc S26x29 32 [1] iota_S26x29_d1_w32 (ix2 p v))).setWidth 32) = _
  rw [tok_apply, iota_apply']
  show ((((BitVec.setWidth 32 (IntOp.cmpi CmpIPredicate.eq (x (ix1 p)) (BitVec.ofNat 32 v.val))).toInt : ℝ)) : EReal) = _
  by_cases h : (x (ix1 p)).toInt = (v.val : ℤ)
  · rw [if_pos h, (word_eq_iff _ _).mpr h]
    have e1 : BitVec.setWidth 32 (IntOp.cmpi CmpIPredicate.eq (BitVec.ofNat 32 v.val) (BitVec.ofNat 32 v.val)) = 1#32 := by
      simp only [IntOp.cmpi]
      rw [beq_self_eq_true]; decide
    have e2 : (1#32 : BitVec 32).toInt = 1 := by decide
    rw [e1, e2, Int.cast_one, EReal.coe_one]
  · rw [if_neg h]
    have hne : x (ix1 p) ≠ BitVec.ofNat 32 v.val := fun e => h ((word_eq_iff _ _).mp e)
    have e1 : BitVec.setWidth 32 (IntOp.cmpi CmpIPredicate.eq (x (ix1 p)) (BitVec.ofNat 32 v.val)) = 0#32 := by
      simp only [IntOp.cmpi]
      rw [beq_eq_false_iff_ne.mpr hne]; decide
    have e2 : (0#32 : BitVec 32).toInt = 0 := by decide
    rw [e1, e2, Int.cast_zero, EReal.coe_zero]

section Product
open Cert.KernelIdeal Cert.KernelIdeal.Gen

/-! The product's operand indices at output index `i` and contraction index `k`: the left operand is read at
    `(i 0, k)`, the table at `(k, i 1)`. -/

private theorem lhs_emb_0 (i : S26x7.Idx) (k : dot_S26x29_S29x7_S26x7_1_0_0_1_n_n.contr.Idx) : (dot_S26x29_S29x7_S26x7_1_0_0_1_n_n.lhsIdx i k 0).val = (i 0).val := by
  unfold DotDims.lhsIdx
  rw [dif_neg (show ¬(0 : Fin S26x29.rank) ∈ dot_S26x29_S29x7_S26x7_1_0_0_1_n_n.lhsBatch by decide), dif_pos (show (0 : Fin S26x29.rank) ∈ dot_S26x29_S29x7_S26x7_1_0_0_1_n_n.lhsNonContracting by decide)]
  rfl
private theorem lhs_emb_1 (i : S26x7.Idx) (k : dot_S26x29_S29x7_S26x7_1_0_0_1_n_n.contr.Idx) : (dot_S26x29_S29x7_S26x7_1_0_0_1_n_n.lhsIdx i k 1).val = (k ⟨0, by decide⟩).val :=
  dot_S26x29_S29x7_S26x7_1_0_0_1_n_n.lhsIdx_val_of_single rfl i k
private theorem rhs_emb_0 (i : S26x7.Idx) (k : dot_S26x29_S29x7_S26x7_1_0_0_1_n_n.contr.Idx) : (dot_S26x29_S29x7_S26x7_1_0_0_1_n_n.rhsIdx i k 0).val = (k ⟨0, by decide⟩).val :=
  dot_S26x29_S29x7_S26x7_1_0_0_1_n_n.rhsIdx_val_of_single rfl i k
private theorem rhs_emb_1 (i : S26x7.Idx) (k : dot_S26x29_S29x7_S26x7_1_0_0_1_n_n.contr.Idx) : (dot_S26x29_S29x7_S26x7_1_0_0_1_n_n.rhsIdx i k 1).val = (i 1).val := by
  unfold DotDims.rhsIdx
  rw [dif_neg (show ¬(1 : Fin S29x7.rank) ∈ dot_S26x29_S29x7_S26x7_1_0_0_1_n_n.rhsBatch by decide), dif_pos (show (1 : Fin S29x7.rank) ∈ dot_S26x29_S29x7_S26x7_1_0_0_1_n_n.rhsNonContracting by decide)]
  rfl

/-- The product into the zero accumulator at `(p, q)`: the sum over the 29 columns `v` of `A p v · emb v q`. -/
private theorem prod_apply (A : FVec Ideal S26x29 .f32) (emb : FVec Ideal S29x7 .f32) (p : Fin 26) (q : Fin 7) :
    matmul dot_S26x29_S29x7_S26x7_1_0_0_1_n_n (some .fp32) A emb (constant S26x7 .f32 0x00000000#32) (ix2 p q)
      = ∑ v : Fin 29, A (ix2 p v) * emb (ix2 v q) := by
  simp only [matmul]
  rw [Ideal.matmul_constant_zero_apply, ← Equiv.sum_comp (contrEquiv1 dot_S26x29_S29x7_S26x7_1_0_0_1_n_n 29 rfl rfl).symm]
  refine Finset.sum_congr rfl fun v _ => ?_
  have hv := contrEquiv1_symm_val dot_S26x29_S29x7_S26x7_1_0_0_1_n_n 29 rfl rfl v
  have el : dot_S26x29_S29x7_S26x7_1_0_0_1_n_n.lhsIdx (ix2 p q) ((contrEquiv1 dot_S26x29_S29x7_S26x7_1_0_0_1_n_n 29 rfl rfl).symm v) = ix2 p v := funext fun a => Fin.ext (by
    match a with
    | ⟨0, _⟩ => exact lhs_emb_0 _ _
    | ⟨1, _⟩ => exact (lhs_emb_1 _ _).trans hv)
  have er : dot_S26x29_S29x7_S26x7_1_0_0_1_n_n.rhsIdx (ix2 p q) ((contrEquiv1 dot_S26x29_S29x7_S26x7_1_0_0_1_n_n 29 rfl rfl).symm v) = ix2 v q := funext fun a => Fin.ext (by
    match a with
    | ⟨0, _⟩ => exact (rhs_emb_0 _ _).trans hv
    | ⟨1, _⟩ => exact rhs_emb_1 _ _)
  rw [el, er]

end Product

open Cert.ReferenceIdeal Cert.ReferenceIdeal.Gen in
/-- The row gather read at `(p, q)`: the table at row `idx[p, 0]`, read signed and clamped into `[0, 28]`, column `q`. -/
private theorem gather_apply {α : Type} (emb : S29x7.Idx → α) (idx : IVec S26x1 32) (p : Fin 26) (q : Fin 7) :
    Host.gather gather_S29x7_S26x1_S26x7_1_0_n_n_0_1_17 emb idx (ix2 p q)
      = emb (ix2 (⟨min (idx (ix2 p (0 : Fin 1))).toInt.toNat 28, by omega⟩ : Fin 29) q) := by
  unfold Host.gather
  congr 1
  funext a
  refine Fin.ext ?_
  match a with
  | ⟨0, _⟩ =>
    show gather_S29x7_S26x1_S26x7_1_0_n_n_0_1_17.start (ix2 p q) idx 0 + gather_S29x7_S26x1_S26x7_1_0_n_n_0_1_17.batchCoord (ix2 p q) 0
      + gather_S29x7_S26x1_S26x7_1_0_n_n_0_1_17.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S29x7_S26x1_S26x7_1_0_n_n_0_1_17.startIndexMap from List.mem_singleton.mpr rfl)]
    have hsi : gather_S29x7_S26x1_S26x7_1_0_n_n_0_1_17.siIdx (ix2 p q) ⟨List.idxOf (0 : Fin 2) gather_S29x7_S26x1_S26x7_1_0_n_n_0_1_17.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S29x7_S26x1_S26x7_1_0_n_n_0_1_17.start (ix2 p q) idx 1 + gather_S29x7_S26x1_S26x7_1_0_n_n_0_1_17.batchCoord (ix2 p q) 1
      + gather_S29x7_S26x1_S26x7_1_0_n_n_0_1_17.offCoord (ix2 p q) 1 = q.val
    have h1 : gather_S29x7_S26x1_S26x7_1_0_n_n_0_1_17.start (ix2 p q) idx 1 = 0 := by
      unfold GatherDims.start
      exact dif_neg (fun h => absurd (List.mem_singleton.mp h) (by decide))
    have h2 : gather_S29x7_S26x1_S26x7_1_0_n_n_0_1_17.offCoord (ix2 p q) 1 = q.val := by
      unfold GatherDims.offCoord
      rw [dif_pos ((GatherDims.mem_sKept _ _).mpr ⟨fun h => absurd (List.mem_singleton.mp h) (by decide), List.not_mem_nil⟩)]
      rfl
    rw [GatherDims.batchCoord_eq_zero _ _ _ List.not_mem_nil, h1, h2, Nat.zero_add]

open Cert.ReferenceIdeal Cert.ReferenceIdeal.Gen in
/-- The gather's start index for token `p` is the token itself when it is not negative. -/
private theorem rIdx_apply (x : IVec S26 32) (p : Fin 26) (h0 : 0 ≤ (x (ix1 p)).toInt) :
    Cert.ReferenceIdeal.Stages.rIdx (F := Ideal) x (ix2 p (0 : Fin 1)) = x (ix1 p) := by
  unfold Cert.ReferenceIdeal.Stages.rIdx
  rw [broadcastInDim_apply _ bcast_S26_S26x1_0 _ (ix2 p (0 : Fin 1)) (ix1 p) (fun a => match a with
    | ⟨0, _⟩ => by show p.val = if (26 : Nat) = 1 then 0 else p.val; rw [if_neg (by decide)])]
  rw [select_apply]
  have hc : (cmpi .slt x (broadcastInDim S26 ![] bcast_S_S26 (constantI S_ 32 0#32))) (ix1 p) = 0#1 := by
    show IntOp.cmpi .slt (x (ix1 p)) (broadcastInDim S26 ![] bcast_S_S26 (constantI S_ 32 0#32) (ix1 p)) = 0#1
    rw [broadcastInDim_apply _ bcast_S_S26 _ (ix1 p) (fun a => a.elim0) (fun a => a.elim0)]
    show IntOp.cmpi .slt (x (ix1 p)) 0#32 = 0#1
    simp only [IntOp.cmpi]
    have hs : (x (ix1 p)).slt 0#32 = false := by
      apply Bool.eq_false_iff.mpr
      intro hlt
      have hl := BitVec.slt_iff_toInt_lt.mp hlt
      have z : (0#32 : BitVec 32).toInt = 0 := by decide
      omega
    rw [hs]; rfl
  rw [hc, select_zero]

/-- The embedding: with every token in `[0, 29)` the one-hot row `[x s = v]` times the table is the table's row
    `x s` (every other term of the sum is `0 · _ = 0`), which is the row the reference's gather reads (no wrap of a
    negative index, no clamp). -/
theorem emb_eq (x : IVec Cert.KernelIdeal.S26 32) (emb : FVec Ideal Cert.KernelIdeal.S29x7 .f32) (pos : FVec Ideal Cert.KernelIdeal.S26x7 .f32)
    (hx : ∀ s : Cert.KernelIdeal.S26.Idx, 0 ≤ (x s).toInt ∧ (x s).toInt < 29) :
    Cert.KernelIdeal.Stages.kEmb (F := Ideal) (shapeCast Cert.KernelIdeal.S26x1 x Cert.KernelIdeal.Gen.shapeCasts_S26_S26x1) emb pos = Cert.ReferenceIdeal.Stages.rEmb (F := Ideal) x emb pos := by
  funext i
  obtain ⟨p, q, rfl⟩ : ∃ p q, i = ix2 p q := ⟨i 0, i 1, eq_ix2 i⟩
  unfold Cert.KernelIdeal.Stages.kEmb Cert.ReferenceIdeal.Stages.rEmb
  dsimp only
  rw [addf_apply, addf_apply]
  congr 1
  obtain ⟨h0, h1⟩ := hx (ix1 p)
  have hv0 : (x (ix1 p)).toInt.toNat < 29 := by omega
  rw [prod_apply, gather_apply]
  simp only [rIdx_apply x p h0]
  have hrow : (⟨min (x (ix1 p)).toInt.toNat 28, by omega⟩ : Fin 29) = ⟨(x (ix1 p)).toInt.toNat, hv0⟩ := Fin.ext (by
    show min (x (ix1 p)).toInt.toNat 28 = (x (ix1 p)).toInt.toNat; omega)
  rw [hrow, Finset.sum_eq_single (⟨(x (ix1 p)).toInt.toNat, hv0⟩ : Fin 29)]
  · rw [onehot_apply, if_pos (by show (x (ix1 p)).toInt = (((x (ix1 p)).toInt.toNat : ℕ) : ℤ); omega), one_mul]
  · intro v _ hv
    rw [onehot_apply, if_neg (fun e => hv (Fin.ext (by show v.val = (x (ix1 p)).toInt.toNat; omega))), zero_mul]
  · intro h; exact absurd (Finset.mem_univ _) h

end Cert.Bridge

end
-- ==== Proof.BrLin.lean ====
/- The fused key/query/value projection against the reference's three linear maps. -/
import proofs.«404685_j56470230008152_2_alg».proof.Proof.KStages
import proofs.«404685_j56470230008152_2_alg».proof.Proof.RStages
import proofs.«404685_j56470230008152_2_alg».proof.Proof.Cat3

import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.SL.Sem Idealize.ShloMosaic.ValueIdx

/-! ## The stacks read at an index -/

/-- Row `11·k + j` of three 11-row blocks stacked along the rows is row `j` of block `k`. -/
private theorem cat3W_apply (p : Fin 3 → FVec Ideal Cert.KernelIdeal.S11x7 .f32) (k : Fin 3) (r : Fin 33) (j : Fin 11) (d : Fin 7)
    (hr : 11 * k.val + j.val = r.val) :
    cat3W (p 0) (p 1) (p 2) (ix2 r d) = p k (ix2 j d) := by
  unfold cat3W
  have hoff : ∀ b : Fin Cert.KernelIdeal.S11x7.rank, b.cast (rfl : Cert.KernelIdeal.S11x7.rank = Cert.KernelIdeal.S33x7.rank) ≠ (0 : Fin Cert.KernelIdeal.S33x7.rank) →
      ((ix2 j d : Cert.KernelIdeal.S11x7.Idx) b).val = ((ix2 r d : Cert.KernelIdeal.S33x7.Idx) (b.cast rfl)).val := fun b hb =>
    match b, hb with
    | ⟨0, _⟩, hb => absurd rfl hb
    | ⟨1, _⟩, _ => rfl
  match k, hr with
  | ⟨0, _⟩, hr =>
    exact concatenate_apply_piece (0 : Fin Cert.KernelIdeal.S33x7.rank) _ _ (ix2 r d) 0 (by exact (show (0 : ℕ) < 3 by decide)) Cert.KernelIdeal.S11x7 (p 0) rfl rfl 0 rfl (ix2 j d) hoff hr
  | ⟨1, _⟩, hr =>
    exact concatenate_apply_piece (0 : Fin Cert.KernelIdeal.S33x7.rank) _ _ (ix2 r d) 1 (by exact (show (1 : ℕ) < 3 by decide)) Cert.KernelIdeal.S11x7 (p 1) rfl rfl 11 rfl (ix2 j d) hoff hr
  | ⟨2, _⟩, hr =>
    exact concatenate_apply_piece (0 : Fin Cert.KernelIdeal.S33x7.rank) _ _ (ix2 r d) 2 (by exact (show (2 : ℕ) < 3 by decide)) Cert.KernelIdeal.S11x7 (p 2) rfl rfl 22 rfl (ix2 j d) hoff hr

/-- Entry `11·k + j` of three 11-entry vectors laid end to end is entry `j` of vector `k`. -/
private theorem cat3B_apply (q : Fin 3 → FVec Ideal Cert.KernelIdeal.S11 .f32) (k : Fin 3) (r : Fin 33) (j : Fin 11)
    (hr : 11 * k.val + j.val = r.val) :
    cat3B (q 0) (q 1) (q 2) (ix1 r) = q k (ix1 j) := by
  unfold cat3B
  have hoff : ∀ b : Fin Cert.KernelIdeal.S11.rank, b.cast (rfl : Cert.KernelIdeal.S11.rank = Cert.KernelIdeal.S33.rank) ≠ (0 : Fin Cert.KernelIdeal.S33.rank) →
      ((ix1 j : Cert.KernelIdeal.S11.Idx) b).val = ((ix1 r : Cert.KernelIdeal.S33.Idx) (b.cast rfl)).val := fun b hb =>
    match b, hb with
    | ⟨0, _⟩, hb => absurd rfl hb
  match k, hr with
  | ⟨0, _⟩, hr =>
    exact concatenate_apply_piece (0 : Fin Cert.KernelIdeal.S33.rank) _ _ (ix1 r) 0 (by exact (show (0 : ℕ) < 3 by decide)) Cert.KernelIdeal.S11 (q 0) rfl rfl 0 rfl (ix1 j) hoff hr
  | ⟨1, _⟩, hr =>
    exact concatenate_apply_piece (0 : Fin Cert.KernelIdeal.S33.rank) _ _ (ix1 r) 1 (by exact (show (1 : ℕ) < 3 by decide)) Cert.KernelIdeal.S11 (q 1) rfl rfl 11 rfl (ix1 j) hoff hr
  | ⟨2, _⟩, hr =>
    exact concatenate_apply_piece (0 : Fin Cert.KernelIdeal.S33.rank) _ _ (ix1 r) 2 (by exact (show (2 : ℕ) < 3 by decide)) Cert.KernelIdeal.S11 (q 2) rfl rfl 22 rfl (ix1 j) hoff hr

/-! ## The kernel's fused product read at an index -/

/-- The kernel's product contracts `h`'s columns against the transposed stack's rows: operand indices at output
    `(s, c)` and contraction coordinate `d` are `(s, d)` and `(d, c)`. -/
private theorem lhsK_0 (i : Cert.KernelIdeal.S26x33.Idx) (q : Cert.KernelIdeal.dot_S26x7_S7x33_S26x33_1_0_0_1_n_n.contr.Idx) :
    (Cert.KernelIdeal.dot_S26x7_S7x33_S26x33_1_0_0_1_n_n.lhsIdx i q 0).val = (i 0).val := by
  unfold DotDims.lhsIdx
  rw [dif_neg (show ¬(0 : Fin Cert.KernelIdeal.S26x7.rank) ∈ Cert.KernelIdeal.dot_S26x7_S7x33_S26x33_1_0_0_1_n_n.lhsBatch by decide),
    dif_pos (show (0 : Fin Cert.KernelIdeal.S26x7.rank) ∈ Cert.KernelIdeal.dot_S26x7_S7x33_S26x33_1_0_0_1_n_n.lhsNonContracting by decide)]
  rfl
private theorem lhsK_1 (i : Cert.KernelIdeal.S26x33.Idx) (q : Cert.KernelIdeal.dot_S26x7_S7x33_S26x33_1_0_0_1_n_n.contr.Idx) :
    (Cert.KernelIdeal.dot_S26x7_S7x33_S26x33_1_0_0_1_n_n.lhsIdx i q 1).val = (q ⟨0, by decide⟩).val :=
  Cert.KernelIdeal.dot_S26x7_S7x33_S26x33_1_0_0_1_n_n.lhsIdx_val_of_single rfl i q
private theorem rhsK_0 (i : Cert.KernelIdeal.S26x33.Idx) (q : Cert.KernelIdeal.dot_S26x7_S7x33_S26x33_1_0_0_1_n_n.contr.Idx) :
    (Cert.KernelIdeal.dot_S26x7_S7x33_S26x33_1_0_0_1_n_n.rhsIdx i q 0).val = (q ⟨0, by decide⟩).val :=
  Cert.KernelIdeal.dot_S26x7_S7x33_S26x33_1_0_0_1_n_n.rhsIdx_val_of_single rfl i q
private theorem rhsK_1 (i : Cert.KernelIdeal.S26x33.Idx) (q : Cert.KernelIdeal.dot_S26x7_S7x33_S26x33_1_0_0_1_n_n.contr.Idx) :
    (Cert.KernelIdeal.dot_S26x7_S7x33_S26x33_1_0_0_1_n_n.rhsIdx i q 1).val = (i 1).val := by
  unfold DotDims.rhsIdx
  rw [dif_neg (show ¬(1 : Fin Cert.KernelIdeal.S7x33.rank) ∈ Cert.KernelIdeal.dot_S26x7_S7x33_S26x33_1_0_0_1_n_n.rhsBatch by decide),
    dif_pos (show (1 : Fin Cert.KernelIdeal.S7x33.rank) ∈ Cert.KernelIdeal.dot_S26x7_S7x33_S26x33_1_0_0_1_n_n.rhsNonContracting by decide)]
  rfl

/-- Entry `(s, c)` of the fused projection over a 33-row weight block `W` and a 33-entry bias `B`:
    `∑ d, h s d · W c d + B c`. -/
private theorem kLin_apply (h : FVec Ideal Cert.KernelIdeal.S26x7 .f32) (W : FVec Ideal Cert.KernelIdeal.S33x7 .f32) (B : FVec Ideal Cert.KernelIdeal.S33 .f32)
    (s : Fin 26) (c : Fin 33) :
    Cert.KernelIdeal.Stages.kLin (F := Ideal) h W (shapeCast Cert.KernelIdeal.S1x33 B Cert.KernelIdeal.Gen.shapeCasts_S33_S1x33) (ix2 s c)
      = (∑ d : Fin 7, h (ix2 s d) * W (ix2 c d)) + B (ix1 c) := by
  unfold Cert.KernelIdeal.Stages.kLin
  dsimp only
  unfold Idealize.ShloMosaic.matmul
  rw [addf_apply, Ideal.matmul_constant_zero_apply,
    ← Equiv.sum_comp (contrEquiv1 Cert.KernelIdeal.dot_S26x7_S7x33_S26x33_1_0_0_1_n_n 7 rfl rfl).symm]
  refine congrArg₂ (· + ·) (Finset.sum_congr rfl fun k _ => ?_) ?_
  · -- the factors: h at (s, k), and the transposed stack at (k, c), which is the stack at (c, k)
    have hk := contrEquiv1_symm_val Cert.KernelIdeal.dot_S26x7_S7x33_S26x33_1_0_0_1_n_n 7 rfl rfl k
    have el : Cert.KernelIdeal.dot_S26x7_S7x33_S26x33_1_0_0_1_n_n.lhsIdx (ix2 s c) ((contrEquiv1 Cert.KernelIdeal.dot_S26x7_S7x33_S26x33_1_0_0_1_n_n 7 rfl rfl).symm k) = ix2 s k :=
      Shape.idx_ext₂ (lhsK_0 _ _) ((lhsK_1 _ _).trans hk)
    have er : Cert.KernelIdeal.dot_S26x7_S7x33_S26x33_1_0_0_1_n_n.rhsIdx (ix2 s c) ((contrEquiv1 Cert.KernelIdeal.dot_S26x7_S7x33_S26x33_1_0_0_1_n_n 7 rfl rfl).symm k) = ix2 k c :=
      Shape.idx_ext₂ ((rhsK_0 _ _).trans hk) (rhsK_1 _ _)
    rw [el, er, truncf_apply, transpose_ix2_apply, truncf_apply, shapeCast_self]
  · -- the bias row: the one row of the broadcast, a vector cast to a row and back and to a row again
    rw [broadcastTo_1b_ab_apply, shapeCast_shapeCast, shapeCast_a_1a_apply]

/-! ## The reference's linear map read at an index -/

private theorem lhsR_0 (i : Cert.ReferenceIdeal.S26x11.Idx) (q : Cert.ReferenceIdeal.dot_S26x7_S7x11_S26x11_1_0_0_1_n_n.contr.Idx) :
    (Cert.ReferenceIdeal.dot_S26x7_S7x11_S26x11_1_0_0_1_n_n.lhsIdx i q 0).val = (i 0).val := by
  unfold DotDims.lhsIdx
  rw [dif_neg (show ¬(0 : Fin Cert.ReferenceIdeal.S26x7.rank) ∈ Cert.ReferenceIdeal.dot_S26x7_S7x11_S26x11_1_0_0_1_n_n.lhsBatch by decide),
    dif_pos (show (0 : Fin Cert.ReferenceIdeal.S26x7.rank) ∈ Cert.ReferenceIdeal.dot_S26x7_S7x11_S26x11_1_0_0_1_n_n.lhsNonContracting by decide)]
  rfl
private theorem lhsR_1 (i : Cert.ReferenceIdeal.S26x11.Idx) (q : Cert.ReferenceIdeal.dot_S26x7_S7x11_S26x11_1_0_0_1_n_n.contr.Idx) :
    (Cert.ReferenceIdeal.dot_S26x7_S7x11_S26x11_1_0_0_1_n_n.lhsIdx i q 1).val = (q ⟨0, by decide⟩).val :=
  Cert.ReferenceIdeal.dot_S26x7_S7x11_S26x11_1_0_0_1_n_n.lhsIdx_val_of_single rfl i q
private theorem rhsR_0 (i : Cert.ReferenceIdeal.S26x11.Idx) (q : Cert.ReferenceIdeal.dot_S26x7_S7x11_S26x11_1_0_0_1_n_n.contr.Idx) :
    (Cert.ReferenceIdeal.dot_S26x7_S7x11_S26x11_1_0_0_1_n_n.rhsIdx i q 0).val = (q ⟨0, by decide⟩).val :=
  Cert.ReferenceIdeal.dot_S26x7_S7x11_S26x11_1_0_0_1_n_n.rhsIdx_val_of_single rfl i q
private theorem rhsR_1 (i : Cert.ReferenceIdeal.S26x11.Idx) (q : Cert.ReferenceIdeal.dot_S26x7_S7x11_S26x11_1_0_0_1_n_n.contr.Idx) :
    (Cert.ReferenceIdeal.dot_S26x7_S7x11_S26x11_1_0_0_1_n_n.rhsIdx i q 1).val = (i 1).val := by
  unfold DotDims.rhsIdx
  rw [dif_neg (show ¬(1 : Fin Cert.ReferenceIdeal.S7x11.rank) ∈ Cert.ReferenceIdeal.dot_S26x7_S7x11_S26x11_1_0_0_1_n_n.rhsBatch by decide),
    dif_pos (show (1 : Fin Cert.ReferenceIdeal.S7x11.rank) ∈ Cert.ReferenceIdeal.dot_S26x7_S7x11_S26x11_1_0_0_1_n_n.rhsNonContracting by decide)]
  rfl

/-- Entry `(s, j)` of the reference's linear map: `∑ d, h s d · w j d + b j`. -/
private theorem rLin_apply (h : FVec Ideal Cert.KernelIdeal.S26x7 .f32) (w : FVec Ideal Cert.KernelIdeal.S11x7 .f32) (b : FVec Ideal Cert.KernelIdeal.S11 .f32)
    (s : Fin 26) (j : Fin 11) :
    Cert.ReferenceIdeal.Stages.rLin (F := Ideal) h w b (ix2 s j) = (∑ d : Fin 7, h (ix2 s d) * w (ix2 j d)) + b (ix1 j) := by
  unfold Cert.ReferenceIdeal.Stages.rLin
  rw [addf_apply]
  simp only [Host.dotGeneral]
  rw [Ideal.dotGeneral_apply, ← Equiv.sum_comp (contrEquiv1 Cert.ReferenceIdeal.dot_S26x7_S7x11_S26x11_1_0_0_1_n_n 7 rfl rfl).symm]
  refine congrArg₂ (· + ·) (Finset.sum_congr rfl fun k _ => ?_) ?_
  · have hk := contrEquiv1_symm_val Cert.ReferenceIdeal.dot_S26x7_S7x11_S26x11_1_0_0_1_n_n 7 rfl rfl k
    have el : Cert.ReferenceIdeal.dot_S26x7_S7x11_S26x11_1_0_0_1_n_n.lhsIdx (ix2 s j) ((contrEquiv1 Cert.ReferenceIdeal.dot_S26x7_S7x11_S26x11_1_0_0_1_n_n 7 rfl rfl).symm k) = ix2 s k :=
      Shape.idx_ext₂ (lhsR_0 _ _) ((lhsR_1 _ _).trans hk)
    have er : Cert.ReferenceIdeal.dot_S26x7_S7x11_S26x11_1_0_0_1_n_n.rhsIdx (ix2 s j) ((contrEquiv1 Cert.ReferenceIdeal.dot_S26x7_S7x11_S26x11_1_0_0_1_n_n 7 rfl rfl).symm k) = ix2 k j :=
      Shape.idx_ext₂ ((rhsR_0 _ _).trans hk) (rhsR_1 _ _)
    rw [el, er, transpose_ix2_apply]
  · -- the bias: a vector made a row, the row repeated down the 26 rows
    refine (broadcastInDim_apply _ Cert.ReferenceIdeal.Gen.bcast_S1x11_S26x11_0_1 _ (ix2 s j) (ix2 (0 : Fin 1) j) (fun a => ?_)).trans
      (broadcastInDim_apply _ Cert.ReferenceIdeal.Gen.bcast_S11_S1x11_1 b (ix2 (0 : Fin 1) j) (ix1 j) (fun a => ?_))
    · match a with
      | ⟨0, _⟩ => show 0 = if (1 : Nat) = 1 then 0 else s.val; rw [if_pos rfl]
      | ⟨1, _⟩ => show j.val = if (11 : Nat) = 1 then 0 else j.val; rw [if_neg (by decide)]
    · match a with
      | ⟨0, _⟩ => show j.val = if (11 : Nat) = 1 then 0 else j.val; rw [if_neg (by decide)]

/-! ## Band `k` of the fused projection is the `k`-th linear map -/

/-- Column `11·k + j` of the fused projection over the stacked parameters is column `j` of the linear map with the
    `k`-th weights and bias: both are `∑ d, h s d · w_k j d + b_k j`, row `11·k + j` of a stack being row `j` of
    its `k`-th piece. -/
private theorem lin_band (h : FVec Ideal Cert.KernelIdeal.S26x7 .f32) (p : Fin 3 → FVec Ideal Cert.KernelIdeal.S11x7 .f32)
    (q : Fin 3 → FVec Ideal Cert.KernelIdeal.S11 .f32) (k : Fin 3) (s : Fin 26) (j : Fin 11) (c : Fin 33) (hc : 11 * k.val + j.val = c.val) :
    Cert.KernelIdeal.Stages.kLin (F := Ideal) h (cat3W (p 0) (p 1) (p 2))
        (shapeCast Cert.KernelIdeal.S1x33 (cat3B (q 0) (q 1) (q 2)) Cert.KernelIdeal.Gen.shapeCasts_S33_S1x33) (ix2 s c)
      = Cert.ReferenceIdeal.Stages.rLin (F := Ideal) h (p k) (q k) (ix2 s j) := by
  rw [kLin_apply, rLin_apply, cat3B_apply q k c j hc]
  refine congrArg (· + q k (ix1 j)) (Finset.sum_congr rfl fun d _ => ?_)
  rw [cat3W_apply p k c j d hc]

/-- The fused projection's three column bands are the three separate linear maps: column `j` of band `o` is
    `∑ d, h s d · w_o j d + b_o j`, the stacked weights' row `11·o + j` being `w_o`'s row `j`. -/
theorem lin_k (h : FVec Ideal Cert.KernelIdeal.S26x7 .f32) (wk wq wv : FVec Ideal Cert.KernelIdeal.S11x7 .f32) (bk bq bv : FVec Ideal Cert.KernelIdeal.S11 .f32) :
    Cert.KernelIdeal.Stages.kK (F := Ideal) (Cert.KernelIdeal.Stages.kLin (F := Ideal) h (cat3W wk wq wv) (shapeCast Cert.KernelIdeal.S1x33 (cat3B bk bq bv) Cert.KernelIdeal.Gen.shapeCasts_S33_S1x33))
      = Cert.ReferenceIdeal.Stages.rLin (F := Ideal) h wk bk := by
  funext i
  obtain ⟨s, j, rfl⟩ : ∃ (s : Fin 26) (j : Fin 11), i = ix2 s j := ⟨i 0, i 1, eq_ix2 i⟩
  unfold Cert.KernelIdeal.Stages.kK
  rw [slice2_axis1_apply 0 _ _ s j ⟨0 + j.val, by have := j.isLt; omega⟩ rfl]
  exact lin_band h ![wk, wq, wv] ![bk, bq, bv] 0 s j _ rfl
theorem lin_q (h : FVec Ideal Cert.KernelIdeal.S26x7 .f32) (wk wq wv : FVec Ideal Cert.KernelIdeal.S11x7 .f32) (bk bq bv : FVec Ideal Cert.KernelIdeal.S11 .f32) :
    Cert.KernelIdeal.Stages.kQ (F := Ideal) (Cert.KernelIdeal.Stages.kLin (F := Ideal) h (cat3W wk wq wv) (shapeCast Cert.KernelIdeal.S1x33 (cat3B bk bq bv) Cert.KernelIdeal.Gen.shapeCasts_S33_S1x33))
      = Cert.ReferenceIdeal.Stages.rLin (F := Ideal) h wq bq := by
  funext i
  obtain ⟨s, j, rfl⟩ : ∃ (s : Fin 26) (j : Fin 11), i = ix2 s j := ⟨i 0, i 1, eq_ix2 i⟩
  unfold Cert.KernelIdeal.Stages.kQ
  rw [slice2_axis1_apply 11 _ _ s j ⟨11 + j.val, by have := j.isLt; omega⟩ rfl]
  exact lin_band h ![wk, wq, wv] ![bk, bq, bv] 1 s j _ rfl
theorem lin_v (h : FVec Ideal Cert.KernelIdeal.S26x7 .f32) (wk wq wv : FVec Ideal Cert.KernelIdeal.S11x7 .f32) (bk bq bv : FVec Ideal Cert.KernelIdeal.S11 .f32) :
    Cert.KernelIdeal.Stages.kV (F := Ideal) (Cert.KernelIdeal.Stages.kLin (F := Ideal) h (cat3W wk wq wv) (shapeCast Cert.KernelIdeal.S1x33 (cat3B bk bq bv) Cert.KernelIdeal.Gen.shapeCasts_S33_S1x33))
      = Cert.ReferenceIdeal.Stages.rLin (F := Ideal) h wv bv := by
  funext i
  obtain ⟨s, j, rfl⟩ : ∃ (s : Fin 26) (j : Fin 11), i = ix2 s j := ⟨i 0, i 1, eq_ix2 i⟩
  unfold Cert.KernelIdeal.Stages.kV
  rw [slice2_axis1_apply 22 _ _ s j ⟨22 + j.val, by have := j.isLt; omega⟩ rfl]
  exact lin_band h ![wk, wq, wv] ![bk, bq, bv] 2 s j _ rfl

end Cert.Bridge

end
-- ==== Proof.BrAtt.lean ====
/- The kernel's causal softmax against the reference's. -/
import proofs.«404685_j56470230008152_2_alg».proof.Proof.KStages
import proofs.«404685_j56470230008152_2_alg».proof.Proof.RStages

import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.Bridge

open Idealize.ShloMosaic Idealize.ShloMosaic.TcCoe Idealize.SL.Sem Idealize.ShloMosaic.ValueIdx

/-! The kernel's stage, cut in two: the masked scores, and the softmax of a square of scores. -/

open Cert.KernelIdeal Cert.KernelIdeal.Gen in
/-- The kernel's masked scores: the product of the query band with the transposed key band into a zero
    accumulator, kept where row ≥ column and replaced by the named fill elsewhere. -/
private def kScores (v21 : FVec Ideal Cert.KernelIdeal.S26x33 .f32) : FVec Ideal Cert.KernelIdeal.S26x26 .f32 :=
  have v22 : FVec Ideal S26x11 .f32 := extractStridedSlice S26x11 ![0, 0] v21 slices_S26x33_o0_0_S26x11
  have v23 : FVec Ideal S26x11 .f32 := extractStridedSlice S26x11 ![0, 11] v21 slices_S26x33_o0_11_S26x11
  have v25 : FVec Ideal S26x11 .bf16 := truncf .bf16 v23 bitsLt_bf16_f32
  have v26 : FVec Ideal S26x11 .bf16 := truncf .bf16 v22 bitsLt_bf16_f32
  have v27 : FVec Ideal S11x26 .bf16 := transpose S11x26 [1, 0] v26 transposes_S26x11_p1_0_S11x26
  have cst_9 : FVec Ideal S26x26 .f32 := constant S26x26 .f32 0x00000000#32
  have v28 : FVec Ideal S26x26 .f32 := matmul dot_S26x11_S11x26_S26x26_1_0_0_1_n_n none v25 v27 cst_9
  have v29 : IVec S26x26 32 := iota .tc S26x26 32 [0] iota_S26x26_d0_w32
  have v30 : IVec S26x26 32 := iota .tc S26x26 32 [1] iota_S26x26_d1_w32
  have v31 : IVec S26x26 1 := cmpi .sge v29 v30
  have cst_10 : Ideal .f32 := Named.named κ "neg_big" 0xFF333332#32
  have v32 : FVec Ideal S26x26 .f32 := broadcast S26x26 cst_10
  select v31 v28 v32

open Cert.KernelIdeal Cert.KernelIdeal.Gen in
/-- The kernel's softmax along each row of a square of scores: the row maximum, the shifted exponentials, the row
    sum, the quotient. -/
private def kSoftmax (v33 : FVec Ideal Cert.KernelIdeal.S26x26 .f32) : FVec Ideal Cert.KernelIdeal.S26x26 .f32 :=
  have v34 : FVec Ideal S26 .f32 := multiReduction .maximumf [1] S26 v33 0xFF800000#32 reduces_S26x26_S26 (.inl rfl) rfl
  have v35 : FVec Ideal S26x1 .f32 := shapeCast S26x1 v34 shapeCasts_S26_S26x1
  have v36 : FVec Ideal S26x26 .f32 := broadcastTo S26x26 v35 broadcasts_S26x1_S26x26
  have v37 : FVec Ideal S26x26 .f32 := subf v33 v36
  have v38 : FVec Ideal S26x26 .f32 := exp v37
  have v39 : FVec Ideal S26 .f32 := multiReduction .add [1] S26 v38 0x00000000#32 reduces_S26x26_S26 (.inl rfl) rfl
  have v40 : FVec Ideal S26x1 .f32 := shapeCast S26x1 v39 shapeCasts_S26_S26x1
  have v41 : FVec Ideal S26x26 .f32 := broadcastTo S26x26 v40 broadcasts_S26x1_S26x26
  divf v38 v41

/-- The kernel's stage is the softmax of its masked scores. -/
private theorem kAtt_split (kqv : FVec Ideal Cert.KernelIdeal.S26x33 .f32) :
    Cert.KernelIdeal.Stages.kAtt (F := Ideal) kqv = kSoftmax (kScores kqv) := rfl

/-! ## The scores: both products are `∑ j, q s j · k t j` -/

section Dots
/-! The dot record's operand indices at output index `i` and contraction index `q`: the left operand is read at
   `(i 0, q)`, the right at `(q, i 1)`. -/
open Cert.KernelIdeal in
private theorem kd_lhs0 (i : S26x26.Idx) (q : dot_S26x11_S11x26_S26x26_1_0_0_1_n_n.contr.Idx) :
    (dot_S26x11_S11x26_S26x26_1_0_0_1_n_n.lhsIdx i q 0).val = (i 0).val := by
  unfold DotDims.lhsIdx
  rw [dif_neg (show ¬(0 : Fin S26x11.rank) ∈ dot_S26x11_S11x26_S26x26_1_0_0_1_n_n.lhsBatch by decide), dif_pos (show (0 : Fin S26x11.rank) ∈ dot_S26x11_S11x26_S26x26_1_0_0_1_n_n.lhsNonContracting by decide)]
  rfl
open Cert.KernelIdeal in
private theorem kd_lhs1 (i : S26x26.Idx) (q : dot_S26x11_S11x26_S26x26_1_0_0_1_n_n.contr.Idx) :
    (dot_S26x11_S11x26_S26x26_1_0_0_1_n_n.lhsIdx i q 1).val = (q ⟨0, by decide⟩).val :=
  dot_S26x11_S11x26_S26x26_1_0_0_1_n_n.lhsIdx_val_of_single rfl i q
open Cert.KernelIdeal in
private theorem kd_rhs0 (i : S26x26.Idx) (q : dot_S26x11_S11x26_S26x26_1_0_0_1_n_n.contr.Idx) :
    (dot_S26x11_S11x26_S26x26_1_0_0_1_n_n.rhsIdx i q 0).val = (q ⟨0, by decide⟩).val :=
  dot_S26x11_S11x26_S26x26_1_0_0_1_n_n.rhsIdx_val_of_single rfl i q
open Cert.KernelIdeal in
private theorem kd_rhs1 (i : S26x26.Idx) (q : dot_S26x11_S11x26_S26x26_1_0_0_1_n_n.contr.Idx) :
    (dot_S26x11_S11x26_S26x26_1_0_0_1_n_n.rhsIdx i q 1).val = (i 1).val := by
  unfold DotDims.rhsIdx
  rw [dif_neg (show ¬(1 : Fin S11x26.rank) ∈ dot_S26x11_S11x26_S26x26_1_0_0_1_n_n.rhsBatch by decide), dif_pos (show (1 : Fin S11x26.rank) ∈ dot_S26x11_S11x26_S26x26_1_0_0_1_n_n.rhsNonContracting by decide)]
  rfl

/-- The two programs print one dot record (contract axis 1 of the left operand with axis 0 of the right). -/
private theorem rd_eq : Cert.ReferenceIdeal.dot_S26x11_S11x26_S26x26_1_0_0_1_n_n = Cert.KernelIdeal.dot_S26x11_S11x26_S26x26_1_0_0_1_n_n := rfl

open Cert.KernelIdeal in
/-- The kernel's product into the zero accumulator at `(s, t)`: `∑ j, a s j · b j t`. -/
private theorem kmat_apply (a : FVec Ideal S26x11 .bf16) (b : FVec Ideal S11x26 .bf16) (s t : Fin 26) :
    matmul dot_S26x11_S11x26_S26x26_1_0_0_1_n_n none a b (constant S26x26 .f32 0x00000000#32) (ix2 s t)
      = ∑ j : Fin 11, a (ix2 s j) * b (ix2 j t) := by
  simp only [matmul]
  rw [Ideal.matmul_constant_zero_apply, ← Equiv.sum_comp (contrEquiv1 dot_S26x11_S11x26_S26x26_1_0_0_1_n_n 11 rfl rfl).symm]
  refine Finset.sum_congr rfl fun k _ => ?_
  have hk := contrEquiv1_symm_val dot_S26x11_S11x26_S26x26_1_0_0_1_n_n 11 rfl rfl k
  have el : dot_S26x11_S11x26_S26x26_1_0_0_1_n_n.lhsIdx (ix2 s t) ((contrEquiv1 dot_S26x11_S11x26_S26x26_1_0_0_1_n_n 11 rfl rfl).symm k) = ix2 s k := funext fun c => Fin.ext (by
    match c with
    | ⟨0, _⟩ => exact kd_lhs0 _ _
    | ⟨1, _⟩ => exact (kd_lhs1 _ _).trans hk)
  have er : dot_S26x11_S11x26_S26x26_1_0_0_1_n_n.rhsIdx (ix2 s t) ((contrEquiv1 dot_S26x11_S11x26_S26x26_1_0_0_1_n_n 11 rfl rfl).symm k) = ix2 k t := funext fun c => Fin.ext (by
    match c with
    | ⟨0, _⟩ => exact (kd_rhs0 _ _).trans hk
    | ⟨1, _⟩ => exact kd_rhs1 _ _)
  rw [el, er]

open Cert.KernelIdeal in
/-- The reference's host product at `(s, t)`: the same sum. -/
private theorem rdot_apply (a : FVec Ideal S26x11 .f32) (b : FVec Ideal S11x26 .f32) (s t : Fin 26) :
    Host.dotGeneral Cert.ReferenceIdeal.dot_S26x11_S11x26_S26x26_1_0_0_1_n_n none a b (ix2 s t)
      = ∑ j : Fin 11, a (ix2 s j) * b (ix2 j t) := by
  rw [rd_eq]
  simp only [Host.dotGeneral]
  rw [Ideal.dotGeneral_apply, ← Equiv.sum_comp (contrEquiv1 dot_S26x11_S11x26_S26x26_1_0_0_1_n_n 11 rfl rfl).symm]
  refine Finset.sum_congr rfl fun k _ => ?_
  have hk := contrEquiv1_symm_val dot_S26x11_S11x26_S26x26_1_0_0_1_n_n 11 rfl rfl k
  have el : dot_S26x11_S11x26_S26x26_1_0_0_1_n_n.lhsIdx (ix2 s t) ((contrEquiv1 dot_S26x11_S11x26_S26x26_1_0_0_1_n_n 11 rfl rfl).symm k) = ix2 s k := funext fun c => Fin.ext (by
    match c with
    | ⟨0, _⟩ => exact kd_lhs0 _ _
    | ⟨1, _⟩ => exact (kd_lhs1 _ _).trans hk)
  have er : dot_S26x11_S11x26_S26x26_1_0_0_1_n_n.rhsIdx (ix2 s t) ((contrEquiv1 dot_S26x11_S11x26_S26x26_1_0_0_1_n_n 11 rfl rfl).symm k) = ix2 k t := funext fun c => Fin.ext (by
    match c with
    | ⟨0, _⟩ => exact (kd_rhs0 _ _).trans hk
    | ⟨1, _⟩ => exact kd_rhs1 _ _)
  rw [el, er]
end Dots

/-! ## The mask and the fill -/

/-- A rank-0 array broadcast to any shape reads its one element everywhere. -/
private theorem bcast0_apply {α : Type} (T : Shape) (h : Cert.ReferenceIdeal.S_.BroadcastsInDim T (![] : Fin 0 → Fin T.rank))
    (y : Cert.ReferenceIdeal.S_.Idx → α) (i : T.Idx) :
    broadcastInDim T ![] h y i = y ix0 :=
  broadcastInDim_apply _ h y i ix0 (fun c => c.elim0)

/-- The kernel's mask at `(s, t)`: the bit of `s ≥ t` (signed, on the 32-bit row and column numbers). -/
private theorem kmask_apply (s t : Fin 26) :
    cmpi .sge (iota .tc Cert.KernelIdeal.S26x26 32 [0] Cert.KernelIdeal.Gen.iota_S26x26_d0_w32)
      (iota .tc Cert.KernelIdeal.S26x26 32 [1] Cert.KernelIdeal.Gen.iota_S26x26_d1_w32) (ix2 s t)
      = IntOp.cmpi .sge (BitVec.ofNat 32 s.val) (BitVec.ofNat 32 t.val) := by
  show IntOp.cmpi .sge (iota .tc Cert.KernelIdeal.S26x26 32 [0] Cert.KernelIdeal.Gen.iota_S26x26_d0_w32 (ix2 s t))
      (iota .tc Cert.KernelIdeal.S26x26 32 [1] Cert.KernelIdeal.Gen.iota_S26x26_d1_w32 (ix2 s t)) = _
  rw [iota_single_apply, iota_single_apply]

/-- The reference's mask at `(s, t)`: the same bit — adding the constant 0 to the row number changes nothing, and
    selecting true / false by a bit gives the bit back. -/
private theorem rmask_apply (s t : Fin 26) :
    Cert.ReferenceIdeal.Stages.rMask (F := Ideal) (ix2 s t) = IntOp.cmpi .sge (BitVec.ofNat 32 s.val) (BitVec.ofNat 32 t.val) := by
  unfold Cert.ReferenceIdeal.Stages.rMask
  rw [select_apply, bcast0_apply, bcast0_apply]
  show Scalar.select (IntOp.cmpi .sge (IntOp.addi (BitVec.ofNat 32 s.val)
      (broadcastInDim Cert.ReferenceIdeal.S26x26 ![] Cert.ReferenceIdeal.Gen.bcast_S_S26x26 (constantI Cert.ReferenceIdeal.S_ 32 0#32) (ix2 s t)))
      (BitVec.ofNat 32 t.val)) 1#1 0#1 = _
  rw [bcast0_apply]
  show Scalar.select (IntOp.cmpi .sge (BitVec.ofNat 32 s.val + 0#32) (BitVec.ofNat 32 t.val)) 1#1 0#1 = _
  rw [BitVec.add_zero]
  by_cases h : IntOp.cmpi .sge (BitVec.ofNat 32 s.val) (BitVec.ofNat 32 t.val) = 1#1
  · rw [h, select_one]
  · rw [eq_zero_of_ne_one h, select_zero]

/-- The pattern `0xFF800000` is −∞. -/
private theorem ofBits_neg_inf : Ideal.ofBits .f32 0xFF800000#32 = ⊥ := by simp [Ideal.ofBits, Ideal.ieee]

/-- The reference's fill is −∞ everywhere. -/
private theorem rfill_apply (i : Cert.ReferenceIdeal.S26x26.Idx) : Cert.ReferenceIdeal.Stages.rFill (F := Ideal) i = ⊥ := by
  unfold Cert.ReferenceIdeal.Stages.rFill
  rw [bcast0_apply]
  exact ofBits_neg_inf

/-- The kernel's named fill is −∞ at the ideal instance, by the program's table. -/
private theorem kfill : Named.named (F := Ideal) Cert.KernelIdeal.κ "neg_big" (φ := .f32) 0xFF333332#32 = (⊥ : EReal) := rfl

/-- The masked scores agree: the same sums on and below the diagonal, −∞ above it. -/
private theorem scores_eq (kqv : FVec Ideal Cert.KernelIdeal.S26x33 .f32) :
    kScores kqv = Cert.ReferenceIdeal.Stages.rScores (F := Ideal) (Cert.KernelIdeal.Stages.kQ (F := Ideal) kqv) (Cert.KernelIdeal.Stages.kK (F := Ideal) kqv) := by
  funext i
  obtain ⟨s, t, rfl⟩ : ∃ s t, i = ix2 s t := ⟨i 0, i 1, eq_ix2 i⟩
  unfold kScores Cert.ReferenceIdeal.Stages.rScores
  rw [select_apply, select_apply, kmask_apply, rmask_apply, rfill_apply, broadcast_apply, kfill, kmat_apply, rdot_apply]
  refine congrArg (fun x => Scalar.select _ x ⊥) (Finset.sum_congr rfl fun j _ => ?_)
  rw [transpose_ix2_apply, transpose_ix2_apply]
  rfl

/-! ## The softmax of a square of scores -/

/-- The kernel's column of row values laid across the square (a cast to one column, then a broadcast along the
    rows) and the reference's (two broadcasts) read, at `(s, t)`, the value of row `s`. -/
private theorem kcol_apply {α : Type} (m : Cert.KernelIdeal.S26.Idx → α) (s t : Fin 26) :
    broadcastTo Cert.KernelIdeal.S26x26 (shapeCast Cert.KernelIdeal.S26x1 m Cert.KernelIdeal.Gen.shapeCasts_S26_S26x1)
      Cert.KernelIdeal.Gen.broadcasts_S26x1_S26x26 (ix2 s t) = m (ix1 s) := by
  rw [broadcastTo_apply _ Cert.KernelIdeal.Gen.broadcasts_S26x1_S26x26 (ix2 s t) (ix2 s (0 : Fin 1)) (fun c => match c with
    | ⟨0, _⟩ => by show s.val = if (26 : Nat) = 1 then 0 else s.val; rw [if_neg (by decide)]
    | ⟨1, _⟩ => by show 0 = if (1 : Nat) = 1 then 0 else t.val; rw [if_pos rfl])]
  exact shapeCast_apply m Cert.KernelIdeal.Gen.shapeCasts_S26_S26x1 _ _ (by
    rw [Shape.rowMajor_val_two, Shape.rowMajor_val_one]
    show s.val = s.val * 1 + 0
    omega)

private theorem rcol_apply {α : Type} (m : Cert.ReferenceIdeal.S26.Idx → α) (s t : Fin 26) :
    broadcastInDim Cert.ReferenceIdeal.S26x26 ![0, 1] Cert.ReferenceIdeal.Gen.bcast_S26x1_S26x26_0_1
      (broadcastInDim Cert.ReferenceIdeal.S26x1 ![0] Cert.ReferenceIdeal.Gen.bcast_S26_S26x1_0 m) (ix2 s t) = m (ix1 s) := by
  rw [broadcastInDim_apply _ Cert.ReferenceIdeal.Gen.bcast_S26x1_S26x26_0_1 _ (ix2 s t) (ix2 s (0 : Fin 1)) (fun c => match c with
    | ⟨0, _⟩ => by show s.val = if (26 : Nat) = 1 then 0 else s.val; rw [if_neg (by decide)]
    | ⟨1, _⟩ => by show 0 = if (1 : Nat) = 1 then 0 else t.val; rw [if_pos rfl])]
  exact broadcastInDim_apply _ Cert.ReferenceIdeal.Gen.bcast_S26_S26x1_0 m _ (ix1 s) (fun c => match c with
    | ⟨0, _⟩ => by show s.val = if (26 : Nat) = 1 then 0 else s.val; rw [if_neg (by decide)])

/-- So the two layouts of a column of row values are one array. -/
private theorem kcol_eq_rcol {α : Type} (m : Cert.KernelIdeal.S26.Idx → α) :
    broadcastTo Cert.KernelIdeal.S26x26 (shapeCast Cert.KernelIdeal.S26x1 m Cert.KernelIdeal.Gen.shapeCasts_S26_S26x1)
      Cert.KernelIdeal.Gen.broadcasts_S26x1_S26x26
    = broadcastInDim Cert.ReferenceIdeal.S26x26 ![0, 1] Cert.ReferenceIdeal.Gen.bcast_S26x1_S26x26_0_1
      (broadcastInDim Cert.ReferenceIdeal.S26x1 ![0] Cert.ReferenceIdeal.Gen.bcast_S26_S26x1_0 m) := by
  funext i
  obtain ⟨s, t, rfl⟩ : ∃ s t, i = ix2 s t := ⟨i 0, i 1, eq_ix2 i⟩
  rw [kcol_apply, rcol_apply]

/-- The row maxima: the kernel's reduction from −∞ and the reference's (its reduction from −∞, then a further
    maximum with −∞) are the same fold of `max` over the row, since `max ⊥ m = m`. -/
private theorem kmax_eq_rmax (a : FVec Ideal Cert.KernelIdeal.S26x26 .f32) :
    multiReduction .maximumf [1] Cert.KernelIdeal.S26 a 0xFF800000#32 Cert.KernelIdeal.Gen.reduces_S26x26_S26 (.inl rfl) rfl
    = maximumf (broadcastInDim Cert.ReferenceIdeal.S26 ![] Cert.ReferenceIdeal.Gen.bcast_S_S26 (constant Cert.ReferenceIdeal.S_ .f32 0xFF800000#32))
      (Host.reduce FloatOps.maximumf a (constant Cert.ReferenceIdeal.S_ .f32 0xFF800000#32) Cert.ReferenceIdeal.Gen.reducesTo_S26x26_S26_d1 Cert.ReferenceIdeal.Gen.h_S_) := by
  funext j
  refine (Ideal.multiReduction_maximumf_single a 0xFF800000#32 Cert.KernelIdeal.Gen.reduces_S26x26_S26 (.inl rfl) rfl j).trans ?_
  rw [maximumf_apply, bcast0_apply,
    Host.reduce_eq_fold_single FloatOps.maximumf a _ Cert.ReferenceIdeal.Gen.reducesTo_S26x26_S26_d1 Cert.KernelIdeal.Gen.reduces_S26x26_S26]
  show Finset.fold max (Ideal.ofBits .f32 0xFF800000#32) _ _
    = max (Ideal.ofBits .f32 0xFF800000#32) (Finset.fold max (Ideal.ofBits .f32 0xFF800000#32) _ _)
  rw [ofBits_neg_inf, max_bot_left]

/-- The softmax of any square of scores: the kernel's chain is the reference's, operation by operation — the same
    row maxima laid across the square, the same differences and exponentials (one function at the ideal instance),
    the same row sums (the reference's starts from the constant 0), the same quotients. -/
private theorem softmax_eq (a : FVec Ideal Cert.KernelIdeal.S26x26 .f32) :
    kSoftmax a = Cert.ReferenceIdeal.Stages.rSoftmax (F := Ideal) a := by
  unfold kSoftmax Cert.ReferenceIdeal.Stages.rSoftmax
  dsimp only
  rw [kcol_eq_rcol, kcol_eq_rcol, kmax_eq_rmax,
    multiReduction_add_eq_hostReduceAdd _ 0x00000000#32 Cert.KernelIdeal.Gen.reduces_S26x26_S26 (.inl rfl) rfl
      (constant Cert.ReferenceIdeal.S_ .f32 0x00000000#32) Cert.ReferenceIdeal.Gen.reducesTo_S26x26_S26_d1
      Cert.ReferenceIdeal.Gen.h_S_ Ideal.ofBits_zero_f32]
  rfl

/-- The kernel's causal softmax of the fused projection is the reference's of its query and key bands: the same
    scores `∑ j, q s j · k t j`, the same fill −∞ above the diagonal (the kernel's named fill is −∞ at the ideal
    instance), the same row maximum (the reference's extra `max(−∞, ·)` changes nothing), exponentials, row sums
    and quotients. -/
theorem att_eq (kqv : FVec Ideal Cert.KernelIdeal.S26x33 .f32) :
    Cert.KernelIdeal.Stages.kAtt (F := Ideal) kqv = Cert.ReferenceIdeal.Stages.rAtt (F := Ideal) (Cert.KernelIdeal.Stages.kQ (F := Ideal) kqv) (Cert.KernelIdeal.Stages.kK (F := Ideal) kqv) := by
  rw [kAtt_split, scores_eq, softmax_eq]
  rfl

end Cert.Bridge

end
-- ==== Proof.BrFfn.lean ====
/- The attention block's output map, and the final map to the logits, against the reference's. -/
import proofs.«404685_j56470230008152_2_alg».proof.Proof.KStages
import proofs.«404685_j56470230008152_2_alg».proof.Proof.RStages

import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Bridge

open Idealize.ShloMosaic Idealize.ShloMosaic.TcCoe Idealize.SL.Sem Idealize.ShloMosaic.ValueIdx

/-- At the ideal values a change of float format leaves every entry as it is. -/
private theorem truncf_ideal {s : Shape} {φ ψ : FTy} (a : FVec Ideal s φ) (h : ψ.bits < φ.bits) :
    (truncf ψ a h : FVec Ideal s ψ) = a := rfl

/-- A vector of `n` entries laid along each of `m` rows. The kernel casts it to one row and broadcasts the row
    down; the reference broadcasts it to one row along axis 1 and that row down the rows. Entry (p, q) of both
    is entry q of the vector. -/
private theorem row_down {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd1 x) := by
  funext i
  obtain ⟨p, q, rfl⟩ : ∃ (p : Fin m) (q : Fin n), i = ix2 p q := ⟨i 0, i 1, eq_ix2 i⟩
  rw [broadcastTo_1b_ab_apply, shapeCast_a_1a_apply, broadcastInDim_oneRow_apply]
  refine Eq.symm (broadcastInDim_apply ![1] hd1 x (ix2 (0 : Fin 1) q) (ix1 q) fun a => ?_)
  match a with
  | ⟨0, _⟩ =>
    show q.val = if n = 1 then 0 else q.val
    split
    · have := q.isLt; omega
    · rfl

/-- The block's output: the kernel's two products (weights × values, then × the transposed 7 × 11 block) and bias
    row are the reference's; a change of float format is the identity at the ideal instance. -/
theorem ffn_eq (v : FVec Ideal Cert.KernelIdeal.S26x11 .f32) (att : FVec Ideal Cert.KernelIdeal.S26x26 .f32)
    (wf : FVec Ideal Cert.KernelIdeal.S7x11 .f32) (bf : FVec Ideal Cert.KernelIdeal.S7 .f32) :
    Cert.KernelIdeal.Stages.kFfn (F := Ideal) v (truncf .bf16 att Cert.KernelIdeal.Gen.bitsLt_bf16_f32) wf (shapeCast Cert.KernelIdeal.S1x7 bf Cert.KernelIdeal.Gen.shapeCasts_S7_S1x7)
      = Cert.ReferenceIdeal.Stages.rFfn (F := Ideal) att v wf bf := by
  unfold Cert.KernelIdeal.Stages.kFfn Cert.ReferenceIdeal.Stages.rFfn
  simp only [truncf_ideal, shapeCast_self, shapeCast_shapeCast, matmul_zero_eq_dotGeneral]
  rw [row_down bf Cert.KernelIdeal.Gen.shapeCasts_S7_S1x7 Cert.KernelIdeal.Gen.broadcasts_S1x7_S26x7
    Cert.ReferenceIdeal.Gen.bcast_S7_S1x7_1 Cert.ReferenceIdeal.Gen.bcast_S1x7_S26x7_0_1]
  rfl

/-- The logits: the kernel's product with the transposed 29 × 7 block plus the bias row is the reference's. -/
theorem out_eq (h : FVec Ideal Cert.KernelIdeal.S26x7 .f32) (w : FVec Ideal Cert.KernelIdeal.S29x7 .f32) (b : FVec Ideal Cert.KernelIdeal.S29 .f32) :
    Cert.KernelIdeal.Stages.kOut (F := Ideal) h w (shapeCast Cert.KernelIdeal.S1x29 b Cert.KernelIdeal.Gen.shapeCasts_S29_S1x29) = Cert.ReferenceIdeal.Stages.rOut (F := Ideal) h w b := by
  unfold Cert.KernelIdeal.Stages.kOut Cert.ReferenceIdeal.Stages.rOut
  simp only [truncf_ideal, shapeCast_self, shapeCast_shapeCast, matmul_zero_eq_dotGeneral]
  rw [row_down b Cert.KernelIdeal.Gen.shapeCasts_S29_S1x29 Cert.KernelIdeal.Gen.broadcasts_S1x29_S26x29
    Cert.ReferenceIdeal.Gen.bcast_S29_S1x29_1 Cert.ReferenceIdeal.Gen.bcast_S1x29_S26x29_0_1]
  rfl

end Cert.Bridge

end
-- ==== Proof.Algebra.lean ====
/- The kernel's two stored values are the reference's two results, as functions of the arguments.

   With the tokens in range, stage by stage: the one-hot product is the row gather; the fused projection's three
   bands are the three linear maps of the keys, queries and values; the causal softmax is the reference's; the
   weights times the values followed by the output map is the reference's; the same again for the second block;
   and the final map gives the logits. The weight array's row bands the body loads are the stacked parameters
   themselves, so each stage meets the reference's stage on the same arguments. -/
import proofs.«404685_j56470230008152_2_alg».proof.Proof.KIFrame
import proofs.«404685_j56470230008152_2_alg».proof.Proof.KStages
import proofs.«404685_j56470230008152_2_alg».proof.Proof.RStages
import proofs.«404685_j56470230008152_2_alg».proof.Proof.RRead
import proofs.«404685_j56470230008152_2_alg».proof.Proof.SlabDef
import proofs.«404685_j56470230008152_2_alg».proof.Proof.SlabRead
import proofs.«404685_j56470230008152_2_alg».proof.Proof.BrEmb
import proofs.«404685_j56470230008152_2_alg».proof.Proof.BrLin
import proofs.«404685_j56470230008152_2_alg».proof.Proof.BrAtt
import proofs.«404685_j56470230008152_2_alg».proof.Proof.BrFfn
import Idealize.ShloMosaic.Lib.Pipeline.Value

noncomputable section

namespace Cert.Bridge

open Idealize.ShloMosaic Idealize.ShloMosaic.TcCoe Idealize.SL.Sem Cert.KernelIdeal Cert.KernelIdeal.Gen Cert.KernelIdeal.Hand
open Cert.KernelIdeal.Stages Cert.ReferenceIdeal.Stages

variable (x : IVec S26 32) (a1 : FVec Ideal S29x7 .f32) (a2 : FVec Ideal S26x7 .f32) (a3 : FVec Ideal S11x7 .f32) (a4 : FVec Ideal S11 .f32) (a5 : FVec Ideal S11x7 .f32) (a6 : FVec Ideal S11 .f32) (a7 : FVec Ideal S11x7 .f32) (a8 : FVec Ideal S11 .f32) (a9 : FVec Ideal S7x11 .f32) (a10 : FVec Ideal S7 .f32) (a11 : FVec Ideal S11x7 .f32) (a12 : FVec Ideal S11 .f32) (a13 : FVec Ideal S11x7 .f32) (a14 : FVec Ideal S11 .f32) (a15 : FVec Ideal S11x7 .f32) (a16 : FVec Ideal S11 .f32) (a17 : FVec Ideal S7x11 .f32) (a18 : FVec Ideal S7 .f32) (a19 : FVec Ideal S29x7 .f32) (a20 : FVec Ideal S29 .f32)
variable (hx : ∀ s : S26.Idx, 0 ≤ (x s).toInt ∧ (x s).toInt < 29)

theorem hz2 : (![0, 0] : Fin 2 → Nat) = fun _ => 0 := funext fun a => by fin_cases a <;> rfl

include hx in
/-- The first block's fused projection of the embedding, band by band. -/
theorem stage_kqv0 :
    k0_pay2 (F := Ideal) (shapeCast S26x1 x shapeCasts_S26_S26x1) a1 a2 (cat3W a3 a5 a7) (shapeCast S1x33 (cat3B a4 a6 a8) shapeCasts_S33_S1x33)
      = kLin (F := Ideal) (Cert.ReferenceIdeal.Read.val_main_v7 (F := Ideal) x a1 a2) (cat3W a3 a5 a7) (shapeCast S1x33 (cat3B a4 a6 a8) shapeCasts_S33_S1x33) := by
  rw [pay2_eq, emb_eq x a1 a2 hx, v7_eq]

include hx in
/-- The second result: the second block's attention weights. -/
theorem att1_eq :
    att1 (F := Ideal) (shapeCast S26x1 x shapeCasts_S26_S26x1) a1 a2 (slabOf a3 a4 a5 a6 a7 a8 a9 a10 a11 a12 a13 a14 a15 a16 a17 a18 a19 a20) = Cert.ReferenceIdeal.Read.val_main_v75 (F := Ideal) x a1 a2 a3 a4 a5 a6 a7 a8 a9 a10 a11 a12 a13 a14 := by
  unfold att1
  rw [View.ld_unit_zero hz2, View.ld_unit_zero hz2, View.ld_unit_zero hz2]
  rw [ld_W0, ld_B0, ld_F0, ld_G0, ld_W1, ld_B1]
  rw [pay7_eq, pay5_eq, pay3_eq, pay4_eq, stage_kqv0 x a1 a2 a3 a4 a5 a6 a7 a8 hx]
  repeat rw [att_eq]
  repeat rw [lin_q]
  repeat rw [lin_k]
  repeat rw [lin_v]
  repeat rw [ffn_eq]
  rw [v75_eq, v54_eq, v49_eq, v44_eq, v38_eq, v22_eq, v17_eq, v12_eq]

include hx in
/-- The first result: the logits. -/
theorem logits_eq :
    logits (F := Ideal) (shapeCast S26x1 x shapeCasts_S26_S26x1) a1 a2 (slabOf a3 a4 a5 a6 a7 a8 a9 a10 a11 a12 a13 a14 a15 a16 a17 a18 a19 a20) = Cert.ReferenceIdeal.Read.val_main_v86 (F := Ideal) x a1 a2 a3 a4 a5 a6 a7 a8 a9 a10 a11 a12 a13 a14 a15 a16 a17 a18 a19 a20 := by
  unfold logits
  rw [att1_eq x a1 a2 a3 a4 a5 a6 a7 a8 a9 a10 a11 a12 a13 a14 a15 a16 a17 a18 a19 a20 hx]
  rw [View.ld_unit_zero hz2, View.ld_unit_zero hz2, View.ld_unit_zero hz2]
  rw [ld_W0, ld_B0, ld_F0, ld_G0, ld_W1, ld_B1, ld_F1, ld_G1, ld_Wo, ld_Bo]
  rw [pay1_eq, pay6_eq, pay5_eq, pay3_eq, pay4_eq, stage_kqv0 x a1 a2 a3 a4 a5 a6 a7 a8 hx]
  repeat rw [att_eq]
  repeat rw [lin_q]
  repeat rw [lin_k]
  repeat rw [lin_v]
  repeat rw [ffn_eq]
  rw [out_eq]
  rw [v86_eq, v81_eq, v59_eq, v44_eq, v38_eq, v22_eq, v17_eq, v12_eq]

end Cert.Bridge

end
-- ==== Proof.lean ====
/- The certificate of the two-layer attention kernel against its reference.

   The kernel's program lays its eighteen weight and bias arrays out in one 114 × 128 array on the host and calls one
   gridless kernel, which computes, for 26 tokens: the embedding of each token (a one-hot row times the table) plus
   its position row; twice an attention block — keys, queries and values by one fused product, the causal softmax
   of queries against keys, the weighted values mapped back to width 7 —; and the logits. The reference gathers the
   table's rows, and computes the same stages with separate products.

   Frames: each kernel program runs to the end from any memory and leaves its arguments as launched (the host
   operations write none of them and the region stages two of them as inputs); the reference's frame is its run
   with the results dropped. The idealization names the kernel's finite mask fill as −∞, the value the reference
   fills with. At the ideal instance, with every token in `[0, 29)`, the kernel's two stored values are the
   reference's two results as functions of the arguments. -/
import proofs.«404685_j56470230008152_2_alg».proof.Defs
import proofs.«404685_j56470230008152_2_alg».proof.Proof.Gen.Kernel
import proofs.«404685_j56470230008152_2_alg».proof.Proof.Gen.KernelIdeal
import proofs.«404685_j56470230008152_2_alg».proof.Proof.Gen.ReferenceIdeal
import proofs.«404685_j56470230008152_2_alg».proof.Proof.Gen.Pre_finite_inputs
import proofs.«404685_j56470230008152_2_alg».proof.Proof.Gen.ReferenceIdeal.Run
import proofs.«404685_j56470230008152_2_alg».proof.Proof.Gen.ReferenceIdeal.Read
import proofs.«404685_j56470230008152_2_alg».proof.Proof.KFrame
import proofs.«404685_j56470230008152_2_alg».proof.Proof.KIFrame
import proofs.«404685_j56470230008152_2_alg».proof.Proof.KIValue
import proofs.«404685_j56470230008152_2_alg».proof.Proof.SlabVal
import proofs.«404685_j56470230008152_2_alg».proof.Proof.PreDecode
import proofs.«404685_j56470230008152_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two ledger entries are one statement: the table gives the fill's name the value −∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs run; the kernel's result arrays hold the stored values of what the region found in its operands —
    the token column and the weight array as the host operations built them from the arguments —, and these are the
    reference's results on arguments that agree. -/
theorem algebraic : Cert.algebraic_KernelIdeal_ReferenceIdeal := by
  intro m ρ m' ρ' hpre hagree
  refine ⟨_, _, Cert.KernelIdeal.Hand.run_value (F := Ideal) m ρ, ?_⟩
  refine (θ_run Cert.ReferenceIdeal.defs _ _).mono (fun r h c => ?_) (Cert.ReferenceIdeal.Value.run (F := Ideal) m' ρ')
  obtain ⟨h0, h1, hk⟩ := h c
  obtain ⟨g0, g1, g2, g3, g4, g5, g6, g7, g8, g9, g10, g11, g12, g13, g14, g15, g16, g17, g18, g19, g20⟩ := hagree c
  have hx := fun s => Cert.Bridge.tokens_in_range m hpre c s
  refine ⟨h0.trans ?_, h1.trans ?_, hk⟩
  · rw [Cert.ReferenceIdeal.Read.val_main_v86_eq, g0, g1, g2, g3, g4, g5, g6, g7, g8, g9, g10, g11, g12, g13, g14, g15, g16, g17, g18, g19, g20, Cert.Bridge.V_tokens, Cert.Bridge.V_slab]
    exact (Cert.Bridge.logits_eq _ _ _ _ _ _ _ _ _ _ _ _ _ _ _ _ _ _ _ _ _ hx).symm
  · rw [Cert.ReferenceIdeal.Read.val_main_v75_eq, g0, g1, g2, g3, g4, g5, g6, g7, g8, g9, g10, g11, g12, g13, g14, Cert.Bridge.V_tokens, Cert.Bridge.V_slab]
    exact (Cert.Bridge.att1_eq _ _ _ _ _ _ _ _ _ _ _ _ _ _ _ _ _ _ _ _ _ hx).symm

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
